-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x19x512x512 : Shape := ⟨4, ![8, 19, 512, 512]⟩
abbrev S_ : Shape := ⟨0, ![]⟩

class Facts : Prop where
  bcast_S_S8x19x512x512 : S_.BroadcastsInDim S8x19x512x512 (![] : Fin 0 → Fin S8x19x512x512.rank)
  reducesTo_S8x19x512x512_S_d0_1_2_3 : S8x19x512x512.ReducesTo [0, 1, 2, 3] S_
  h_S_ : 0 < S_.numel

variable [Facts]

def fn {F : FTy → Type} [FloatOps F] (main_arg0 : FVec F S8x19x512x512 .f32) (main_arg1 : FVec F S8x19x512x512 .f32) (main_arg2 : FVec F S8x19x512x512 .f32) : IVec S_ 1 :=
  let main_v0 : FVec F S8x19x512x512 .f32 := Host.absf main_arg0
  let main_cst : FVec F S_ .f32 := constant S_ .f32 0x7F800000#32
  let main_v1 : FVec F S8x19x512x512 .f32 := broadcastInDim S8x19x512x512 ![] bcast_S_S8x19x512x512 main_cst
  let main_v2 : IVec S8x19x512x512 1 := cmpf .olt main_v0 main_v1
  let main_c : IVec S_ 1 := constantI S_ 1 1#1
  let main_v3 : IVec S_ 1 := (fun x v => Host.reduce IntOp.andi x v reducesTo_S8x19x512x512_S_d0_1_2_3 h_S_) main_v2 main_c
  let main_v4 : FVec F S8x19x512x512 .f32 := Host.absf main_arg1
  let main_cst_0 : FVec F S_ .f32 := constant S_ .f32 0x7F800000#32
  let main_v5 : FVec F S8x19x512x512 .f32 := broadcastInDim S8x19x512x512 ![] bcast_S_S8x19x512x512 main_cst_0
  let main_v6 : IVec S8x19x512x512 1 := cmpf .olt main_v4 main_v5
  let main_c_1 : IVec S_ 1 := constantI S_ 1 1#1
  let main_v7 : IVec S_ 1 := (fun x v => Host.reduce IntOp.andi x v reducesTo_S8x19x512x512_S_d0_1_2_3 h_S_) main_v6 main_c_1
  let main_v8 : IVec S_ 1 := andi main_v3 main_v7
  let main_v9 : FVec F S8x19x512x512 .f32 := Host.absf main_arg2
  let main_cst_2 : FVec F S_ .f32 := constant S_ .f32 0x7F800000#32
  let main_v10 : FVec F S8x19x512x512 .f32 := broadcastInDim S8x19x512x512 ![] bcast_S_S8x19x512x512 main_cst_2
  let main_v11 : IVec S8x19x512x512 1 := cmpf .olt main_v9 main_v10
  let main_c_3 : IVec S_ 1 := constantI S_ 1 1#1
  let main_v12 : IVec S_ 1 := (fun x v => Host.reduce IntOp.andi x v reducesTo_S8x19x512x512_S_d0_1_2_3 h_S_) main_v11 main_c_3
  let main_v13 : IVec S_ 1 := andi main_v8 main_v12
  main_v13
-- ==== Kernel.lean ====
abbrev S8x19x512x512 : Shape := ⟨4, ![8, 19, 512, 512]⟩
abbrev S3 : Shape := ⟨1, ![3]⟩
abbrev S1x19x512x512 : Shape := ⟨4, ![1, 19, 512, 512]⟩
abbrev S19x512x512 : Shape := ⟨3, ![19, 512, 512]⟩
abbrev S_ : Shape := ⟨0, ![]⟩
abbrev S3x1 : Shape := ⟨2, ![3, 1]⟩
abbrev S3x512x512 : Shape := ⟨3, ![3, 512, 512]⟩
abbrev S786432 : Shape := ⟨1, ![786432]⟩
abbrev S6144x128 : Shape := ⟨2, ![6144, 128]⟩
abbrev S2x3072x128 : Shape := ⟨3, ![2, 3072, 128]⟩
abbrev S6x3072x128 : Shape := ⟨3, ![6, 3072, 128]⟩
abbrev S6x1x256 : Shape := ⟨3, ![6, 1, 256]⟩
abbrev S1x256x128 : Shape := ⟨3, ![1, 256, 128]⟩
abbrev S1x1x256 : Shape := ⟨3, ![1, 1, 256]⟩
abbrev S1x256 : Shape := ⟨2, ![1, 256]⟩
abbrev S1x32x128 : Shape := ⟨3, ![1, 32, 128]⟩
abbrev S32x128 : Shape := ⟨2, ![32, 128]⟩
abbrev S32x128x256 : Shape := ⟨3, ![32, 128, 256]⟩
abbrev S32x128x1 : Shape := ⟨3, ![32, 128, 1]⟩
abbrev S4096x256 : Shape := ⟨2, ![4096, 256]⟩
abbrev S1x4096 : Shape := ⟨2, ![1, 4096]⟩
abbrev S256 : Shape := ⟨1, ![256]⟩
abbrev S256x1 : Shape := ⟨2, ![256, 1]⟩

abbrev nBuf : Space → Nat
  | .hbm => 83
  | .vmem => 5
  | .smem => 0
  | _ => 0

abbrev bufTy : (tb : Table) → Fin (tcTables nBuf tb) → BufTy
  | .hbm, ⟨0, _⟩ => ⟨S8x19x512x512, .f32⟩
  | .hbm, ⟨1, _⟩ => ⟨S8x19x512x512, .f32⟩
  | .hbm, ⟨2, _⟩ => ⟨S8x19x512x512, .f32⟩
  | .hbm, ⟨3, _⟩ => ⟨S3, .i32⟩
  | .hbm, ⟨4, _⟩ => ⟨S3, .i32⟩
  | .hbm, ⟨5, _⟩ => ⟨S3, .i32⟩
  | .hbm, ⟨6, _⟩ => ⟨S1x19x512x512, .f32⟩
  | .hbm, ⟨7, _⟩ => ⟨S19x512x512, .f32⟩
  | .hbm, ⟨8, _⟩ => ⟨S_, .i32⟩
  | .hbm, ⟨9, _⟩ => ⟨S3, .i32⟩
  | .hbm, ⟨10, _⟩ => ⟨S3, .i1⟩
  | .hbm, ⟨11, _⟩ => ⟨S_, .i32⟩
  | .hbm, ⟨12, _⟩ => ⟨S3, .i32⟩
  | .hbm, ⟨13, _⟩ => ⟨S3, .i32⟩
  | .hbm, ⟨14, _⟩ => ⟨S3, .i32⟩
  | .hbm, ⟨15, _⟩ => ⟨S3x1, .i32⟩
  | .hbm, ⟨16, _⟩ => ⟨S3x512x512, .f32⟩
  | .hbm, ⟨17, _⟩ => ⟨S786432, .f32⟩
  | .hbm, ⟨18, _⟩ => ⟨S6144x128, .f32⟩
  | .hbm, ⟨19, _⟩ => ⟨S2x3072x128, .f32⟩
  | .hbm, ⟨20, _⟩ => ⟨S1x19x512x512, .f32⟩
  | .hbm, ⟨21, _⟩ => ⟨S19x512x512, .f32⟩
  | .hbm, ⟨22, _⟩ => ⟨S_, .i32⟩
  | .hbm, ⟨23, _⟩ => ⟨S3, .i32⟩
  | .hbm, ⟨24, _⟩ => ⟨S3, .i1⟩
  | .hbm, ⟨25, _⟩ => ⟨S_, .i32⟩
  | .hbm, ⟨26, _⟩ => ⟨S3, .i32⟩
  | .hbm, ⟨27, _⟩ => ⟨S3, .i32⟩
  | .hbm, ⟨28, _⟩ => ⟨S3, .i32⟩
  | .hbm, ⟨29, _⟩ => ⟨S3x1, .i32⟩
  | .hbm, ⟨30, _⟩ => ⟨S3x512x512, .f32⟩
  | .hbm, ⟨31, _⟩ => ⟨S786432, .f32⟩
  | .hbm, ⟨32, _⟩ => ⟨S6144x128, .f32⟩
  | .hbm, ⟨33, _⟩ => ⟨S2x3072x128, .f32⟩
  | .hbm, ⟨34, _⟩ => ⟨S1x19x512x512, .f32⟩
  | .hbm, ⟨35, _⟩ => ⟨S19x512x512, .f32⟩
  | .hbm, ⟨36, _⟩ => ⟨S_, .i32⟩
  | .hbm, ⟨37, _⟩ => ⟨S3, .i32⟩
  | .hbm, ⟨38, _⟩ => ⟨S3, .i1⟩
  | .hbm, ⟨39, _⟩ => ⟨S_, .i32⟩
  | .hbm, ⟨40, _⟩ => ⟨S3, .i32⟩
  | .hbm, ⟨41, _⟩ => ⟨S3, .i32⟩
  | .hbm, ⟨42, _⟩ => ⟨S3, .i32⟩
  | .hbm, ⟨43, _⟩ => ⟨S3x1, .i32⟩
  | .hbm, ⟨44, _⟩ => ⟨S3x512x512, .f32⟩
  | .hbm, ⟨45, _⟩ => ⟨S786432, .f32⟩
  | .hbm, ⟨46, _⟩ => ⟨S6144x128, .f32⟩
  | .hbm, ⟨47, _⟩ => ⟨S2x3072x128, .f32⟩
  | .hbm, ⟨48, _⟩ => ⟨S6x3072x128, .f32⟩
  | .hbm, ⟨49, _⟩ => ⟨S6x1x256, .f32⟩
  | .hbm, ⟨50, _⟩ => ⟨S1x1x256, .f32⟩
  | .hbm, ⟨51, _⟩ => ⟨S256, .f32⟩
  | .hbm, ⟨52, _⟩ => ⟨S1x1x256, .f32⟩
  | .hbm, ⟨53, _⟩ => ⟨S256, .f32⟩
  | .hbm, ⟨54, _⟩ => ⟨S256, .f32⟩
  | .hbm, ⟨55, _⟩ => ⟨S256x1, .f32⟩
  | .hbm, ⟨56, _⟩ => ⟨S1x1x256, .f32⟩
  | .hbm, ⟨57, _⟩ => ⟨S256, .f32⟩
  | .hbm, ⟨58, _⟩ => ⟨S1x1x256, .f32⟩
  | .hbm, ⟨59, _⟩ => ⟨S256, .f32⟩
  | .hbm, ⟨60, _⟩ => ⟨S256, .f32⟩
  | .hbm, ⟨61, _⟩ => ⟨S256x1, .f32⟩
  | .hbm, ⟨62, _⟩ => ⟨S1x1x256, .f32⟩
  | .hbm, ⟨63, _⟩ => ⟨S256, .f32⟩
  | .hbm, ⟨64, _⟩ => ⟨S1x1x256, .f32⟩
  | .hbm, ⟨65, _⟩ => ⟨S256, .f32⟩
  | .hbm, ⟨66, _⟩ => ⟨S256, .f32⟩
  | .hbm, ⟨67, _⟩ => ⟨S256x1, .f32⟩
  | .hbm, ⟨68, _⟩ => ⟨S256x1, .f32⟩
  | .hbm, ⟨69, _⟩ => ⟨S256x1, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S256x1, .f32⟩
  | .hbm, ⟨75, _⟩ => ⟨S256x1, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .local _ .vmem, ⟨0, _⟩ => ⟨S1x256x128, .f32⟩
  | .local _ .vmem, ⟨1, _⟩ => ⟨S1x256x128, .f32⟩
  | .local _ .vmem, ⟨2, _⟩ => ⟨S1x1x256, .f32⟩
  | .local _ .vmem, ⟨3, _⟩ => ⟨S1x1x256, .f32⟩
  | .local _ .vmem, ⟨4, _⟩ => ⟨S1x256, .f32⟩
  | _, _ => ⟨S8x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0 : Ref sig .tc := ⟨.hbm, 6, rfl⟩
abbrev main_v1 : Ref sig .tc := ⟨.hbm, 7, rfl⟩
abbrev main_c_2 : Ref sig .tc := ⟨.hbm, 8, rfl⟩
abbrev main_v2 : Ref sig .tc := ⟨.hbm, 9, rfl⟩
abbrev main_v3 : Ref sig .tc := ⟨.hbm, 10, rfl⟩
abbrev main_c_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_4 : Ref sig .tc := ⟨.hbm, 22, rfl⟩
abbrev main_v14 : Ref sig .tc := ⟨.hbm, 23, rfl⟩
abbrev main_v15 : Ref sig .tc := ⟨.hbm, 24, rfl⟩
abbrev main_c_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_6 : Ref sig .tc := ⟨.hbm, 36, rfl⟩
abbrev main_v26 : Ref sig .tc := ⟨.hbm, 37, rfl⟩
abbrev main_v27 : Ref sig .tc := ⟨.hbm, 38, rfl⟩
abbrev main_c_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst : Ref sig .tc := ⟨.hbm, 70, rfl⟩
abbrev main_v58 : Ref sig .tc := ⟨.hbm, 71, rfl⟩
abbrev main_cst_8 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_9 : Ref sig .tc := ⟨.hbm, 76, rfl⟩
abbrev main_v62 : Ref sig .tc := ⟨.hbm, 77, rfl⟩
abbrev main_cst_10 : Ref sig .tc := ⟨.hbm, 78, rfl⟩
abbrev main_v63 : Ref sig .tc := ⟨.hbm, 79, rfl⟩
abbrev main_cst_11 : Ref sig .tc := ⟨.hbm, 80, rfl⟩
abbrev main_v64 : Ref sig .tc := ⟨.hbm, 81, rfl⟩
abbrev main_v65 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![6, 12], ![false, false]⟩

def k0_mult1 : BitVec 32 :=
  let c0_i32_1 : BitVec 32 := 0#32
  let c32_i32 : BitVec 32 := 32#32
  let v4 : BitVec 32 := Scalar.muli c0_i32_1 c32_i32
  v4
def k0_off1 (c0_i32_1 : BitVec 32) : Fin 3 → Nat :=
  let c0 : Index := 0#32
  let c32_i32 : BitVec 32 := 32#32
  let v4 : BitVec 32 := Scalar.muli c0_i32_1 c32_i32
  let v5 : BitVec 32 := v4
  let v6 : Index := Scalar.indexCast v5
  let c0_2 : Index := 0#32
  ![0, v6.toNat, 0]
def k0_mult2 : BitVec 32 :=
  let c1_i32 : BitVec 32 := 1#32
  let c32_i32_7 : BitVec 32 := 32#32
  let v31 : BitVec 32 := Scalar.muli c1_i32 c32_i32_7
  v31
def k0_mult3 : BitVec 32 :=
  let c2_i32 : BitVec 32 := 2#32
  let c32_i32_16 : BitVec 32 := 32#32
  let v58 : BitVec 32 := Scalar.muli c2_i32 c32_i32_16
  v58
def k0_mult4 : BitVec 32 :=
  let c3_i32 : BitVec 32 := 3#32
  let c32_i32_25 : BitVec 32 := 32#32
  let v85 : BitVec 32 := Scalar.muli c3_i32 c32_i32_25
  v85
def k0_mult5 : BitVec 32 :=
  let c4_i32 : BitVec 32 := 4#32
  let c32_i32_34 : BitVec 32 := 32#32
  let v112 : BitVec 32 := Scalar.muli c4_i32 c32_i32_34
  v112
def k0_mult6 : BitVec 32 :=
  let c5_i32 : BitVec 32 := 5#32
  let c32_i32_43 : BitVec 32 := 32#32
  let v139 : BitVec 32 := Scalar.muli c5_i32 c32_i32_43
  v139
def k0_mult7 : BitVec 32 :=
  let c6_i32 : BitVec 32 := 6#32
  let c32_i32_52 : BitVec 32 := 32#32
  let v166 : BitVec 32 := Scalar.muli c6_i32 c32_i32_52
  v166
def k0_mult8 : BitVec 32 :=
  let c7_i32 : BitVec 32 := 7#32
  let c32_i32_61 : BitVec 32 := 32#32
  let v193 : BitVec 32 := Scalar.muli c7_i32 c32_i32_61
  v193
def k0_cond2 (i : grid0.Coords) : BitVec 1 :=
  let arg1 : BitVec 32 := BitVec.ofNat 32 (i 1).val
  let c11_i32 : BitVec 32 := 11#32
  let v225 : BitVec 1 := Scalar.cmpi .eq arg1 c11_i32
  let v226 : BitVec 32 := Scalar.extui v225
  let c0_i32_74 : BitVec 32 := 0#32
  let v227 : BitVec 1 := Scalar.cmpi .ne v226 c0_i32_74
  v227

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  slices_S8x19x512x512_S1x19x512x512_7_0_0_0 : S8x19x512x512.Slices ![7, 0, 0, 0] S1x19x512x512
  shapeCasts_S1x19x512x512_S19x512x512 : S1x19x512x512.ShapeCasts S19x512x512
  bcast_S_S3 : S_.BroadcastsInDim S3 (![] : Fin 0 → Fin S3.rank)
  bcast_S3_S3x1_0 : S3.BroadcastsInDim S3x1 (![0] : Fin 1 → Fin S3x1.rank)
  shapeCasts_S3x512x512_S786432 : S3x512x512.ShapeCasts S786432
  shapeCasts_S786432_S6144x128 : S786432.ShapeCasts S6144x128
  shapeCasts_S6144x128_S2x3072x128 : S6144x128.ShapeCasts S2x3072x128
  concatenates_S2x3072x128_S2x3072x128_S2x3072x128_S6x3072x128_d0 : Shape.Concatenates [S2x3072x128, S2x3072x128, S2x3072x128] S6x3072x128 0
  inb_S1x256_S1x256_0_0 : ∀ a, (![0, 0] : Fin 2 → Nat) a + S1x256.size a ≤ S1x256.size a
  h_S1x256 : 0 < S1x256.numel
  shapeCasts_S1x256_S1x256 : S1x256.ShapeCasts S1x256
  h_S1x32x128 : 0 < S1x32x128.numel
  shapeCasts_S1x32x128_S32x128 : S1x32x128.ShapeCasts S32x128
  iota_S32x128x256_d2_w32 : S32x128x256.Iotas .tc 32 [2]
  shapeCasts_S32x128_S32x128x1 : S32x128.ShapeCasts S32x128x1
  broadcasts_S32x128x1_S32x128x256 : S32x128x1.Broadcasts S32x128x256
  natLt_1_32 : 1 < 32
  bitsLt_bf16_f32 : FTy.bits .bf16 < FTy.bits .f32
  shapeCasts_S32x128x256_S4096x256 : S32x128x256.ShapeCasts S4096x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  slices_S6x1x256_S1x1x256_0_0_0 : S6x1x256.Slices ![0, 0, 0] S1x1x256
  shapeCasts_S1x1x256_S256 : S1x1x256.ShapeCasts S256
  slices_S6x1x256_S1x1x256_1_0_0 : S6x1x256.Slices ![1, 0, 0] S1x1x256
  shapeCasts_S256_S256x1 : S256.ShapeCasts S256x1
  slices_S6x1x256_S1x1x256_2_0_0 : S6x1x256.Slices ![2, 0, 0] S1x1x256
  slices_S6x1x256_S1x1x256_3_0_0 : S6x1x256.Slices ![3, 0, 0] S1x1x256
  slices_S6x1x256_S1x1x256_4_0_0 : S6x1x256.Slices ![4, 0, 0] S1x1x256
  slices_S6x1x256_S1x1x256_5_0_0 : S6x1x256.Slices ![5, 0, 0] S1x1x256
  reducesTo_S256x1_S_d0_1 : S256x1.ReducesTo [0, 1] S_
  h_S_ : 0 < S_.numel
  gather_S19x512x512_S3x1_S3x512x512_12_0_n_n_0_1_1512512_wf : GatherDims.WF S19x512x512 S3x1 S3x512x512 [1, 2] [0] [] [0] [] 1 ![1, 512, 512]
  dot_S1x4096_S4096x256_S1x256_1_0_0_1_n_n_wf : DotDims.WF S1x4096 S4096x256 S1x256 [1] [0] [0] [1] [] []
  hrank0 : 0 < grid0.rank
  k0_mult1_dvd : 32 ∣ k0_mult1.toNat
  k0_off1_inb : ∀ (r : Fin 8), ∀ a, (k0_off1 (BitVec.ofNat 32 r.val)) a + S1x32x128.size a ≤ S1x256x128.size a
  k0_mult2_dvd : 32 ∣ k0_mult2.toNat
  k0_mult3_dvd : 32 ∣ k0_mult3.toNat
  k0_mult4_dvd : 32 ∣ k0_mult4.toNat
  k0_mult5_dvd : 32 ∣ k0_mult5.toNat
  k0_mult6_dvd : 32 ∣ k0_mult6.toNat
  k0_mult7_dvd : 32 ∣ k0_mult7.toNat
  k0_mult8_dvd : 32 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S6x3072x128.size a
  hwx0_0 : ∀ i : grid0.Coords, EltTy.bits .f32 = 32 ∨ (Rect.block (s := S6x3072x128) S1x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S6x1x256.size a
  hwx0_1 : ∀ i : grid0.Coords, EltTy.bits .f32 = 32 ∨ (Rect.block (s := S6x1x256) S1x1x256.size (cc0_transform_1 i) (hinb0_1 i)).WholeWords (EltTy.packing .f32)

variable [Facts₀]

def gather_S19x512x512_S3x1_S3x512x512_12_0_n_n_0_1_1512512 : GatherDims S19x512x512 S3x1 S3x512x512 where
  offsetDims := [1, 2]
  collapsedSliceDims := [0]
  operandBatchingDims := []
  startIndicesBatchingDims := []
  startIndexMap := [0]
  indexVectorDim := 1
  sliceSizes := ![1, 512, 512]
  wf := gather_S19x512x512_S3x1_S3x512x512_12_0_n_n_0_1_1512512_wf
def dot_S1x4096_S4096x256_S1x256_1_0_0_1_n_n : DotDims S1x4096 S4096x256 S1x256 where
  lhsContracting := [1]
  rhsContracting := [0]
  lhsNonContracting := [0]
  rhsNonContracting := [1]
  lhsBatch := []
  rhsBatch := []
  wf := dot_S1x4096_S4096x256_S1x256_1_0_0_1_n_n_wf

abbrev win0_0 : Pipeline.Window sig grid0 :=
  Pipeline.Window.ofSpec (Memref.whole main_v36) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S1x1x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S8x19x512x512 : Shape := ⟨4, ![8, 19, 512, 512]⟩
abbrev S3 : Shape := ⟨1, ![3]⟩
abbrev S1x19x512x512 : Shape := ⟨4, ![1, 19, 512, 512]⟩
abbrev S19x512x512 : Shape := ⟨3, ![19, 512, 512]⟩
abbrev S_ : Shape := ⟨0, ![]⟩
abbrev S3x1 : Shape := ⟨2, ![3, 1]⟩
abbrev S3x512x512 : Shape := ⟨3, ![3, 512, 512]⟩
abbrev S786432 : Shape := ⟨1, ![786432]⟩
abbrev S256 : Shape := ⟨1, ![256]⟩
abbrev S786432x1 : Shape := ⟨2, ![786432, 1]⟩
abbrev S256x1 : Shape := ⟨2, ![256, 1]⟩

abbrev nBuf : Space → Nat
  | .hbm => 157
  | .vmem => 0
  | .smem => 0
  | _ => 0

abbrev hbmTy0_0 (i : Nat) : BufTy := match i % 128 with
  | 0 => ⟨S8x19x512x512, .f32⟩
  | 1 => ⟨S8x19x512x512, .f32⟩
  | 2 => ⟨S8x19x512x512, .f32⟩
  | 3 => ⟨S3, .i32⟩
  | 4 => ⟨S1x19x512x512, .f32⟩
  | 5 => ⟨S19x512x512, .f32⟩
  | 6 => ⟨S_, .i32⟩
  | 7 => ⟨S3, .i32⟩
  | 8 => ⟨S3, .i1⟩
  | 9 => ⟨S_, .i32⟩
  | 10 => ⟨S3, .i32⟩
  | 11 => ⟨S3, .i32⟩
  | 12 => ⟨S3, .i32⟩
  | 13 => ⟨S3x1, .i32⟩
  | 14 => ⟨S3x512x512, .f32⟩
  | 15 => ⟨S_, .f32⟩
  | 16 => ⟨S3x512x512, .f32⟩
  | 17 => ⟨S3x512x512, .f32⟩
  | 18 => ⟨S3x512x512, .f32⟩
  | 19 => ⟨S3x512x512, .i32⟩
  | 20 => ⟨S_, .i32⟩
  | 21 => ⟨S3x512x512, .i32⟩
  | 22 => ⟨S3x512x512, .i1⟩
  | 23 => ⟨S_, .i32⟩
  | 24 => ⟨S3x512x512, .i32⟩
  | 25 => ⟨S3x512x512, .i1⟩
  | 26 => ⟨S3x512x512, .i1⟩
  | 27 => ⟨S786432, .i1⟩
  | 28 => ⟨S786432, .f32⟩
  | 29 => ⟨S_, .i32⟩
  | 30 => ⟨S_, .i32⟩
  | 31 => ⟨S_, .i32⟩
  | 32 => ⟨S3x512x512, .i32⟩
  | 33 => ⟨S3x512x512, .i32⟩
  | 34 => ⟨S_, .i32⟩
  | 35 => ⟨S3x512x512, .i32⟩
  | 36 => ⟨S3x512x512, .i32⟩
  | 37 => ⟨S786432, .i32⟩
  | 38 => ⟨S_, .f32⟩
  | 39 => ⟨S256, .f32⟩
  | 40 => ⟨S_, .i32⟩
  | 41 => ⟨S786432, .i32⟩
  | 42 => ⟨S786432, .i1⟩
  | 43 => ⟨S_, .i32⟩
  | 44 => ⟨S786432, .i32⟩
  | 45 => ⟨S786432, .i32⟩
  | 46 => ⟨S786432, .i32⟩
  | 47 => ⟨S786432x1, .i32⟩
  | 48 => ⟨S256, .f32⟩
  | 49 => ⟨S256x1, .f32⟩
  | 50 => ⟨S1x19x512x512, .f32⟩
  | 51 => ⟨S19x512x512, .f32⟩
  | 52 => ⟨S_, .i32⟩
  | 53 => ⟨S3, .i32⟩
  | 54 => ⟨S3, .i1⟩
  | 55 => ⟨S_, .i32⟩
  | 56 => ⟨S3, .i32⟩
  | 57 => ⟨S3, .i32⟩
  | 58 => ⟨S3, .i32⟩
  | 59 => ⟨S3x1, .i32⟩
  | 60 => ⟨S3x512x512, .f32⟩
  | 61 => ⟨S_, .f32⟩
  | 62 => ⟨S3x512x512, .f32⟩
  | 63 => ⟨S3x512x512, .f32⟩
  | 64 => ⟨S3x512x512, .f32⟩
  | 65 => ⟨S3x512x512, .i32⟩
  | 66 => ⟨S_, .i32⟩
  | 67 => ⟨S3x512x512, .i32⟩
  | 68 => ⟨S3x512x512, .i1⟩
  | 69 => ⟨S_, .i32⟩
  | 70 => ⟨S3x512x512, .i32⟩
  | 71 => ⟨S3x512x512, .i1⟩
  | 72 => ⟨S3x512x512, .i1⟩
  | 73 => ⟨S786432, .i1⟩
  | 74 => ⟨S786432, .f32⟩
  | 75 => ⟨S_, .i32⟩
  | 76 => ⟨S_, .i32⟩
  | 77 => ⟨S_, .i32⟩
  | 78 => ⟨S3x512x512, .i32⟩
  | 79 => ⟨S3x512x512, .i32⟩
  | 80 => ⟨S_, .i32⟩
  | 81 => ⟨S3x512x512, .i32⟩
  | 82 => ⟨S3x512x512, .i32⟩
  | 83 => ⟨S786432, .i32⟩
  | 84 => ⟨S_, .f32⟩
  | 85 => ⟨S256, .f32⟩
  | 86 => ⟨S_, .i32⟩
  | 87 => ⟨S786432, .i32⟩
  | 88 => ⟨S786432, .i1⟩
  | 89 => ⟨S_, .i32⟩
  | 90 => ⟨S786432, .i32⟩
  | 91 => ⟨S786432, .i32⟩
  | 92 => ⟨S786432, .i32⟩
  | 93 => ⟨S786432x1, .i32⟩
  | 94 => ⟨S256, .f32⟩
  | 95 => ⟨S256x1, .f32⟩
  | 96 => ⟨S1x19x512x512, .f32⟩
  | 97 => ⟨S19x512x512, .f32⟩
  | 98 => ⟨S_, .i32⟩
  | 99 => ⟨S3, .i32⟩
  | 100 => ⟨S3, .i1⟩
  | 101 => ⟨S_, .i32⟩
  | 102 => ⟨S3, .i32⟩
  | 103 => ⟨S3, .i32⟩
  | 104 => ⟨S3, .i32⟩
  | 105 => ⟨S3x1, .i32⟩
  | 106 => ⟨S3x512x512, .f32⟩
  | 107 => ⟨S_, .f32⟩
  | 108 => ⟨S3x512x512, .f32⟩
  | 109 => ⟨S3x512x512, .f32⟩
  | 110 => ⟨S3x512x512, .f32⟩
  | 111 => ⟨S3x512x512, .i32⟩
  | 112 => ⟨S_, .i32⟩
  | 113 => ⟨S3x512x512, .i32⟩
  | 114 => ⟨S3x512x512, .i1⟩
  | 115 => ⟨S_, .i32⟩
  | 116 => ⟨S3x512x512, .i32⟩
  | 117 => ⟨S3x512x512, .i1⟩
  | 118 => ⟨S3x512x512, .i1⟩
  | 119 => ⟨S786432, .i1⟩
  | 120 => ⟨S786432, .f32⟩
  | 121 => ⟨S_, .i32⟩
  | 122 => ⟨S_, .i32⟩
  | 123 => ⟨S_, .i32⟩
  | 124 => ⟨S3x512x512, .i32⟩
  | 125 => ⟨S3x512x512, .i32⟩
  | 126 => ⟨S_, .i32⟩
  | 127 => ⟨S3x512x512, .i32⟩
  | _ => ⟨S8x19x512x512, .f32⟩

abbrev hbmTy0_1 (i : Nat) : BufTy := match i % 128 with
  | 0 => ⟨S3x512x512, .i32⟩
  | 1 => ⟨S786432, .i32⟩
  | 2 => ⟨S_, .f32⟩
  | 3 => ⟨S256, .f32⟩
  | 4 => ⟨S_, .i32⟩
  | 5 => ⟨S786432, .i32⟩
  | 6 => ⟨S786432, .i1⟩
  | 7 => ⟨S_, .i32⟩
  | 8 => ⟨S786432, .i32⟩
  | 9 => ⟨S786432, .i32⟩
  | 10 => ⟨S786432, .i32⟩
  | 11 => ⟨S786432x1, .i32⟩
  | 12 => ⟨S256, .f32⟩
  | 13 => ⟨S256x1, .f32⟩
  | 14 => ⟨S256x1, .f32⟩
  | 15 => ⟨S256x1, .f32⟩
  | 16 => ⟨S_, .f32⟩
  | 17 => ⟨S_, .f32⟩
  | 18 => ⟨S_, .f32⟩
  | 19 => ⟨S_, .f32⟩
  | 20 => ⟨S256x1, .f32⟩
  | 21 => ⟨S256x1, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | _ => ⟨S8x19x512x512, .f32⟩

abbrev hbmTy (i : Nat) : BufTy := match i / 128 with
  | 0 => hbmTy0_0 i
  | 1 => hbmTy0_1 i
  | _ => ⟨S8x19x512x512, .f32⟩

abbrev bufTy : (tb : Table) → Fin (tcTables nBuf tb) → BufTy
  | .hbm, ⟨i, _⟩ => hbmTy i
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_c_5 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_c_7 : Ref sig .tc := ⟨.hbm, 40, rfl⟩
abbrev main_v23 : Ref sig .tc := ⟨.hbm, 41, rfl⟩
abbrev main_v24 : Ref sig .tc := ⟨.hbm, 42, rfl⟩
abbrev main_c_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_9 : Ref sig .tc := ⟨.hbm, 52, rfl⟩
abbrev main_v33 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_11 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_12 : Ref sig .tc := ⟨.hbm, 66, rfl⟩
abbrev main_v44 : Ref sig .tc := ⟨.hbm, 67, rfl⟩
abbrev main_v45 : Ref sig .tc := ⟨.hbm, 68, rfl⟩
abbrev main_c_13 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_14 : Ref sig .tc := ⟨.hbm, 75, rfl⟩
abbrev main_c_15 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_v51 : Ref sig .tc := ⟨.hbm, 82, rfl⟩
abbrev main_v52 : Ref sig .tc := ⟨.hbm, 83, rfl⟩
abbrev main_cst_16 : Ref sig .tc := ⟨.hbm, 84, rfl⟩
abbrev main_v53 : Ref sig .tc := ⟨.hbm, 85, rfl⟩
abbrev main_c_17 : Ref sig .tc := ⟨.hbm, 86, rfl⟩
abbrev main_v54 : Ref sig .tc := ⟨.hbm, 87, rfl⟩
abbrev main_v55 : Ref sig .tc := ⟨.hbm, 88, rfl⟩
abbrev main_c_18 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_19 : Ref sig .tc := ⟨.hbm, 98, rfl⟩
abbrev main_v64 : Ref sig .tc := ⟨.hbm, 99, rfl⟩
abbrev main_v65 : Ref sig .tc := ⟨.hbm, 100, rfl⟩
abbrev main_c_20 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_21 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_22 : Ref sig .tc := ⟨.hbm, 112, rfl⟩
abbrev main_v75 : Ref sig .tc := ⟨.hbm, 113, rfl⟩
abbrev main_v76 : Ref sig .tc := ⟨.hbm, 114, rfl⟩
abbrev main_c_23 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_c_24 : Ref sig .tc := ⟨.hbm, 121, rfl⟩
abbrev main_c_25 : Ref sig .tc := ⟨.hbm, 122, rfl⟩
abbrev main_call2_v0 : Ref sig .tc := ⟨.hbm, 123, rfl⟩
abbrev main_call2_v1 : Ref sig .tc := ⟨.hbm, 124, rfl⟩
abbrev main_call2_v2 : Ref sig .tc := ⟨.hbm, 125, rfl⟩
abbrev main_call2_v3 : Ref sig .tc := ⟨.hbm, 126, rfl⟩
abbrev main_call2_v4 : Ref sig .tc := ⟨.hbm, 127, rfl⟩
abbrev main_v82 : Ref sig .tc := ⟨.hbm, 128, rfl⟩
abbrev main_v83 : Ref sig .tc := ⟨.hbm, 129, rfl⟩
abbrev main_cst_26 : Ref sig .tc := ⟨.hbm, 130, rfl⟩
abbrev main_v84 : Ref sig .tc := ⟨.hbm, 131, rfl⟩
abbrev main_c_27 : Ref sig .tc := ⟨.hbm, 132, rfl⟩
abbrev main_v85 : Ref sig .tc := ⟨.hbm, 133, rfl⟩
abbrev main_v86 : Ref sig .tc := ⟨.hbm, 134, rfl⟩
abbrev main_c_28 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_cst_29 : Ref sig .tc := ⟨.hbm, 144, rfl⟩
abbrev main_v95 : Ref sig .tc := ⟨.hbm, 145, rfl⟩
abbrev main_cst_30 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_cst_31 : Ref sig .tc := ⟨.hbm, 150, rfl⟩
abbrev main_v99 : Ref sig .tc := ⟨.hbm, 151, rfl⟩
abbrev main_cst_32 : Ref sig .tc := ⟨.hbm, 152, rfl⟩
abbrev main_v100 : Ref sig .tc := ⟨.hbm, 153, rfl⟩
abbrev main_cst_33 : Ref sig .tc := ⟨.hbm, 154, rfl⟩
abbrev main_v101 : Ref sig .tc := ⟨.hbm, 155, rfl⟩
abbrev main_v102 : Ref sig .tc := ⟨.hbm, 156, rfl⟩

abbrev nD : Nat := 1
abbrev τ : Topo := Topo.v7x

variable {F : FTy → Type} [FloatOps F]

class Facts₀ : Prop where
  slices_S8x19x512x512_S1x19x512x512_7_0_0_0 : S8x19x512x512.Slices ![7, 0, 0, 0] S1x19x512x512
  shapeCasts_S1x19x512x512_S19x512x512 : S1x19x512x512.ShapeCasts S19x512x512
  bcast_S_S3 : S_.BroadcastsInDim S3 (![] : Fin 0 → Fin S3.rank)
  bcast_S3_S3x1_0 : S3.BroadcastsInDim S3x1 (![0] : Fin 1 → Fin S3x1.rank)
  bcast_S_S3x512x512 : S_.BroadcastsInDim S3x512x512 (![] : Fin 0 → Fin S3x512x512.rank)
  shapeCasts_S3x512x512_S786432 : S3x512x512.ShapeCasts S786432
  bcast_S_S256 : S_.BroadcastsInDim S256 (![] : Fin 0 → Fin S256.rank)
  bcast_S_S786432 : S_.BroadcastsInDim S786432 (![] : Fin 0 → Fin S786432.rank)
  bcast_S786432_S786432x1_0 : S786432.BroadcastsInDim S786432x1 (![0] : Fin 1 → Fin S786432x1.rank)
  shapeCasts_S256_S256x1 : S256.ShapeCasts S256x1
  reducesTo_S256x1_S_d0_1 : S256x1.ReducesTo [0, 1] S_
  h_S_ : 0 < S_.numel
  gather_S19x512x512_S3x1_S3x512x512_12_0_n_n_0_1_1512512_wf : GatherDims.WF S19x512x512 S3x1 S3x512x512 [1, 2] [0] [] [0] [] 1 ![1, 512, 512]
  scatter_S256_S786432x1_S786432_n_0_0_1_wf : ScatterDims.WF S256 S786432x1 S786432 [] [0] [0] 1

variable [Facts₀]

def gather_S19x512x512_S3x1_S3x512x512_12_0_n_n_0_1_1512512 : GatherDims S19x512x512 S3x1 S3x512x512 where
  offsetDims := [1, 2]
  collapsedSliceDims := [0]
  operandBatchingDims := []
  startIndicesBatchingDims := []
  startIndexMap := [0]
  indexVectorDim := 1
  sliceSizes := ![1, 512, 512]
  wf := gather_S19x512x512_S3x1_S3x512x512_12_0_n_n_0_1_1512512_wf
def scatter_S256_S786432x1_S786432_n_0_0_1 : ScatterDims S256 S786432x1 S786432 where
  updateWindowDims := []
  insertedWindowDims := [0]
  scatterDimsToOperandDims := [0]
  indexVectorDim := 1
  wf := scatter_S256_S786432x1_S786432_n_0_0_1_wf

class Facts : Prop extends Facts₀ where

variable [Facts]
-- ==== Proof.BKit.lean ====
/-
  The histogram kernel's launch, seen from @main. The program runs 46 host operations (three times: the last batch
  element, channels 0, 8 and 10, flattened and re-laid as [2, 3072, 128]; then the three stacked as [6, 3072, 128]),
  one pipelined region over a 6 × 12 grid, and 33 host operations on its [6, 1, 256] result. This module fixes what
  the region finds in memory (the contents after the first 46 operations), that @main is those three stretches, that
  the last stretch writes no array of the pipeline, and the facts about the grid the body's proof needs: the body
  resets its accumulator where the second grid coordinate is 0 (points ≡ 0 mod 12), stores its output where it is 11
  (points ≡ 11 mod 12), and the output window is idle and not written back everywhere else.
-/
import proofs.«425628_j89386859364662_3_alg».proof.Proof.Gen.Kernel.Launch
import proofs.«425628_j89386859364662_3_alg».proof.Proof.Gen.Kernel.Skeleton
import proofs.«425628_j89386859364662_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the 46 host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is: the operations before the region, the region, the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is neither the stacked input nor the region's result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, over the grid -/

/-- "The second grid coordinate is 0": the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 12 = 0 :=
  (by decide +kernel : ∀ t : Fin grid0.N, cond0_0 (grid0.coords t) ↔ t.val % 12 = 0)

/-- "The second grid coordinate is 11": the accumulator is copied to the output block. -/
abbrev cond0_1 (i : grid0.Coords) : Prop := k0_cond2 i = 1#1
theorem hcond0_1 : ∀ t : Fin cfg0.N, cond0_1 (grid0.coords t) ↔ t.val % 12 = 11 :=
  (by decide +kernel : ∀ t : Fin grid0.N, cond0_1 (grid0.coords t) ↔ t.val % 12 = 11)

/-! ## Where the windows are idle -/

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel

/-! ## The memrefs the body is called with -/

abbrev VO0_1 : View sig .tc .vmem S1x1x256 .f32 := (Memref.whole cc0_stg1_0 : Memref sig .tc .vmem S1x1x256 .f32).view
abbrev ms0_0 (t : Fin cfg0.N) : Memref sig .tc .vmem S1x256x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x256 .f32 := win0_1.stage (cfg0.slots t 1)
abbrev hs0_1 (t : Fin cfg0.N) : (ms0_1 t).IsWhole := hstage0_1 ((cfg0.slots t 1).cast nbuf0_1)
/-- The accumulator: a whole scoped buffer of the kernel's own. -/
abbrev scM0_0 : Memref sig .tc .vmem S1x256 .f32 := Memref.whole cc0_scratch0
abbrev VS0_0 : View sig .tc .vmem S1x256 .f32 := scM0_0.view

/-- What the launch hands the body besides the windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.BRunB.lean ====
/-
  The kernel body at a grid point that is neither the first nor the last of its image (second coordinate 1 … 10):
  it loads the eight 32-row sub-tiles of its 256 × 128 input block, adds their bin counts to what the accumulator
  held, and stores the sum back into the accumulator; the output block is not touched. The statement: on whole
  buffers, the input at `x0`, the output block at `xi1`, the accumulator at `xs0`, the body runs to a state
  with the input and the output block as they were and the accumulator overwritten by the pieces the run finds.
-/
import proofs.«425628_j89386859364662_3_alg».proof.Proof.BKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1x256x128 .f32) (harg2 : arg2.IsWhole) (arg3 : Memref sig .tc .vmem S1x1x256 .f32) (harg3 : arg3.IsWhole) (arg4 : Memref sig .tc .vmem S1x256 .f32) (harg4 : arg4.IsWhole) (hc0 : ¬cond0_0 i) (hc1 : ¬cond0_1 i)
    (x0 : Vec F S1x256x128 .f32) (xs0 : Vec F S1x256 .f32) :
    Σ' (L1 : List (View.Piece (Elt F) S1x1x256 .f32)), { LS0 : List (View.Piece (Elt F) S1x256 .f32) //
      ∀ (xi1 : Vec F S1x1x256 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg2 harg2 arg3 harg3 arg4 harg4) K } := by
  refine ⟨[], ?_, fun xi1 E K => ?run⟩
  case run =>
    simp only [cc0__hist_kernel_eq_skeleton]; unfold cc0__hist_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.BRunA.lean ====
/-
  The kernel body at the first grid point of an image (second coordinate 0): it stores zeros into the accumulator,
  loads the eight 32-row sub-tiles of its input block, adds their bin counts to the (now zero) accumulator and
  stores the sum back; the output block is not touched. The accumulator may arrive holding anything (at the
  grid's first point nobody has written it; later it holds the previous image's total, which the reset discards).
-/
import proofs.«425628_j89386859364662_3_alg».proof.Proof.BRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1x256x128 .f32) (harg2 : arg2.IsWhole) (arg3 : Memref sig .tc .vmem S1x1x256 .f32) (harg3 : arg3.IsWhole) (arg4 : Memref sig .tc .vmem S1x256 .f32) (harg4 : arg4.IsWhole) (hc0 : cond0_0 i) (hc1 : ¬cond0_1 i)
    (x0 : Vec F S1x256x128 .f32) :
    Σ' (L1 : List (View.Piece (Elt F) S1x1x256 .f32)), { LS0 : List (View.Piece (Elt F) S1x256 .f32) //
      ∀ (xi1 : Vec F S1x1x256 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg2 harg2 arg3 harg3 arg4 harg4) K } := by
  refine ⟨[], ?_, fun xi1 E K => ?run⟩
  case run =>
    simp only [cc0__hist_kernel_eq_skeleton]; unfold cc0__hist_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.BRunC.lean ====
/-
  The kernel body at the last grid point of an image (second coordinate 11): it loads the eight 32-row sub-tiles
  of its input block, adds their bin counts to what the accumulator held, stores the sum back, and then copies the
  accumulator into the output block, which may arrive holding anything.
-/
import proofs.«425628_j89386859364662_3_alg».proof.Proof.BRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1x256x128 .f32) (harg2 : arg2.IsWhole) (arg3 : Memref sig .tc .vmem S1x1x256 .f32) (harg3 : arg3.IsWhole) (arg4 : Memref sig .tc .vmem S1x256 .f32) (harg4 : arg4.IsWhole) (hc0 : ¬cond0_0 i) (hc1 : cond0_1 i)
    (x0 : Vec F S1x256x128 .f32) (xs0 : Vec F S1x256 .f32) :
    Σ' (L1 : List (View.Piece (Elt F) S1x1x256 .f32)), { LS0 : List (View.Piece (Elt F) S1x256 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg2 harg2 arg3 harg3 arg4 harg4) K } := by
  refine ⟨?_, ?_, fun E K => ?run⟩
  case run =>
    simp only [cc0__hist_kernel_eq_skeleton]; unfold cc0__hist_kernel_skel
    simp only [k0_part1_eq_skeleton, k0_part2_eq_skeleton, k0_part3_eq_skeleton, k0_part4_eq_skeleton, k0_part5_eq_skeleton]
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Hand

end
-- ==== Proof.BFrame.lean ====
/-
  The histogram kernel's pipelined region, point by point. The grid is 6 images × 12 tiles, 72 points in row-major
  order; point t works on image t / 12 and tile t % 12. At tile 0 the body resets its accumulator and adds the
  tile's bin counts; at tiles 1 … 10 it adds the tile's counts to what the point before left; at tile 11 it does the
  same and copies the accumulator into the image's [1, 1, 256] output block, the only point at which that block is
  written back. `outsAt0` names, by recursion on the point, what the output block and the accumulator hold after
  each point; the region's invariant carries the accumulator at that value from one point to the next; the body
  obligation is the case's run at every point; the launch theorem then gives @main's run with every array of the
  pipeline at what the proof data says and every other buffer as the operations after the region leave it.
-/
import proofs.«425628_j89386859364662_3_alg».proof.Proof.BRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At tile 0 nothing is stored into the output block: a placeholder nothing consults. -/
def out0_A_1 (c : Dev nD) (i : grid0.Coords) (arg2 : Memref sig .tc .vmem S1x256x128 .f32) (harg2 : arg2.IsWhole) (arg3 : Memref sig .tc .vmem S1x1x256 .f32) (harg3 : arg3.IsWhole) (arg4 : Memref sig .tc .vmem S1x256 .f32) (harg4 : arg4.IsWhole) (hc0 : cond0_0 i) (hc1 : ¬cond0_1 i)
    (x0 : Vec F S1x256x128 .f32) : Vec F S1x1x256 .f32 :=
  VO0_1.read (Elt F) (VO0_1.writes (Elt F) VO0_1.junk (kernelRun0_A c i arg2 harg2 arg3 harg3 arg4 harg4 hc0 hc1 x0).1)

/-- The stores of tile 0 into the accumulator cover it. -/
theorem scover0_A_0 (c : Dev nD) (i : grid0.Coords) (arg2 : Memref sig .tc .vmem S1x256x128 .f32) (harg2 : arg2.IsWhole) (arg3 : Memref sig .tc .vmem S1x1x256 .f32) (harg3 : arg3.IsWhole) (arg4 : Memref sig .tc .vmem S1x256 .f32) (harg4 : arg4.IsWhole) (hc0 : cond0_0 i) (hc1 : ¬cond0_1 i)
    (x0 : Vec F S1x256x128 .f32) (y : S1x256.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1x256.size (by sl_kernel_rfl) y

/-- What tile 0 leaves in the accumulator. -/
def sout0_A_0 (c : Dev nD) (i : grid0.Coords) (arg2 : Memref sig .tc .vmem S1x256x128 .f32) (harg2 : arg2.IsWhole) (arg3 : Memref sig .tc .vmem S1x1x256 .f32) (harg3 : arg3.IsWhole) (arg4 : Memref sig .tc .vmem S1x256 .f32) (harg4 : arg4.IsWhole) (hc0 : cond0_0 i) (hc1 : ¬cond0_1 i)
    (x0 : Vec F S1x256x128 .f32) : Vec F S1x256 .f32 :=
  VS0_0.read (Elt F) (VS0_0.writes (Elt F) VS0_0.junk (kernelRun0_A c i arg2 harg2 arg3 harg3 arg4 harg4 hc0 hc1 x0).2.1)

/-- At tiles 1 … 10 nothing is stored into the output block: a placeholder nothing consults. -/
def out0_B_1 (c : Dev nD) (i : grid0.Coords) (arg2 : Memref sig .tc .vmem S1x256x128 .f32) (harg2 : arg2.IsWhole) (arg3 : Memref sig .tc .vmem S1x1x256 .f32) (harg3 : arg3.IsWhole) (arg4 : Memref sig .tc .vmem S1x256 .f32) (harg4 : arg4.IsWhole) (hc0 : ¬cond0_0 i) (hc1 : ¬cond0_1 i)
    (x0 : Vec F S1x256x128 .f32) (xs0 : Vec F S1x256 .f32) : Vec F S1x1x256 .f32 :=
  VO0_1.read (Elt F) (VO0_1.writes (Elt F) VO0_1.junk (kernelRun0_B c i arg2 harg2 arg3 harg3 arg4 harg4 hc0 hc1 x0 xs0).1)

theorem scover0_B_0 (c : Dev nD) (i : grid0.Coords) (arg2 : Memref sig .tc .vmem S1x256x128 .f32) (harg2 : arg2.IsWhole) (arg3 : Memref sig .tc .vmem S1x1x256 .f32) (harg3 : arg3.IsWhole) (arg4 : Memref sig .tc .vmem S1x256 .f32) (harg4 : arg4.IsWhole) (hc0 : ¬cond0_0 i) (hc1 : ¬cond0_1 i)
    (x0 : Vec F S1x256x128 .f32) (xs0 : Vec F S1x256 .f32) (y : S1x256.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1x256.size (by sl_kernel_rfl) y

/-- What a tile 1 … 10 leaves in the accumulator, over what the point before left (`xs0`). -/
def sout0_B_0 (c : Dev nD) (i : grid0.Coords) (arg2 : Memref sig .tc .vmem S1x256x128 .f32) (harg2 : arg2.IsWhole) (arg3 : Memref sig .tc .vmem S1x1x256 .f32) (harg3 : arg3.IsWhole) (arg4 : Memref sig .tc .vmem S1x256 .f32) (harg4 : arg4.IsWhole) (hc0 : ¬cond0_0 i) (hc1 : ¬cond0_1 i)
    (x0 : Vec F S1x256x128 .f32) (xs0 : Vec F S1x256 .f32) : Vec F S1x256 .f32 :=
  VS0_0.read (Elt F) (VS0_0.writes (Elt F) VS0_0.junk (kernelRun0_B c i arg2 harg2 arg3 harg3 arg4 harg4 hc0 hc1 x0 xs0).2.1)

/-- The store of tile 11 into the output block covers it. -/
theorem cover0_C_1 (c : Dev nD) (i : grid0.Coords) (arg2 : Memref sig .tc .vmem S1x256x128 .f32) (harg2 : arg2.IsWhole) (arg3 : Memref sig .tc .vmem S1x1x256 .f32) (harg3 : arg3.IsWhole) (arg4 : Memref sig .tc .vmem S1x256 .f32) (harg4 : arg4.IsWhole) (hc0 : ¬cond0_0 i) (hc1 : cond0_1 i)
    (x0 : Vec F S1x256x128 .f32) (xs0 : Vec F S1x256 .f32) (y : S1x1x256.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1x1x256.size (by sl_kernel_rfl) y

/-- What tile 11 leaves in the output block. -/
def out0_C_1 (c : Dev nD) (i : grid0.Coords) (arg2 : Memref sig .tc .vmem S1x256x128 .f32) (harg2 : arg2.IsWhole) (arg3 : Memref sig .tc .vmem S1x1x256 .f32) (harg3 : arg3.IsWhole) (arg4 : Memref sig .tc .vmem S1x256 .f32) (harg4 : arg4.IsWhole) (hc0 : ¬cond0_0 i) (hc1 : cond0_1 i)
    (x0 : Vec F S1x256x128 .f32) (xs0 : Vec F S1x256 .f32) : Vec F S1x1x256 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S1x256x128 .f32) (harg2 : arg2.IsWhole) (arg3 : Memref sig .tc .vmem S1x1x256 .f32) (harg3 : arg3.IsWhole) (arg4 : Memref sig .tc .vmem S1x256 .f32) (harg4 : arg4.IsWhole) (hc0 : ¬cond0_0 i) (hc1 : cond0_1 i)
    (x0 : Vec F S1x256x128 .f32) (xs0 : Vec F S1x256 .f32) (y : S1x256.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1x256.size (by sl_kernel_rfl) y

/-- What tile 11 leaves in the accumulator. -/
def sout0_C_0 (c : Dev nD) (i : grid0.Coords) (arg2 : Memref sig .tc .vmem S1x256x128 .f32) (harg2 : arg2.IsWhole) (arg3 : Memref sig .tc .vmem S1x1x256 .f32) (harg3 : arg3.IsWhole) (arg4 : Memref sig .tc .vmem S1x256 .f32) (harg4 : arg4.IsWhole) (hc0 : ¬cond0_0 i) (hc1 : cond0_1 i)
    (x0 : Vec F S1x256x128 .f32) (xs0 : Vec F S1x256 .f32) : Vec F S1x256 .f32 :=
  VS0_0.read (Elt F) (VS0_0.writes (Elt F) VS0_0.junk (kernelRun0_C c i arg2 harg2 arg3 harg3 arg4 harg4 hc0 hc1 x0 xs0).2.1)

/-! ## What the output block and the accumulator hold after each point -/

/-- After the body at position `n`: (the output block's staging buffer, the accumulator). Tile 0 starts afresh;
    every other tile continues from the accumulator the point before left. -/
def outsAt0 (c : Dev nD) : (n : ℕ) → n < cfg0.N → Vec F S1x1x256 .f32 × Vec F S1x256 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩))
  | n + 1, hn =>
    if h0 : (n + 1) % 12 = 0 then
      if h1 : (n + 1) % 12 = 11 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩))
    else
      if h1 : (n + 1) % 12 = 11 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2)

/-- `outsAt0` at a tile 0. -/
theorem outsAt0_A (c : Dev nD) (t : Fin cfg0.N) (h0 : t.val % 12 = 0) (h1 : ¬t.val % 12 = 11) :
    outsAt0 m c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk m c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk m c 0 t)) := by
  obtain ⟨n, hn⟩ := t
  cases n with
  | zero => exact rfl
  | succ n => exact (dif_pos h0).trans ((dif_neg h1).trans rfl)

/-- `outsAt0` at a tile 1 … 10, over what the point before left. -/
theorem outsAt0_B (c : Dev nD) (t : Fin cfg0.N) (h0 : ¬t.val % 12 = 0) (h1 : ¬t.val % 12 = 11) :
    outsAt0 m c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a tile 11, over what the point before left. -/
theorem outsAt0_C (c : Dev nD) (t : Fin cfg0.N) (h0 : ¬t.val % 12 = 0) (h1 : t.val % 12 = 11) :
    outsAt0 m c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point, the accumulator at anything; afterwards the
    accumulator at what the point before left in it; and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- On core `c`: the arrays as the region finds them; after the body at point `t` the input's buffer at its block
    and the output's at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: the tile's case by the two closed forms; the invariant hands the body the accumulator at
    what the point before left (at anything at the very first point) and takes it back at this point's value. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 72 := lt_of_lt_of_eq t.isLt (show cfg0.N = 72 from N_0)
  by_cases h0 : t.val % 12 = 0
  · by_cases h1 : t.val % 12 = 11
    · exfalso; omega
    · rw [show (dats m 0 c).leavesExact 0 t = owns (c : Thread nD τ) (ms0_0 t) fullShare ((dats m 0 c).after 0 t) from by
        unfold Dat.leavesExact; rw [liveAt0_0 t], after0_0]
      rw [Dat.leavesExact_idle (dats m 0 c) 1 t (idleAt0_1 t (fun h => h1 ((hcond0_1 t).mp h))) (noFlush0_1 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
      · rw [PhiS_castSucc m c t, PhiS_pos m c _ _ hz]
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexists _; iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
  · by_cases h1 : t.val % 12 = 11
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t ((hcond0_1 t).mpr h1)], after0_1]
      rw [outsAt0_C m c t h0 h1]
      unfold out0_C_1 sout0_C_0; (try dsimp only)
      have hz : t.val ≠ 0 := by omega
      rw [PhiS_castSucc m c t, PhiS_pos m c _ _ hz]
      iintro ⟨⟨HS0, Hg⟩, Ho, ⟨%d0, H0⟩, ⟨%d1, H1⟩⟩
      iapply ((kernelRun0_C c (grid0.coords t) _ _ _ _ _ _ (fun h => h0 ((hcond0_0 t).mp h)) ((hcond0_1 t).mpr h1) (iblk m c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _)
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [Dat.leavesExact_idle (dats m 0 c) 1 t (idleAt0_1 t (fun h => h1 ((hcond0_1 t).mp h))) (noFlush0_1 t (fun h => h1 ((hcond0_1 t).mp h)))]
      rw [outsAt0_B m c t h0 h1]
      unfold sout0_B_0; (try dsimp only)
      have hz : t.val ≠ 0 := by omega
      rw [PhiS_castSucc m c t, PhiS_pos m c _ _ hz]
      iintro ⟨⟨HS0, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk m c 0 t) _).2.2 _ Set.univ _)
      isplitl [H0]; · iexact H0
      isplitl [H1]; · iexact H1
      isplitl [HS0]; · iexact HS0
      iintro ⟨H0, H1, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _)
        iexact Hg
      isplitl [Ho]; · iexact Ho
      isplitl [H0]; · iexact H0
      iexists _; iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the accumulator's value is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 72 := N_0; omega)

/-! ## The run -/

set_option backward.isDefEq.respectTransparency.types false in
/-- From any memory with zero counters every weakly fair execution of @main terminates, and every final state has
    each array of the pipeline at what the proof data says and every other unscoped buffer as the 33 operations
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.Kernel.Hand

end
-- ==== Proof.BHost.lean ====
/-
  The host side of the histogram program as pure functions of the buffers' contents. Before the region the program
  takes, from each of its three inputs, the last batch element, picks channels 0, 8 and 10 of it (a gather with a
  normalised channel table), flattens the three channel images and re-lays them as [2, 3072, 128]; the three results
  are stacked along the leading axis as [6, 3072, 128]. After the region it adds the two halves of each image's
  histogram, and from the three [256, 1] histograms forms the mean absolute difference of the first to the second,
  divided by the mean absolute difference of the first to the third plus 1e-7.
-/
import proofs.«425628_j89386859364662_3_alg».proof.Proof.BKit
import Idealize.ShloMosaic.Lib.StableHlo.Run
import Idealize.ShloMosaic.Lib.ValueIdx
import Idealize.ShloMosaic.Lib.Pipeline.Value

set_option maxRecDepth 16384

noncomputable section

namespace Cert.Kernel.Hand

open Cert.Kernel Cert.Kernel.Gen
open Idealize.ShloMosaic Idealize.ShloMosaic.TcCoe
open Idealize.SL.Sem
open Idealize.ShloMosaic.StableHlo

variable {F : FTy → Type} [FloatOps F]

/-! ## Before the region -/

/-- The channel table of image `k` (the same three channels 0, 8, 10 for each). -/
def chanLit : Fin 3 → Fin 3 → BitVec 32
  | 0 => lit0
  | 1 => lit1
  | 2 => lit2

/-- The channel table normalised as a gather's start indices: a negative entry is counted from the end (19 is added),
    and the table is laid as a [3, 1] column. -/
def chanIdx (lit : Fin 3 → BitVec 32) : IVec S3x1 32 :=
  (broadcastInDim S3x1 ![0] bcast_S3_S3x1_0 : (⟨S3, .i32⟩ : BufTy).Contents (Elt F) → (⟨S3x1, .i32⟩ : BufTy).Contents (Elt F))
    ((select : (⟨S3, .i1⟩ : BufTy).Contents (Elt F) → (⟨S3, .i32⟩ : BufTy).Contents (Elt F) → (⟨S3, .i32⟩ : BufTy).Contents (Elt F) → (⟨S3, .i32⟩ : BufTy).Contents (Elt F))
      ((cmpi .slt : (⟨S3, .i32⟩ : BufTy).Contents (Elt F) → (⟨S3, .i32⟩ : BufTy).Contents (Elt F) → (⟨S3, .i1⟩ : BufTy).Contents (Elt F))
        (fun i => lit (S3.rowMajor i))
        ((broadcastInDim S3 ![] bcast_S_S3 : (⟨S_, .i32⟩ : BufTy).Contents (Elt F) → (⟨S3, .i32⟩ : BufTy).Contents (Elt F)) (constantI S_ 32 0#32)))
      ((addi : (⟨S3, .i32⟩ : BufTy).Contents (Elt F) → (⟨S3, .i32⟩ : BufTy).Contents (Elt F) → (⟨S3, .i32⟩ : BufTy).Contents (Elt F))
        (fun i => lit (S3.rowMajor i))
        ((broadcastInDim S3 ![] bcast_S_S3 : (⟨S_, .i32⟩ : BufTy).Contents (Elt F) → (⟨S3, .i32⟩ : BufTy).Contents (Elt F)) (constantI S_ 32 19#32)))
      (fun i => lit (S3.rowMajor i)))

/-- The three channel images of input `k`: the last batch element of `x`, its channels 0, 8 and 10. -/
def gathK (k : Fin 3) (x : FVec F S8x19x512x512 .f32) : FVec F S3x512x512 .f32 :=
  Host.gather gather_S19x512x512_S3x1_S3x512x512_12_0_n_n_0_1_1512512
    (shapeCast S19x512x512 (extractStridedSlice S1x19x512x512 ![7, 0, 0, 0] x slices_S8x19x512x512_S1x19x512x512_7_0_0_0)
      shapeCasts_S1x19x512x512_S19x512x512)
    (chanIdx (F := F) (chanLit k))

/-- The three channel images flattened and re-laid as two halves of 3072 rows of 128 lanes. -/
def prep (g : FVec F S3x512x512 .f32) : FVec F S2x3072x128 .f32 :=
  shapeCast S2x3072x128 (shapeCast S6144x128 (shapeCast S786432 g shapeCasts_S3x512x512_S786432) shapeCasts_S786432_S6144x128)
    shapeCasts_S6144x128_S2x3072x128

/-- The three inputs' prepared images stacked along the leading axis. -/
def stack (u0 u1 u2 : FVec F S2x3072x128 .f32) : FVec F S6x3072x128 .f32 :=
  concatenate S6x3072x128 0 [⟨S2x3072x128, u0⟩, ⟨S2x3072x128, u1⟩, ⟨S2x3072x128, u2⟩]
    concatenates_S2x3072x128_S2x3072x128_S2x3072x128_S6x3072x128_d0

variable (m : (ℓ : Loc nD τ sig) → Buf (Elt F) ℓ)

/-- No operation before the region writes an input. -/
theorem V_main_arg0 (c : Dev nD) : V m c main_arg0 = m ((c : Thread nD τ).loc main_arg0) := by
  show StableHlo.after hostOps0 (fun b => m (c, b)) (Proc.devRef .tc main_arg0) = _
  after_results
theorem V_main_arg1 (c : Dev nD) : V m c main_arg1 = m ((c : Thread nD τ).loc main_arg1) := by
  show StableHlo.after hostOps0 (fun b => m (c, b)) (Proc.devRef .tc main_arg1) = _
  after_results
theorem V_main_arg2 (c : Dev nD) : V m c main_arg2 = m ((c : Thread nD τ).loc main_arg2) := by
  show StableHlo.after hostOps0 (fun b => m (c, b)) (Proc.devRef .tc main_arg2) = _
  after_results

attribute [local irreducible] Host.gather in
/-- What the region finds in its input array: the three inputs' prepared channel images, stacked. -/
theorem V_main_v36 (c : Dev nD) :
    V m c main_v36 = stack (prep (gathK 0 (m ((c : Thread nD τ).loc main_arg0)))) (prep (gathK 1 (m ((c : Thread nD τ).loc main_arg1))))
      (prep (gathK 2 (m ((c : Thread nD τ).loc main_arg2)))) := by
  show StableHlo.after hostOps0 (fun b => m (c, b)) (Proc.devRef .tc main_v36) = _
  after_results
  rfl

/-! ## After the region -/

/-- The histogram of image `k`: rows `2k` and `2k + 1` of the region's [6, 1, 256] result (the counts over the two
    halves of the image's rows) added, as a [256, 1] column. -/
def pairSum (G : FVec F S6x1x256 .f32) : Fin 3 → FVec F S256x1 .f32
  | 0 => shapeCast S256x1
      ((addf : (⟨S256, .f32⟩ : BufTy).Contents (Elt F) → (⟨S256, .f32⟩ : BufTy).Contents (Elt F) → (⟨S256, .f32⟩ : BufTy).Contents (Elt F))
        (shapeCast S256 (extractStridedSlice S1x1x256 ![0, 0, 0] G slices_S6x1x256_S1x1x256_0_0_0) shapeCasts_S1x1x256_S256)
        (shapeCast S256 (extractStridedSlice S1x1x256 ![1, 0, 0] G slices_S6x1x256_S1x1x256_1_0_0) shapeCasts_S1x1x256_S256))
      shapeCasts_S256_S256x1
  | 1 => shapeCast S256x1
      ((addf : (⟨S256, .f32⟩ : BufTy).Contents (Elt F) → (⟨S256, .f32⟩ : BufTy).Contents (Elt F) → (⟨S256, .f32⟩ : BufTy).Contents (Elt F))
        (shapeCast S256 (extractStridedSlice S1x1x256 ![2, 0, 0] G slices_S6x1x256_S1x1x256_2_0_0) shapeCasts_S1x1x256_S256)
        (shapeCast S256 (extractStridedSlice S1x1x256 ![3, 0, 0] G slices_S6x1x256_S1x1x256_3_0_0) shapeCasts_S1x1x256_S256))
      shapeCasts_S256_S256x1
  | 2 => shapeCast S256x1
      ((addf : (⟨S256, .f32⟩ : BufTy).Contents (Elt F) → (⟨S256, .f32⟩ : BufTy).Contents (Elt F) → (⟨S256, .f32⟩ : BufTy).Contents (Elt F))
        (shapeCast S256 (extractStridedSlice S1x1x256 ![4, 0, 0] G slices_S6x1x256_S1x1x256_4_0_0) shapeCasts_S1x1x256_S256)
        (shapeCast S256 (extractStridedSlice S1x1x256 ![5, 0, 0] G slices_S6x1x256_S1x1x256_5_0_0) shapeCasts_S1x1x256_S256))
      shapeCasts_S256_S256x1

/-- The program's result from the three histograms: the sum over the bins of |h0 − h1|, over 256, divided by the sum
    over the bins of |h0 − h2|, over 256, plus 1e-7. -/
def tailOf (h0 h1 h2 : FVec F S256x1 .f32) : FVec F S_ .f32 :=
  (Host.divf : (⟨S_, .f32⟩ : BufTy).Contents (Elt F) → (⟨S_, .f32⟩ : BufTy).Contents (Elt F) → (⟨S_, .f32⟩ : BufTy).Contents (Elt F))
    ((Host.divf : (⟨S_, .f32⟩ : BufTy).Contents (Elt F) → (⟨S_, .f32⟩ : BufTy).Contents (Elt F) → (⟨S_, .f32⟩ : BufTy).Contents (Elt F))
      (((fun x v => Host.reduceAdd x v reducesTo_S256x1_S_d0_1 h_S_) : (⟨S256x1, .f32⟩ : BufTy).Contents (Elt F) → (⟨S_, .f32⟩ : BufTy).Contents (Elt F) → (⟨S_, .f32⟩ : BufTy).Contents (Elt F))
        ((Host.absf : (⟨S256x1, .f32⟩ : BufTy).Contents (Elt F) → (⟨S256x1, .f32⟩ : BufTy).Contents (Elt F))
          ((subf : (⟨S256x1, .f32⟩ : BufTy).Contents (Elt F) → (⟨S256x1, .f32⟩ : BufTy).Contents (Elt F) → (⟨S256x1, .f32⟩ : BufTy).Contents (Elt F)) h0 h1))
        (constant (F := F) S_ .f32 0x00000000#32))
      (constant (F := F) S_ .f32 0x43800000#32))
    ((addf : (⟨S_, .f32⟩ : BufTy).Contents (Elt F) → (⟨S_, .f32⟩ : BufTy).Contents (Elt F) → (⟨S_, .f32⟩ : BufTy).Contents (Elt F))
      ((Host.divf : (⟨S_, .f32⟩ : BufTy).Contents (Elt F) → (⟨S_, .f32⟩ : BufTy).Contents (Elt F) → (⟨S_, .f32⟩ : BufTy).Contents (Elt F))
        (((fun x v => Host.reduceAdd x v reducesTo_S256x1_S_d0_1 h_S_) : (⟨S256x1, .f32⟩ : BufTy).Contents (Elt F) → (⟨S_, .f32⟩ : BufTy).Contents (Elt F) → (⟨S_, .f32⟩ : BufTy).Contents (Elt F))
          ((Host.absf : (⟨S256x1, .f32⟩ : BufTy).Contents (Elt F) → (⟨S256x1, .f32⟩ : BufTy).Contents (Elt F))
            ((subf : (⟨S256x1, .f32⟩ : BufTy).Contents (Elt F) → (⟨S256x1, .f32⟩ : BufTy).Contents (Elt F) → (⟨S256x1, .f32⟩ : BufTy).Contents (Elt F)) h0 h2))
          (constant (F := F) S_ .f32 0x00000000#32))
        (constant (F := F) S_ .f32 0x43800000#32))
      (constant (F := F) S_ .f32 0x33D6BF95#32))

/-- The program's result as a function of the region's [6, 1, 256] result. -/
def kerTail (G : FVec F S6x1x256 .f32) : FVec F S_ .f32 := tailOf (pairSum G 0) (pairSum G 1) (pairSum G 2)

set_option maxHeartbeats 1600000 in
attribute [local irreducible] Host.reduceAdd Host.divf Host.absf in
/-- The 33 operations after the region leave `kerTail` of the region's result in the program's result buffer. -/
theorem tail_v65 (W : Valuation τ sig (Elt F)) :
    StableHlo.after hostOps1 W (Proc.devRef .tc main_v65) = kerTail (W (Proc.devRef .tc main_v37)) := by
  simp only [after_cons, after_nil]
  rfl

/-- No operation after the region writes an input. -/
theorem tail_arg0 (W : Valuation τ sig (Elt F)) :
    StableHlo.after hostOps1 W (Proc.devRef .tc main_arg0) = W (Proc.devRef .tc main_arg0) := by
  after_results
theorem tail_arg1 (W : Valuation τ sig (Elt F)) :
    StableHlo.after hostOps1 W (Proc.devRef .tc main_arg1) = W (Proc.devRef .tc main_arg1) := by
  after_results
theorem tail_arg2 (W : Valuation τ sig (Elt F)) :
    StableHlo.after hostOps1 W (Proc.devRef .tc main_arg2) = W (Proc.devRef .tc main_arg2) := by
  after_results

/-! ## The stacked array and the histograms read at an index -/

/-- The stacked array at leading coordinate `2k + h` is input `k`'s prepared array at leading coordinate `h`: the three
    pieces have extent 2 along the leading axis, so piece `k` starts at `2k`. -/
theorem stack_apply (u0 u1 u2 : FVec F S2x3072x128 .f32) (k : Fin 3) (h : Fin 2) (row : Fin 3072) (l : Fin 128) :
    stack u0 u1 u2 (ValueIdx.ix3 ⟨2 * k.val + h.val, by omega⟩ row l)
      = (match k with | 0 => u0 | 1 => u1 | 2 => u2) (ValueIdx.ix3 h row l) := by
  unfold stack
  match k with
  | ⟨0, _⟩ =>
    refine concatenate_apply_piece (0 : Fin S6x3072x128.rank) _ _ _ 0 (by show (0 : Nat) < 3; omega) S2x3072x128 u0 rfl rfl 0 rfl
      (ValueIdx.ix3 h row l) ?_ ?_
    · intro b hb
      match b with
      | ⟨0, _⟩ => exact absurd rfl hb
      | ⟨1, _⟩ => rfl
      | ⟨2, _⟩ => rfl
    · show 0 + h.val = 2 * 0 + h.val
      omega
  | ⟨1, _⟩ =>
    refine concatenate_apply_piece (0 : Fin S6x3072x128.rank) _ _ _ 1 (by show (1 : Nat) < 3; omega) S2x3072x128 u1 rfl rfl 2 rfl
      (ValueIdx.ix3 h row l) ?_ ?_
    · intro b hb
      match b with
      | ⟨0, _⟩ => exact absurd rfl hb
      | ⟨1, _⟩ => rfl
      | ⟨2, _⟩ => rfl
    · show 2 + h.val = 2 * 1 + h.val
      omega
  | ⟨2, _⟩ =>
    refine concatenate_apply_piece (0 : Fin S6x3072x128.rank) _ _ _ 2 (by show (2 : Nat) < 3; omega) S2x3072x128 u2 rfl rfl 4 rfl
      (ValueIdx.ix3 h row l) ?_ ?_
    · intro b hb
      match b with
      | ⟨0, _⟩ => exact absurd rfl hb
      | ⟨1, _⟩ => rfl
      | ⟨2, _⟩ => rfl
    · show 4 + h.val = 2 * 2 + h.val
      omega

/-- Row `o` of a [6, 1, 256] array, cut out and flattened to 256 entries, read at entry `b`. -/
theorem row_apply {α : Type} (G : S6x1x256.Idx → α) (o : Nat) (ho : o < 6) (hs : S6x1x256.Slices ![o, 0, 0] S1x1x256) (b : Fin 256) :
    shapeCast S256 (extractStridedSlice S1x1x256 ![o, 0, 0] G hs) shapeCasts_S1x1x256_S256 (ValueIdx.ix1 b)
      = G (ValueIdx.ix3 ⟨o, ho⟩ 0 b) := by
  rw [shapeCast_apply _ _ (ValueIdx.ix1 b) (ValueIdx.ix3 (0 : Fin 1) (0 : Fin 1) b) (by
    rw [Shape.rowMajor_val_one, Shape.rowMajor_val_three]
    show (0 * 1 + 0) * 256 + b.val = b.val
    omega)]
  refine extractStridedSlice_apply _ _ _ _ _ fun a => ?_
  match a with
  | ⟨0, _⟩ => rfl
  | ⟨1, _⟩ => rfl
  | ⟨2, _⟩ => show b.val = 0 + b.val; omega

/-- A histogram entry is the sum of the two rows' entries: bin `b` of image `k` is bin `b` of row `2k` plus bin `b` of
    row `2k + 1` of the region's result. -/
theorem pairSum_apply (G : FVec Ideal S6x1x256 .f32) (k : Fin 3) (b : Fin 256) :
    pairSum (F := Ideal) G k (ValueIdx.ix2 b 0)
      = G (ValueIdx.ix3 ⟨2 * k.val, by omega⟩ 0 b) + G (ValueIdx.ix3 ⟨2 * k.val + 1, by omega⟩ 0 b) := by
  have hcast : ∀ (v : FVec Ideal S256 .f32), shapeCast S256x1 v shapeCasts_S256_S256x1 (ValueIdx.ix2 b 0) = v (ValueIdx.ix1 b) :=
    fun v => shapeCast_apply _ _ (ValueIdx.ix2 b (0 : Fin 1)) (ValueIdx.ix1 b) (by
      rw [Shape.rowMajor_val_one, Shape.rowMajor_val_two]
      show b.val = b.val * 1 + 0
      omega)
  match k with
  | ⟨0, _⟩ =>
    show shapeCast S256x1 (addf _ _) shapeCasts_S256_S256x1 (ValueIdx.ix2 b 0) = _
    rw [hcast, ValueIdx.addf_apply, row_apply G 0 (by omega), row_apply G 1 (by omega)]
    rfl
  | ⟨1, _⟩ =>
    show shapeCast S256x1 (addf _ _) shapeCasts_S256_S256x1 (ValueIdx.ix2 b 0) = _
    rw [hcast, ValueIdx.addf_apply, row_apply G 2 (by omega), row_apply G 3 (by omega)]
    rfl
  | ⟨2, _⟩ =>
    show shapeCast S256x1 (addf _ _) shapeCasts_S256_S256x1 (ValueIdx.ix2 b 0) = _
    rw [hcast, ValueIdx.addf_apply, row_apply G 4 (by omega), row_apply G 5 (by omega)]
    rfl

end Cert.Kernel.Hand

end
-- ==== Proof.BArgs.lean ====
/-
  From the launch's post to the frame claim. After @main, every unscoped buffer that is no array of the pipeline holds
  what the 33 operations after the region leave in it, computed from the region's exit contents; none of them writes an
  argument array, the region does not touch them, and the 46 operations before it do not write them either: so the
  three argument arrays end as they started.
-/
import proofs.«425628_j89386859364662_3_alg».proof.Proof.BFrame
import proofs.«425628_j89386859364662_3_alg».proof.Proof.BHost

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents after the operations that follow the region, read at a buffer. -/
theorem tail_read (c : Dev nD) (b : Ref sig .tc) :
    Pipeline.afterTail₀ cfgs (dats m) 0 (V0 m) [hostOps1] c b
      = StableHlo.after hostOps1 (Pipeline.withArrays (cfgs 0).spec c (V0 m c) fun w => (dats m 0 c).arrAt w (cfgs 0).N) (Proc.devRef .tc b) := by
  unfold Pipeline.afterTail₀
  simp only [List.flatten_cons, List.flatten_nil, List.append_nil]

/-- A buffer the pipeline does not stage and the later operations do not write ends at its region-entry contents. -/
theorem post_kept (b : Ref sig .tc) (hb : b ∈ Pipeline.restRefs sig (cfgs 0).spec) (hne : ∀ w, Pipeline.arrRef (cfgs 0).spec w ≠ b)
    (ht : ∀ W : Valuation τ sig (Elt F), StableHlo.after hostOps1 W (Proc.devRef .tc b) = W (Proc.devRef .tc b))
    {r : PUnit × MemSt nD τ sig (Elt F)}
    (h : Pipeline.FramePost cfgs (dats m) 0 (Pipeline.afterTail₀ cfgs (dats m) 0 (V0 m) [hostOps1]) r) (c : Dev nD) :
    r.2.mem ((c : Thread nD τ).loc b) = V m c b := by
  rw [(h c).2 b hb, tail_read, ht, Pipeline.withArrays_of_ne (cfgs 0).spec c _ _ b hne]

theorem mem_arg0 : main_arg0 ∈ Pipeline.restRefs sig (cfgs 0).spec := Pipeline.mem_restRefs_of main_arg0 rfl (by decide)
theorem mem_arg1 : main_arg1 ∈ Pipeline.restRefs sig (cfgs 0).spec := Pipeline.mem_restRefs_of main_arg1 rfl (by decide)
theorem mem_arg2 : main_arg2 ∈ Pipeline.restRefs sig (cfgs 0).spec := Pipeline.mem_restRefs_of main_arg2 rfl (by decide)

/-- The frame: @main runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(post_kept m main_arg0 mem_arg0 (by decide) (tail_arg0 (F := F)) h c).trans (V_main_arg0 m c),
     (post_kept m main_arg1 mem_arg1 (by decide) (tail_arg1 (F := F)) h c).trans (V_main_arg1 m c),
     (post_kept m main_arg2 mem_arg2 (by decide) (tail_arg2 (F := F)) h c).trans (V_main_arg2 m c)⟩)
    (run_main m ρ)

end Cert.Kernel.Hand

end
-- ==== Proof.KKit.lean ====
/-
  The histogram kernel's launch, seen from @main. The program runs 46 host operations (three times: the last batch
  element, channels 0, 8 and 10, flattened and re-laid as [2, 3072, 128]; then the three stacked as [6, 3072, 128]),
  one pipelined region over a 6 × 12 grid, and 33 host operations on its [6, 1, 256] result. This module fixes what
  the region finds in memory (the contents after the first 46 operations), that @main is those three stretches, that
  the last stretch writes no array of the pipeline, and the facts about the grid the body's proof needs: the body
  resets its accumulator where the second grid coordinate is 0 (points ≡ 0 mod 12), stores its output where it is 11
  (points ≡ 11 mod 12), and the output window is idle and not written back everywhere else.
-/
import proofs.«425628_j89386859364662_3_alg».proof.Proof.Gen.KernelIdeal.Launch
import proofs.«425628_j89386859364662_3_alg».proof.Proof.Gen.KernelIdeal.Skeleton
import proofs.«425628_j89386859364662_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the 46 host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is: the operations before the region, the region, the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is neither the stacked input nor the region's result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, over the grid -/

/-- "The second grid coordinate is 0": the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 12 = 0 :=
  (by decide +kernel : ∀ t : Fin grid0.N, cond0_0 (grid0.coords t) ↔ t.val % 12 = 0)

/-- "The second grid coordinate is 11": the accumulator is copied to the output block. -/
abbrev cond0_1 (i : grid0.Coords) : Prop := k0_cond2 i = 1#1
theorem hcond0_1 : ∀ t : Fin cfg0.N, cond0_1 (grid0.coords t) ↔ t.val % 12 = 11 :=
  (by decide +kernel : ∀ t : Fin grid0.N, cond0_1 (grid0.coords t) ↔ t.val % 12 = 11)

/-! ## Where the windows are idle -/

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel

/-! ## The memrefs the body is called with -/

abbrev VO0_1 : View sig .tc .vmem S1x1x256 .f32 := (Memref.whole cc0_stg1_0 : Memref sig .tc .vmem S1x1x256 .f32).view
abbrev ms0_0 (t : Fin cfg0.N) : Memref sig .tc .vmem S1x256x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x256 .f32 := win0_1.stage (cfg0.slots t 1)
abbrev hs0_1 (t : Fin cfg0.N) : (ms0_1 t).IsWhole := hstage0_1 ((cfg0.slots t 1).cast nbuf0_1)
/-- The accumulator: a whole scoped buffer of the kernel's own. -/
abbrev scM0_0 : Memref sig .tc .vmem S1x256 .f32 := Memref.whole cc0_scratch0
abbrev VS0_0 : View sig .tc .vmem S1x256 .f32 := scM0_0.view

/-- What the launch hands the body besides the windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KRunB.lean ====
/-
  The kernel body at a grid point that is neither the first nor the last of its image (second coordinate 1 … 10):
  it loads the eight 32-row sub-tiles of its 256 × 128 input block, adds their bin counts to what the accumulator
  held, and stores the sum back into the accumulator; the output block is not touched. The statement: on whole
  buffers, the input at `x0`, the output block at `xi1`, the accumulator at `xs0`, the body runs to a state
  with the input and the output block as they were and the accumulator overwritten by the pieces the run finds.
-/
import proofs.«425628_j89386859364662_3_alg».proof.Proof.KKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1x256x128 .f32) (harg2 : arg2.IsWhole) (arg3 : Memref sig .tc .vmem S1x1x256 .f32) (harg3 : arg3.IsWhole) (arg4 : Memref sig .tc .vmem S1x256 .f32) (harg4 : arg4.IsWhole) (hc0 : ¬cond0_0 i) (hc1 : ¬cond0_1 i)
    (x0 : Vec F S1x256x128 .f32) (xs0 : Vec F S1x256 .f32) :
    Σ' (L1 : List (View.Piece (Elt F) S1x1x256 .f32)), { LS0 : List (View.Piece (Elt F) S1x256 .f32) //
      ∀ (xi1 : Vec F S1x1x256 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg2 harg2 arg3 harg3 arg4 harg4) K } := by
  refine ⟨[], ?_, fun xi1 E K => ?run⟩
  case run =>
    simp only [cc0__hist_kernel_eq_skeleton]; unfold cc0__hist_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.KRunA.lean ====
/-
  The kernel body at the first grid point of an image (second coordinate 0): it stores zeros into the accumulator,
  loads the eight 32-row sub-tiles of its input block, adds their bin counts to the (now zero) accumulator and
  stores the sum back; the output block is not touched. The accumulator may arrive holding anything (at the
  grid's first point nobody has written it; later it holds the previous image's total, which the reset discards).
-/
import proofs.«425628_j89386859364662_3_alg».proof.Proof.KRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1x256x128 .f32) (harg2 : arg2.IsWhole) (arg3 : Memref sig .tc .vmem S1x1x256 .f32) (harg3 : arg3.IsWhole) (arg4 : Memref sig .tc .vmem S1x256 .f32) (harg4 : arg4.IsWhole) (hc0 : cond0_0 i) (hc1 : ¬cond0_1 i)
    (x0 : Vec F S1x256x128 .f32) :
    Σ' (L1 : List (View.Piece (Elt F) S1x1x256 .f32)), { LS0 : List (View.Piece (Elt F) S1x256 .f32) //
      ∀ (xi1 : Vec F S1x1x256 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg2 harg2 arg3 harg3 arg4 harg4) K } := by
  refine ⟨[], ?_, fun xi1 E K => ?run⟩
  case run =>
    simp only [cc0__hist_kernel_eq_skeleton]; unfold cc0__hist_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.KRunC.lean ====
/-
  The kernel body at the last grid point of an image (second coordinate 11): it loads the eight 32-row sub-tiles
  of its input block, adds their bin counts to what the accumulator held, stores the sum back, and then copies the
  accumulator into the output block, which may arrive holding anything.
-/
import proofs.«425628_j89386859364662_3_alg».proof.Proof.KRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1x256x128 .f32) (harg2 : arg2.IsWhole) (arg3 : Memref sig .tc .vmem S1x1x256 .f32) (harg3 : arg3.IsWhole) (arg4 : Memref sig .tc .vmem S1x256 .f32) (harg4 : arg4.IsWhole) (hc0 : ¬cond0_0 i) (hc1 : cond0_1 i)
    (x0 : Vec F S1x256x128 .f32) (xs0 : Vec F S1x256 .f32) :
    Σ' (L1 : List (View.Piece (Elt F) S1x1x256 .f32)), { LS0 : List (View.Piece (Elt F) S1x256 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg2 harg2 arg3 harg3 arg4 harg4) K } := by
  refine ⟨?_, ?_, fun E K => ?run⟩
  case run =>
    simp only [cc0__hist_kernel_eq_skeleton]; unfold cc0__hist_kernel_skel
    simp only [k0_part1_eq_skeleton, k0_part2_eq_skeleton, k0_part3_eq_skeleton, k0_part4_eq_skeleton, k0_part5_eq_skeleton]
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Hand

end
-- ==== Proof.KFrame.lean ====
/-
  The histogram kernel's pipelined region, point by point. The grid is 6 images × 12 tiles, 72 points in row-major
  order; point t works on image t / 12 and tile t % 12. At tile 0 the body resets its accumulator and adds the
  tile's bin counts; at tiles 1 … 10 it adds the tile's counts to what the point before left; at tile 11 it does the
  same and copies the accumulator into the image's [1, 1, 256] output block, the only point at which that block is
  written back. `outsAt0` names, by recursion on the point, what the output block and the accumulator hold after
  each point; the region's invariant carries the accumulator at that value from one point to the next; the body
  obligation is the case's run at every point; the launch theorem then gives @main's run with every array of the
  pipeline at what the proof data says and every other buffer as the operations after the region leave it.
-/
import proofs.«425628_j89386859364662_3_alg».proof.Proof.KRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At tile 0 nothing is stored into the output block: a placeholder nothing consults. -/
def out0_A_1 (c : Dev nD) (i : grid0.Coords) (arg2 : Memref sig .tc .vmem S1x256x128 .f32) (harg2 : arg2.IsWhole) (arg3 : Memref sig .tc .vmem S1x1x256 .f32) (harg3 : arg3.IsWhole) (arg4 : Memref sig .tc .vmem S1x256 .f32) (harg4 : arg4.IsWhole) (hc0 : cond0_0 i) (hc1 : ¬cond0_1 i)
    (x0 : Vec F S1x256x128 .f32) : Vec F S1x1x256 .f32 :=
  VO0_1.read (Elt F) (VO0_1.writes (Elt F) VO0_1.junk (kernelRun0_A c i arg2 harg2 arg3 harg3 arg4 harg4 hc0 hc1 x0).1)

/-- The stores of tile 0 into the accumulator cover it. -/
theorem scover0_A_0 (c : Dev nD) (i : grid0.Coords) (arg2 : Memref sig .tc .vmem S1x256x128 .f32) (harg2 : arg2.IsWhole) (arg3 : Memref sig .tc .vmem S1x1x256 .f32) (harg3 : arg3.IsWhole) (arg4 : Memref sig .tc .vmem S1x256 .f32) (harg4 : arg4.IsWhole) (hc0 : cond0_0 i) (hc1 : ¬cond0_1 i)
    (x0 : Vec F S1x256x128 .f32) (y : S1x256.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1x256.size (by sl_kernel_rfl) y

/-- What tile 0 leaves in the accumulator. -/
def sout0_A_0 (c : Dev nD) (i : grid0.Coords) (arg2 : Memref sig .tc .vmem S1x256x128 .f32) (harg2 : arg2.IsWhole) (arg3 : Memref sig .tc .vmem S1x1x256 .f32) (harg3 : arg3.IsWhole) (arg4 : Memref sig .tc .vmem S1x256 .f32) (harg4 : arg4.IsWhole) (hc0 : cond0_0 i) (hc1 : ¬cond0_1 i)
    (x0 : Vec F S1x256x128 .f32) : Vec F S1x256 .f32 :=
  VS0_0.read (Elt F) (VS0_0.writes (Elt F) VS0_0.junk (kernelRun0_A c i arg2 harg2 arg3 harg3 arg4 harg4 hc0 hc1 x0).2.1)

/-- At tiles 1 … 10 nothing is stored into the output block: a placeholder nothing consults. -/
def out0_B_1 (c : Dev nD) (i : grid0.Coords) (arg2 : Memref sig .tc .vmem S1x256x128 .f32) (harg2 : arg2.IsWhole) (arg3 : Memref sig .tc .vmem S1x1x256 .f32) (harg3 : arg3.IsWhole) (arg4 : Memref sig .tc .vmem S1x256 .f32) (harg4 : arg4.IsWhole) (hc0 : ¬cond0_0 i) (hc1 : ¬cond0_1 i)
    (x0 : Vec F S1x256x128 .f32) (xs0 : Vec F S1x256 .f32) : Vec F S1x1x256 .f32 :=
  VO0_1.read (Elt F) (VO0_1.writes (Elt F) VO0_1.junk (kernelRun0_B c i arg2 harg2 arg3 harg3 arg4 harg4 hc0 hc1 x0 xs0).1)

theorem scover0_B_0 (c : Dev nD) (i : grid0.Coords) (arg2 : Memref sig .tc .vmem S1x256x128 .f32) (harg2 : arg2.IsWhole) (arg3 : Memref sig .tc .vmem S1x1x256 .f32) (harg3 : arg3.IsWhole) (arg4 : Memref sig .tc .vmem S1x256 .f32) (harg4 : arg4.IsWhole) (hc0 : ¬cond0_0 i) (hc1 : ¬cond0_1 i)
    (x0 : Vec F S1x256x128 .f32) (xs0 : Vec F S1x256 .f32) (y : S1x256.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1x256.size (by sl_kernel_rfl) y

/-- What a tile 1 … 10 leaves in the accumulator, over what the point before left (`xs0`). -/
def sout0_B_0 (c : Dev nD) (i : grid0.Coords) (arg2 : Memref sig .tc .vmem S1x256x128 .f32) (harg2 : arg2.IsWhole) (arg3 : Memref sig .tc .vmem S1x1x256 .f32) (harg3 : arg3.IsWhole) (arg4 : Memref sig .tc .vmem S1x256 .f32) (harg4 : arg4.IsWhole) (hc0 : ¬cond0_0 i) (hc1 : ¬cond0_1 i)
    (x0 : Vec F S1x256x128 .f32) (xs0 : Vec F S1x256 .f32) : Vec F S1x256 .f32 :=
  VS0_0.read (Elt F) (VS0_0.writes (Elt F) VS0_0.junk (kernelRun0_B c i arg2 harg2 arg3 harg3 arg4 harg4 hc0 hc1 x0 xs0).2.1)

/-- The store of tile 11 into the output block covers it. -/
theorem cover0_C_1 (c : Dev nD) (i : grid0.Coords) (arg2 : Memref sig .tc .vmem S1x256x128 .f32) (harg2 : arg2.IsWhole) (arg3 : Memref sig .tc .vmem S1x1x256 .f32) (harg3 : arg3.IsWhole) (arg4 : Memref sig .tc .vmem S1x256 .f32) (harg4 : arg4.IsWhole) (hc0 : ¬cond0_0 i) (hc1 : cond0_1 i)
    (x0 : Vec F S1x256x128 .f32) (xs0 : Vec F S1x256 .f32) (y : S1x1x256.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1x1x256.size (by sl_kernel_rfl) y

/-- What tile 11 leaves in the output block. -/
def out0_C_1 (c : Dev nD) (i : grid0.Coords) (arg2 : Memref sig .tc .vmem S1x256x128 .f32) (harg2 : arg2.IsWhole) (arg3 : Memref sig .tc .vmem S1x1x256 .f32) (harg3 : arg3.IsWhole) (arg4 : Memref sig .tc .vmem S1x256 .f32) (harg4 : arg4.IsWhole) (hc0 : ¬cond0_0 i) (hc1 : cond0_1 i)
    (x0 : Vec F S1x256x128 .f32) (xs0 : Vec F S1x256 .f32) : Vec F S1x1x256 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S1x256x128 .f32) (harg2 : arg2.IsWhole) (arg3 : Memref sig .tc .vmem S1x1x256 .f32) (harg3 : arg3.IsWhole) (arg4 : Memref sig .tc .vmem S1x256 .f32) (harg4 : arg4.IsWhole) (hc0 : ¬cond0_0 i) (hc1 : cond0_1 i)
    (x0 : Vec F S1x256x128 .f32) (xs0 : Vec F S1x256 .f32) (y : S1x256.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1x256.size (by sl_kernel_rfl) y

/-- What tile 11 leaves in the accumulator. -/
def sout0_C_0 (c : Dev nD) (i : grid0.Coords) (arg2 : Memref sig .tc .vmem S1x256x128 .f32) (harg2 : arg2.IsWhole) (arg3 : Memref sig .tc .vmem S1x1x256 .f32) (harg3 : arg3.IsWhole) (arg4 : Memref sig .tc .vmem S1x256 .f32) (harg4 : arg4.IsWhole) (hc0 : ¬cond0_0 i) (hc1 : cond0_1 i)
    (x0 : Vec F S1x256x128 .f32) (xs0 : Vec F S1x256 .f32) : Vec F S1x256 .f32 :=
  VS0_0.read (Elt F) (VS0_0.writes (Elt F) VS0_0.junk (kernelRun0_C c i arg2 harg2 arg3 harg3 arg4 harg4 hc0 hc1 x0 xs0).2.1)

/-! ## What the output block and the accumulator hold after each point -/

/-- After the body at position `n`: (the output block's staging buffer, the accumulator). Tile 0 starts afresh;
    every other tile continues from the accumulator the point before left. -/
def outsAt0 (c : Dev nD) : (n : ℕ) → n < cfg0.N → Vec F S1x1x256 .f32 × Vec F S1x256 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩))
  | n + 1, hn =>
    if h0 : (n + 1) % 12 = 0 then
      if h1 : (n + 1) % 12 = 11 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩))
    else
      if h1 : (n + 1) % 12 = 11 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2)

/-- `outsAt0` at a tile 0. -/
theorem outsAt0_A (c : Dev nD) (t : Fin cfg0.N) (h0 : t.val % 12 = 0) (h1 : ¬t.val % 12 = 11) :
    outsAt0 m c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk m c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk m c 0 t)) := by
  obtain ⟨n, hn⟩ := t
  cases n with
  | zero => exact rfl
  | succ n => exact (dif_pos h0).trans ((dif_neg h1).trans rfl)

/-- `outsAt0` at a tile 1 … 10, over what the point before left. -/
theorem outsAt0_B (c : Dev nD) (t : Fin cfg0.N) (h0 : ¬t.val % 12 = 0) (h1 : ¬t.val % 12 = 11) :
    outsAt0 m c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a tile 11, over what the point before left. -/
theorem outsAt0_C (c : Dev nD) (t : Fin cfg0.N) (h0 : ¬t.val % 12 = 0) (h1 : t.val % 12 = 11) :
    outsAt0 m c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point, the accumulator at anything; afterwards the
    accumulator at what the point before left in it; and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- On core `c`: the arrays as the region finds them; after the body at point `t` the input's buffer at its block
    and the output's at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: the tile's case by the two closed forms; the invariant hands the body the accumulator at
    what the point before left (at anything at the very first point) and takes it back at this point's value. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 72 := lt_of_lt_of_eq t.isLt (show cfg0.N = 72 from N_0)
  by_cases h0 : t.val % 12 = 0
  · by_cases h1 : t.val % 12 = 11
    · exfalso; omega
    · rw [show (dats m 0 c).leavesExact 0 t = owns (c : Thread nD τ) (ms0_0 t) fullShare ((dats m 0 c).after 0 t) from by
        unfold Dat.leavesExact; rw [liveAt0_0 t], after0_0]
      rw [Dat.leavesExact_idle (dats m 0 c) 1 t (idleAt0_1 t (fun h => h1 ((hcond0_1 t).mp h))) (noFlush0_1 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
      · rw [PhiS_castSucc m c t, PhiS_pos m c _ _ hz]
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexists _; iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
  · by_cases h1 : t.val % 12 = 11
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t ((hcond0_1 t).mpr h1)], after0_1]
      rw [outsAt0_C m c t h0 h1]
      unfold out0_C_1 sout0_C_0; (try dsimp only)
      have hz : t.val ≠ 0 := by omega
      rw [PhiS_castSucc m c t, PhiS_pos m c _ _ hz]
      iintro ⟨⟨HS0, Hg⟩, Ho, ⟨%d0, H0⟩, ⟨%d1, H1⟩⟩
      iapply ((kernelRun0_C c (grid0.coords t) _ _ _ _ _ _ (fun h => h0 ((hcond0_0 t).mp h)) ((hcond0_1 t).mpr h1) (iblk m c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _)
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [Dat.leavesExact_idle (dats m 0 c) 1 t (idleAt0_1 t (fun h => h1 ((hcond0_1 t).mp h))) (noFlush0_1 t (fun h => h1 ((hcond0_1 t).mp h)))]
      rw [outsAt0_B m c t h0 h1]
      unfold sout0_B_0; (try dsimp only)
      have hz : t.val ≠ 0 := by omega
      rw [PhiS_castSucc m c t, PhiS_pos m c _ _ hz]
      iintro ⟨⟨HS0, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk m c 0 t) _).2.2 _ Set.univ _)
      isplitl [H0]; · iexact H0
      isplitl [H1]; · iexact H1
      isplitl [HS0]; · iexact HS0
      iintro ⟨H0, H1, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _)
        iexact Hg
      isplitl [Ho]; · iexact Ho
      isplitl [H0]; · iexact H0
      iexists _; iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the accumulator's value is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 72 := N_0; omega)

/-! ## The run -/

set_option backward.isDefEq.respectTransparency.types false in
/-- From any memory with zero counters every weakly fair execution of @main terminates, and every final state has
    each array of the pipeline at what the proof data says and every other unscoped buffer as the 33 operations
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Hand

end
-- ==== Proof.KHost.lean ====
/-
  The host side of the histogram program as pure functions of the buffers' contents. Before the region the program
  takes, from each of its three inputs, the last batch element, picks channels 0, 8 and 10 of it (a gather with a
  normalised channel table), flattens the three channel images and re-lays them as [2, 3072, 128]; the three results
  are stacked along the leading axis as [6, 3072, 128]. After the region it adds the two halves of each image's
  histogram, and from the three [256, 1] histograms forms the mean absolute difference of the first to the second,
  divided by the mean absolute difference of the first to the third plus 1e-7.
-/
import proofs.«425628_j89386859364662_3_alg».proof.Proof.KKit
import Idealize.ShloMosaic.Lib.StableHlo.Run
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.StableHlo

variable {F : FTy → Type} [FloatOps F]

/-! ## Before the region -/

/-- The channel table of image `k` (the same three channels 0, 8, 10 for each). -/
def chanLit : Fin 3 → Fin 3 → BitVec 32
  | 0 => lit0
  | 1 => lit1
  | 2 => lit2

/-- The channel table normalised as a gather's start indices: a negative entry is counted from the end (19 is added),
    and the table is laid as a [3, 1] column. -/
def chanIdx (lit : Fin 3 → BitVec 32) : IVec S3x1 32 :=
  (broadcastInDim S3x1 ![0] bcast_S3_S3x1_0 : (⟨S3, .i32⟩ : BufTy).Contents (Elt F) → (⟨S3x1, .i32⟩ : BufTy).Contents (Elt F))
    ((select : (⟨S3, .i1⟩ : BufTy).Contents (Elt F) → (⟨S3, .i32⟩ : BufTy).Contents (Elt F) → (⟨S3, .i32⟩ : BufTy).Contents (Elt F) → (⟨S3, .i32⟩ : BufTy).Contents (Elt F))
      ((cmpi .slt : (⟨S3, .i32⟩ : BufTy).Contents (Elt F) → (⟨S3, .i32⟩ : BufTy).Contents (Elt F) → (⟨S3, .i1⟩ : BufTy).Contents (Elt F))
        (fun i => lit (S3.rowMajor i))
        ((broadcastInDim S3 ![] bcast_S_S3 : (⟨S_, .i32⟩ : BufTy).Contents (Elt F) → (⟨S3, .i32⟩ : BufTy).Contents (Elt F)) (constantI S_ 32 0#32)))
      ((addi : (⟨S3, .i32⟩ : BufTy).Contents (Elt F) → (⟨S3, .i32⟩ : BufTy).Contents (Elt F) → (⟨S3, .i32⟩ : BufTy).Contents (Elt F))
        (fun i => lit (S3.rowMajor i))
        ((broadcastInDim S3 ![] bcast_S_S3 : (⟨S_, .i32⟩ : BufTy).Contents (Elt F) → (⟨S3, .i32⟩ : BufTy).Contents (Elt F)) (constantI S_ 32 19#32)))
      (fun i => lit (S3.rowMajor i)))

/-- The three channel images of input `k`: the last batch element of `x`, its channels 0, 8 and 10. -/
def gathK (k : Fin 3) (x : FVec F S8x19x512x512 .f32) : FVec F S3x512x512 .f32 :=
  Host.gather gather_S19x512x512_S3x1_S3x512x512_12_0_n_n_0_1_1512512
    (shapeCast S19x512x512 (extractStridedSlice S1x19x512x512 ![7, 0, 0, 0] x slices_S8x19x512x512_S1x19x512x512_7_0_0_0)
      shapeCasts_S1x19x512x512_S19x512x512)
    (chanIdx (F := F) (chanLit k))

/-- The three channel images flattened and re-laid as two halves of 3072 rows of 128 lanes. -/
def prep (g : FVec F S3x512x512 .f32) : FVec F S2x3072x128 .f32 :=
  shapeCast S2x3072x128 (shapeCast S6144x128 (shapeCast S786432 g shapeCasts_S3x512x512_S786432) shapeCasts_S786432_S6144x128)
    shapeCasts_S6144x128_S2x3072x128

/-- The three inputs' prepared images stacked along the leading axis. -/
def stack (u0 u1 u2 : FVec F S2x3072x128 .f32) : FVec F S6x3072x128 .f32 :=
  concatenate S6x3072x128 0 [⟨S2x3072x128, u0⟩, ⟨S2x3072x128, u1⟩, ⟨S2x3072x128, u2⟩]
    concatenates_S2x3072x128_S2x3072x128_S2x3072x128_S6x3072x128_d0

variable (m : (ℓ : Loc nD τ sig) → Buf (Elt F) ℓ)

/-- No operation before the region writes an input. -/
theorem V_main_arg0 (c : Dev nD) : V m c main_arg0 = m ((c : Thread nD τ).loc main_arg0) := by
  show StableHlo.after hostOps0 (fun b => m (c, b)) (Proc.devRef .tc main_arg0) = _
  after_results
theorem V_main_arg1 (c : Dev nD) : V m c main_arg1 = m ((c : Thread nD τ).loc main_arg1) := by
  show StableHlo.after hostOps0 (fun b => m (c, b)) (Proc.devRef .tc main_arg1) = _
  after_results
theorem V_main_arg2 (c : Dev nD) : V m c main_arg2 = m ((c : Thread nD τ).loc main_arg2) := by
  show StableHlo.after hostOps0 (fun b => m (c, b)) (Proc.devRef .tc main_arg2) = _
  after_results

attribute [local irreducible] Host.gather in
/-- What the region finds in its input array: the three inputs' prepared channel images, stacked. -/
theorem V_main_v36 (c : Dev nD) :
    V m c main_v36 = stack (prep (gathK 0 (m ((c : Thread nD τ).loc main_arg0)))) (prep (gathK 1 (m ((c : Thread nD τ).loc main_arg1))))
      (prep (gathK 2 (m ((c : Thread nD τ).loc main_arg2)))) := by
  show StableHlo.after hostOps0 (fun b => m (c, b)) (Proc.devRef .tc main_v36) = _
  after_results
  rfl

/-! ## After the region -/

/-- The histogram of image `k`: rows `2k` and `2k + 1` of the region's [6, 1, 256] result (the counts over the two
    halves of the image's rows) added, as a [256, 1] column. -/
def pairSum (G : FVec F S6x1x256 .f32) : Fin 3 → FVec F S256x1 .f32
  | 0 => shapeCast S256x1
      ((addf : (⟨S256, .f32⟩ : BufTy).Contents (Elt F) → (⟨S256, .f32⟩ : BufTy).Contents (Elt F) → (⟨S256, .f32⟩ : BufTy).Contents (Elt F))
        (shapeCast S256 (extractStridedSlice S1x1x256 ![0, 0, 0] G slices_S6x1x256_S1x1x256_0_0_0) shapeCasts_S1x1x256_S256)
        (shapeCast S256 (extractStridedSlice S1x1x256 ![1, 0, 0] G slices_S6x1x256_S1x1x256_1_0_0) shapeCasts_S1x1x256_S256))
      shapeCasts_S256_S256x1
  | 1 => shapeCast S256x1
      ((addf : (⟨S256, .f32⟩ : BufTy).Contents (Elt F) → (⟨S256, .f32⟩ : BufTy).Contents (Elt F) → (⟨S256, .f32⟩ : BufTy).Contents (Elt F))
        (shapeCast S256 (extractStridedSlice S1x1x256 ![2, 0, 0] G slices_S6x1x256_S1x1x256_2_0_0) shapeCasts_S1x1x256_S256)
        (shapeCast S256 (extractStridedSlice S1x1x256 ![3, 0, 0] G slices_S6x1x256_S1x1x256_3_0_0) shapeCasts_S1x1x256_S256))
      shapeCasts_S256_S256x1
  | 2 => shapeCast S256x1
      ((addf : (⟨S256, .f32⟩ : BufTy).Contents (Elt F) → (⟨S256, .f32⟩ : BufTy).Contents (Elt F) → (⟨S256, .f32⟩ : BufTy).Contents (Elt F))
        (shapeCast S256 (extractStridedSlice S1x1x256 ![4, 0, 0] G slices_S6x1x256_S1x1x256_4_0_0) shapeCasts_S1x1x256_S256)
        (shapeCast S256 (extractStridedSlice S1x1x256 ![5, 0, 0] G slices_S6x1x256_S1x1x256_5_0_0) shapeCasts_S1x1x256_S256))
      shapeCasts_S256_S256x1

/-- The program's result from the three histograms: the sum over the bins of |h0 − h1|, over 256, divided by the sum
    over the bins of |h0 − h2|, over 256, plus 1e-7. -/
def tailOf (h0 h1 h2 : FVec F S256x1 .f32) : FVec F S_ .f32 :=
  (Host.divf : (⟨S_, .f32⟩ : BufTy).Contents (Elt F) → (⟨S_, .f32⟩ : BufTy).Contents (Elt F) → (⟨S_, .f32⟩ : BufTy).Contents (Elt F))
    ((Host.divf : (⟨S_, .f32⟩ : BufTy).Contents (Elt F) → (⟨S_, .f32⟩ : BufTy).Contents (Elt F) → (⟨S_, .f32⟩ : BufTy).Contents (Elt F))
      (((fun x v => Host.reduceAdd x v reducesTo_S256x1_S_d0_1 h_S_) : (⟨S256x1, .f32⟩ : BufTy).Contents (Elt F) → (⟨S_, .f32⟩ : BufTy).Contents (Elt F) → (⟨S_, .f32⟩ : BufTy).Contents (Elt F))
        ((Host.absf : (⟨S256x1, .f32⟩ : BufTy).Contents (Elt F) → (⟨S256x1, .f32⟩ : BufTy).Contents (Elt F))
          ((subf : (⟨S256x1, .f32⟩ : BufTy).Contents (Elt F) → (⟨S256x1, .f32⟩ : BufTy).Contents (Elt F) → (⟨S256x1, .f32⟩ : BufTy).Contents (Elt F)) h0 h1))
        (constant (F := F) S_ .f32 0x00000000#32))
      (constant (F := F) S_ .f32 0x43800000#32))
    ((addf : (⟨S_, .f32⟩ : BufTy).Contents (Elt F) → (⟨S_, .f32⟩ : BufTy).Contents (Elt F) → (⟨S_, .f32⟩ : BufTy).Contents (Elt F))
      ((Host.divf : (⟨S_, .f32⟩ : BufTy).Contents (Elt F) → (⟨S_, .f32⟩ : BufTy).Contents (Elt F) → (⟨S_, .f32⟩ : BufTy).Contents (Elt F))
        (((fun x v => Host.reduceAdd x v reducesTo_S256x1_S_d0_1 h_S_) : (⟨S256x1, .f32⟩ : BufTy).Contents (Elt F) → (⟨S_, .f32⟩ : BufTy).Contents (Elt F) → (⟨S_, .f32⟩ : BufTy).Contents (Elt F))
          ((Host.absf : (⟨S256x1, .f32⟩ : BufTy).Contents (Elt F) → (⟨S256x1, .f32⟩ : BufTy).Contents (Elt F))
            ((subf : (⟨S256x1, .f32⟩ : BufTy).Contents (Elt F) → (⟨S256x1, .f32⟩ : BufTy).Contents (Elt F) → (⟨S256x1, .f32⟩ : BufTy).Contents (Elt F)) h0 h2))
          (constant (F := F) S_ .f32 0x00000000#32))
        (constant (F := F) S_ .f32 0x43800000#32))
      (constant (F := F) S_ .f32 0x33D6BF95#32))

/-- The program's result as a function of the region's [6, 1, 256] result. -/
def kerTail (G : FVec F S6x1x256 .f32) : FVec F S_ .f32 := tailOf (pairSum G 0) (pairSum G 1) (pairSum G 2)

set_option maxHeartbeats 1600000 in
attribute [local irreducible] Host.reduceAdd Host.divf Host.absf in
/-- The 33 operations after the region leave `kerTail` of the region's result in the program's result buffer. -/
theorem tail_v65 (W : Valuation τ sig (Elt F)) :
    StableHlo.after hostOps1 W (Proc.devRef .tc main_v65) = kerTail (W (Proc.devRef .tc main_v37)) := by
  simp only [after_cons, after_nil]
  rfl

/-- No operation after the region writes an input. -/
theorem tail_arg0 (W : Valuation τ sig (Elt F)) :
    StableHlo.after hostOps1 W (Proc.devRef .tc main_arg0) = W (Proc.devRef .tc main_arg0) := by
  after_results
theorem tail_arg1 (W : Valuation τ sig (Elt F)) :
    StableHlo.after hostOps1 W (Proc.devRef .tc main_arg1) = W (Proc.devRef .tc main_arg1) := by
  after_results
theorem tail_arg2 (W : Valuation τ sig (Elt F)) :
    StableHlo.after hostOps1 W (Proc.devRef .tc main_arg2) = W (Proc.devRef .tc main_arg2) := by
  after_results

/-! ## The stacked array and the histograms read at an index -/

/-- The stacked array at leading coordinate `2k + h` is input `k`'s prepared array at leading coordinate `h`: the three
    pieces have extent 2 along the leading axis, so piece `k` starts at `2k`. -/
theorem stack_apply (u0 u1 u2 : FVec F S2x3072x128 .f32) (k : Fin 3) (h : Fin 2) (row : Fin 3072) (l : Fin 128) :
    stack u0 u1 u2 (ValueIdx.ix3 ⟨2 * k.val + h.val, by omega⟩ row l)
      = (match k with | 0 => u0 | 1 => u1 | 2 => u2) (ValueIdx.ix3 h row l) := by
  unfold stack
  match k with
  | ⟨0, _⟩ =>
    refine concatenate_apply_piece (0 : Fin S6x3072x128.rank) _ _ _ 0 (by show (0 : Nat) < 3; omega) S2x3072x128 u0 rfl rfl 0 rfl
      (ValueIdx.ix3 h row l) ?_ ?_
    · intro b hb
      match b with
      | ⟨0, _⟩ => exact absurd rfl hb
      | ⟨1, _⟩ => rfl
      | ⟨2, _⟩ => rfl
    · show 0 + h.val = 2 * 0 + h.val
      omega
  | ⟨1, _⟩ =>
    refine concatenate_apply_piece (0 : Fin S6x3072x128.rank) _ _ _ 1 (by show (1 : Nat) < 3; omega) S2x3072x128 u1 rfl rfl 2 rfl
      (ValueIdx.ix3 h row l) ?_ ?_
    · intro b hb
      match b with
      | ⟨0, _⟩ => exact absurd rfl hb
      | ⟨1, _⟩ => rfl
      | ⟨2, _⟩ => rfl
    · show 2 + h.val = 2 * 1 + h.val
      omega
  | ⟨2, _⟩ =>
    refine concatenate_apply_piece (0 : Fin S6x3072x128.rank) _ _ _ 2 (by show (2 : Nat) < 3; omega) S2x3072x128 u2 rfl rfl 4 rfl
      (ValueIdx.ix3 h row l) ?_ ?_
    · intro b hb
      match b with
      | ⟨0, _⟩ => exact absurd rfl hb
      | ⟨1, _⟩ => rfl
      | ⟨2, _⟩ => rfl
    · show 4 + h.val = 2 * 2 + h.val
      omega

/-- Row `o` of a [6, 1, 256] array, cut out and flattened to 256 entries, read at entry `b`. -/
theorem row_apply {α : Type} (G : S6x1x256.Idx → α) (o : Nat) (ho : o < 6) (hs : S6x1x256.Slices ![o, 0, 0] S1x1x256) (b : Fin 256) :
    shapeCast S256 (extractStridedSlice S1x1x256 ![o, 0, 0] G hs) shapeCasts_S1x1x256_S256 (ValueIdx.ix1 b)
      = G (ValueIdx.ix3 ⟨o, ho⟩ 0 b) := by
  rw [shapeCast_apply _ _ (ValueIdx.ix1 b) (ValueIdx.ix3 (0 : Fin 1) (0 : Fin 1) b) (by
    rw [Shape.rowMajor_val_one, Shape.rowMajor_val_three]
    show (0 * 1 + 0) * 256 + b.val = b.val
    omega)]
  refine extractStridedSlice_apply _ _ _ _ _ fun a => ?_
  match a with
  | ⟨0, _⟩ => rfl
  | ⟨1, _⟩ => rfl
  | ⟨2, _⟩ => show b.val = 0 + b.val; omega

/-- A histogram entry is the sum of the two rows' entries: bin `b` of image `k` is bin `b` of row `2k` plus bin `b` of
    row `2k + 1` of the region's result. -/
theorem pairSum_apply (G : FVec Ideal S6x1x256 .f32) (k : Fin 3) (b : Fin 256) :
    pairSum (F := Ideal) G k (ValueIdx.ix2 b 0)
      = G (ValueIdx.ix3 ⟨2 * k.val, by omega⟩ 0 b) + G (ValueIdx.ix3 ⟨2 * k.val + 1, by omega⟩ 0 b) := by
  have hcast : ∀ (v : FVec Ideal S256 .f32), shapeCast S256x1 v shapeCasts_S256_S256x1 (ValueIdx.ix2 b 0) = v (ValueIdx.ix1 b) :=
    fun v => shapeCast_apply _ _ (ValueIdx.ix2 b (0 : Fin 1)) (ValueIdx.ix1 b) (by
      rw [Shape.rowMajor_val_one, Shape.rowMajor_val_two]
      show b.val = b.val * 1 + 0
      omega)
  match k with
  | ⟨0, _⟩ =>
    show shapeCast S256x1 (addf _ _) shapeCasts_S256_S256x1 (ValueIdx.ix2 b 0) = _
    rw [hcast, ValueIdx.addf_apply, row_apply G 0 (by omega), row_apply G 1 (by omega)]
    rfl
  | ⟨1, _⟩ =>
    show shapeCast S256x1 (addf _ _) shapeCasts_S256_S256x1 (ValueIdx.ix2 b 0) = _
    rw [hcast, ValueIdx.addf_apply, row_apply G 2 (by omega), row_apply G 3 (by omega)]
    rfl
  | ⟨2, _⟩ =>
    show shapeCast S256x1 (addf _ _) shapeCasts_S256_S256x1 (ValueIdx.ix2 b 0) = _
    rw [hcast, ValueIdx.addf_apply, row_apply G 4 (by omega), row_apply G 5 (by omega)]
    rfl

end Cert.KernelIdeal.Hand

end
-- ==== Proof.KArgs.lean ====
/-
  From the launch's post to the frame claim. After @main, every unscoped buffer that is no array of the pipeline holds
  what the 33 operations after the region leave in it, computed from the region's exit contents; none of them writes an
  argument array, the region does not touch them, and the 46 operations before it do not write them either: so the
  three argument arrays end as they started.
-/
import proofs.«425628_j89386859364662_3_alg».proof.Proof.KFrame
import proofs.«425628_j89386859364662_3_alg».proof.Proof.KHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents after the operations that follow the region, read at a buffer. -/
theorem tail_read (c : Dev nD) (b : Ref sig .tc) :
    Pipeline.afterTail₀ cfgs (dats m) 0 (V0 m) [hostOps1] c b
      = StableHlo.after hostOps1 (Pipeline.withArrays (cfgs 0).spec c (V0 m c) fun w => (dats m 0 c).arrAt w (cfgs 0).N) (Proc.devRef .tc b) := by
  unfold Pipeline.afterTail₀
  simp only [List.flatten_cons, List.flatten_nil, List.append_nil]

/-- A buffer the pipeline does not stage and the later operations do not write ends at its region-entry contents. -/
theorem post_kept (b : Ref sig .tc) (hb : b ∈ Pipeline.restRefs sig (cfgs 0).spec) (hne : ∀ w, Pipeline.arrRef (cfgs 0).spec w ≠ b)
    (ht : ∀ W : Valuation τ sig (Elt F), StableHlo.after hostOps1 W (Proc.devRef .tc b) = W (Proc.devRef .tc b))
    {r : PUnit × MemSt nD τ sig (Elt F)}
    (h : Pipeline.FramePost cfgs (dats m) 0 (Pipeline.afterTail₀ cfgs (dats m) 0 (V0 m) [hostOps1]) r) (c : Dev nD) :
    r.2.mem ((c : Thread nD τ).loc b) = V m c b := by
  rw [(h c).2 b hb, tail_read, ht, Pipeline.withArrays_of_ne (cfgs 0).spec c _ _ b hne]

theorem mem_arg0 : main_arg0 ∈ Pipeline.restRefs sig (cfgs 0).spec := Pipeline.mem_restRefs_of main_arg0 rfl (by decide)
theorem mem_arg1 : main_arg1 ∈ Pipeline.restRefs sig (cfgs 0).spec := Pipeline.mem_restRefs_of main_arg1 rfl (by decide)
theorem mem_arg2 : main_arg2 ∈ Pipeline.restRefs sig (cfgs 0).spec := Pipeline.mem_restRefs_of main_arg2 rfl (by decide)

/-- The frame: @main runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(post_kept m main_arg0 mem_arg0 (by decide) (tail_arg0 (F := F)) h c).trans (V_main_arg0 m c),
     (post_kept m main_arg1 mem_arg1 (by decide) (tail_arg1 (F := F)) h c).trans (V_main_arg1 m c),
     (post_kept m main_arg2 mem_arg2 (by decide) (tail_arg2 (F := F)) h c).trans (V_main_arg2 m c)⟩)
    (run_main m ρ)

end Cert.KernelIdeal.Hand

end
-- ==== Proof.KAccDef.lean ====
/-
  One grid point's update of the accumulator, and the accumulator after each point, as pure functions. `tileAcc v acc`
  is what the body stores back: `acc` plus the bin counts of the point's eight 32-row sub-tiles `v 0 … v 7`, through
  the body's own arithmetic. `accRec blk n` is the accumulator after point `n` of the row-major 6 × 12 grid when point
  `t` loads the sub-tiles `blk t`: a point whose tile index (t mod 12) is 0 starts from the zero vector, every other
  point from what the point before left.
-/
import proofs.«425628_j89386859364662_3_alg».proof.Proof.Gen.KernelIdeal.Skeleton

noncomputable section

namespace Cert.KernelIdeal.HandPayload

open Cert.KernelIdeal Cert.KernelIdeal.Gen Idealize.ShloMosaic

variable {F : FTy → Type} [FloatOps F]

/-- The accumulator a point leaves, from its eight sub-tiles and the accumulator it found. -/
def tileAcc (v : Fin 8 → Vec F S1x32x128 .f32) (acc : Vec F S1x256 .f32) : Vec F S1x256 .f32 :=
  k0_pay1 (k0_pay12 (k0_pay11 (k0_pay8 (k0_pay6 (k0_pay4 (v 0)) (k0_pay5 (v 1))) (k0_pay7 (v 2)) (v 3)) (k0_pay9 (v 4)) (k0_pay10 (v 4)) 4294967295#32 (v 5)) (v 6)) (k0_pay13 (v 7)) acc

/-- The accumulator after point `n`. -/
def accRec (blk : ℕ → Fin 8 → Vec F S1x32x128 .f32) : ℕ → Vec F S1x256 .f32
  | 0 => tileAcc (blk 0) (k0_pay3 (F := F))
  | n + 1 => if (n + 1) % 12 = 0 then tileAcc (blk (n + 1)) (k0_pay3 (F := F)) else tileAcc (blk (n + 1)) (accRec blk n)

end Cert.KernelIdeal.HandPayload

end
-- ==== Proof.KPiece.lean ====
/-
  What each case of the body leaves, as values. The run finds, for the accumulator, one covering store whose payload
  is `tileAcc` of the eight sub-tiles of the input block (rows 32·s … 32·s + 31, s < 8) and of what the accumulator
  held when the body read it: the contents the point before left (tiles 1 … 11), or the zero vector the reset has
  just stored (tile 0). At tile 11 the output block receives the accumulator's new contents re-laid as [1, 1, 256].
-/
import proofs.«425628_j89386859364662_3_alg».proof.Proof.KFrame
import proofs.«425628_j89386859364662_3_alg».proof.Proof.KAccDef
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.HandPayload (tileAcc accRec)

theorem hz2 : (![0, 0] : Fin 2 → Nat) = fun _ => 0 := funext fun a => by fin_cases a <;> rfl
theorem hz3 : (![0, 0, 0] : Fin 3 → Nat) = fun _ => 0 := funext fun a => by fin_cases a <;> rfl

/-- Sub-tile `s` of a 256 × 128 block: its rows 32·s … 32·s + 31. -/
def subT (x0 : Vec F S1x256x128 .f32) (s : Fin 8) : Vec F S1x32x128 .f32 :=
  match s with
  | ⟨0, _⟩ => View.ld x0 (Rect.unit ![0, 0, 0] ![1, 32, 128] (by decide))
  | ⟨1, _⟩ => View.ld x0 (Rect.unit ![0, 32, 0] ![1, 32, 128] (by decide))
  | ⟨2, _⟩ => View.ld x0 (Rect.unit ![0, 64, 0] ![1, 32, 128] (by decide))
  | ⟨3, _⟩ => View.ld x0 (Rect.unit ![0, 96, 0] ![1, 32, 128] (by decide))
  | ⟨4, _⟩ => View.ld x0 (Rect.unit ![0, 128, 0] ![1, 32, 128] (by decide))
  | ⟨5, _⟩ => View.ld x0 (Rect.unit ![0, 160, 0] ![1, 32, 128] (by decide))
  | ⟨6, _⟩ => View.ld x0 (Rect.unit ![0, 192, 0] ![1, 32, 128] (by decide))
  | ⟨7, _⟩ => View.ld x0 (Rect.unit ![0, 224, 0] ![1, 32, 128] (by decide))
  | ⟨n + 8, h⟩ => absurd h (by omega)

/-- Tiles 1 … 10: the accumulator ends at `tileAcc` of the block's sub-tiles and what it held. -/
theorem sout_B (c : Dev nD) (i : grid0.Coords) (arg2 : Memref sig .tc .vmem S1x256x128 .f32) (harg2 : arg2.IsWhole) (arg3 : Memref sig .tc .vmem S1x1x256 .f32) (harg3 : arg3.IsWhole) (arg4 : Memref sig .tc .vmem S1x256 .f32) (harg4 : arg4.IsWhole) (hc0 : ¬cond0_0 i) (hc1 : ¬cond0_1 i)
    (x0 : Vec F S1x256x128 .f32) (xs0 : Vec F S1x256 .f32) :
    sout0_B_0 c i arg2 harg2 arg3 harg3 arg4 harg4 hc0 hc1 x0 xs0 = tileAcc (subT x0) xs0 := by
  unfold sout0_B_0
  rw [View.read_writes_eq_canon _ _ _ (scover0_B_0 c i arg2 harg2 arg3 harg3 arg4 harg4 hc0 hc1 x0 xs0)]
  unfold kernelRun0_B
  dsimp only
  sl_unfold_words
  rw [View.canon_unit_zero hz2]
  simp only [View.readAt_eq_ld, harg4.read_unread, harg2.read_unread, View.ld_unit_zero (S := S1x256) hz2]
  rfl

/-- Tile 11: the same for the accumulator. -/
theorem sout_C (c : Dev nD) (i : grid0.Coords) (arg2 : Memref sig .tc .vmem S1x256x128 .f32) (harg2 : arg2.IsWhole) (arg3 : Memref sig .tc .vmem S1x1x256 .f32) (harg3 : arg3.IsWhole) (arg4 : Memref sig .tc .vmem S1x256 .f32) (harg4 : arg4.IsWhole) (hc0 : ¬cond0_0 i) (hc1 : cond0_1 i)
    (x0 : Vec F S1x256x128 .f32) (xs0 : Vec F S1x256 .f32) :
    sout0_C_0 c i arg2 harg2 arg3 harg3 arg4 harg4 hc0 hc1 x0 xs0 = tileAcc (subT x0) xs0 := by
  unfold sout0_C_0
  rw [View.read_writes_eq_canon _ _ _ (scover0_C_0 c i arg2 harg2 arg3 harg3 arg4 harg4 hc0 hc1 x0 xs0)]
  unfold kernelRun0_C
  dsimp only
  sl_unfold_words
  rw [View.canon_unit_zero hz2]
  simp only [View.readAt_eq_ld, harg4.read_unread, harg2.read_unread, View.ld_unit_zero (S := S1x256) hz2]
  rfl

/-- Tile 11: the output block receives the accumulator's new contents, re-laid as [1, 1, 256]. -/
theorem out_C (c : Dev nD) (i : grid0.Coords) (arg2 : Memref sig .tc .vmem S1x256x128 .f32) (harg2 : arg2.IsWhole) (arg3 : Memref sig .tc .vmem S1x1x256 .f32) (harg3 : arg3.IsWhole) (arg4 : Memref sig .tc .vmem S1x256 .f32) (harg4 : arg4.IsWhole) (hc0 : ¬cond0_0 i) (hc1 : cond0_1 i)
    (x0 : Vec F S1x256x128 .f32) (xs0 : Vec F S1x256 .f32) :
    out0_C_1 c i arg2 harg2 arg3 harg3 arg4 harg4 hc0 hc1 x0 xs0 = k0_pay2 (tileAcc (subT x0) xs0) := by
  unfold out0_C_1
  rw [View.read_writes_eq_canon _ _ _ (cover0_C_1 c i arg2 harg2 arg3 harg3 arg4 harg4 hc0 hc1 x0 xs0)]
  unfold kernelRun0_C
  dsimp only
  sl_unfold_words
  rw [View.canon_unit_zero hz3]
  simp only [View.readAt_eq_ld, harg4.read_unread, harg2.read_unread, View.ld_unit_zero (S := S1x256) hz2,
    View.readCov_unit_zero (S := S1x256) _ hz2]
  rfl

/-- Tile 0: the accumulator is reset to zeros first, so it ends at `tileAcc` of the sub-tiles and the zero vector. -/
theorem sout_A (c : Dev nD) (i : grid0.Coords) (arg2 : Memref sig .tc .vmem S1x256x128 .f32) (harg2 : arg2.IsWhole) (arg3 : Memref sig .tc .vmem S1x1x256 .f32) (harg3 : arg3.IsWhole) (arg4 : Memref sig .tc .vmem S1x256 .f32) (harg4 : arg4.IsWhole) (hc0 : cond0_0 i) (hc1 : ¬cond0_1 i)
    (x0 : Vec F S1x256x128 .f32) :
    sout0_A_0 c i arg2 harg2 arg3 harg3 arg4 harg4 hc0 hc1 x0 = tileAcc (subT x0) (k0_pay3 (F := F)) := by
  unfold sout0_A_0
  rw [View.read_writes_eq_canon _ _ _ (scover0_A_0 c i arg2 harg2 arg3 harg3 arg4 harg4 hc0 hc1 x0)]
  unfold kernelRun0_A
  dsimp only
  sl_unfold_words
  rw [View.canon_cons_unit_zero (S := S1x256) hz2]
  simp only [View.readAt_eq_ld, harg2.read_unread, View.ld_unit_zero (S := S1x256) hz2,
    View.readCov_unit_zero (S := S1x256) _ hz2]
  rfl

end Cert.KernelIdeal.Hand

end
-- ==== Proof.KInduct.lean ====
/-
  The accumulator after every grid point is the pure recursion `accRec` over the points' sub-tiles: by induction on the
  point, never by enumerating the grid. A point with tile index 0 starts from zeros, every other point adds to what
  the point before left. At a point with tile index 11 the output block holds the accumulator's new contents re-laid
  as [1, 1, 256].
-/
import proofs.«425628_j89386859364662_3_alg».proof.Proof.KPiece

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.HandPayload (tileAcc accRec)

/-- The input block at point `t`, at its literal type. -/
abbrev xblk (c : Dev nD) (t : Fin cfg0.N) : Vec F S1x256x128 .f32 := iblk m c 0 t

theorem N_pos : 0 < cfg0.N := by rw [show cfg0.N = 72 from N_0]; decide

/-- The eight sub-tiles point `n` loads (for `n` past the grid, those of point 0: never consulted). -/
def blkOf (c : Dev nD) (n : ℕ) : Fin 8 → Vec F S1x32x128 .f32 :=
  if h : n < cfg0.N then subT (xblk m c ⟨n, h⟩) else subT (xblk m c ⟨0, N_pos⟩)

theorem blkOf_lt (c : Dev nD) (n : ℕ) (h : n < cfg0.N) : blkOf m c n = subT (xblk m c ⟨n, h⟩) := dif_pos h

theorem accRec_succ (blk : ℕ → Fin 8 → Vec F S1x32x128 .f32) (n : ℕ) :
    accRec blk (n + 1) = if (n + 1) % 12 = 0 then tileAcc (blk (n + 1)) (k0_pay3 (F := F)) else tileAcc (blk (n + 1)) (accRec blk n) := rfl

theorem accRec_zero (blk : ℕ → Fin 8 → Vec F S1x32x128 .f32) : accRec blk 0 = tileAcc (blk 0) (k0_pay3 (F := F)) := rfl

/-- The accumulator after point `n` is the recursion's value. -/
theorem acc_eq (c : Dev nD) : ∀ (n : ℕ) (h : n < cfg0.N), (outsAt0 m c n h).2 = accRec (blkOf m c) n
  | 0, h => by
    rw [outsAt0_A m c ⟨0, h⟩ rfl (by show ¬(0 % 12 = 11); decide)]
    dsimp only
    rw [sout_A, accRec_zero, blkOf_lt m c 0 h]
  | n + 1, h => by
    by_cases h0 : (n + 1) % 12 = 0
    · have h1 : ¬(n + 1) % 12 = 11 := by omega
      rw [outsAt0_A m c ⟨n + 1, h⟩ h0 h1]
      dsimp only
      rw [sout_A, accRec_succ, if_pos h0, blkOf_lt m c (n + 1) h]
    · by_cases h1 : (n + 1) % 12 = 11
      · rw [outsAt0_C m c ⟨n + 1, h⟩ h0 h1]
        dsimp only
        rw [sout_C, accRec_succ, if_neg h0, blkOf_lt m c (n + 1) h]
        show tileAcc _ (outsAt0 m c n _).2 = _
        rw [acc_eq c n]
      · rw [outsAt0_B m c ⟨n + 1, h⟩ h0 h1]
        dsimp only
        rw [sout_B, accRec_succ, if_neg h0, blkOf_lt m c (n + 1) h]
        show tileAcc _ (outsAt0 m c n _).2 = _
        rw [acc_eq c n]

/-- At a tile 11 the output block holds the accumulator's new contents, re-laid. -/
theorem out_eq (c : Dev nD) (t : Fin cfg0.N) (h11 : t.val % 12 = 11) :
    (outsAt0 m c t.val t.isLt).1 = k0_pay2 (accRec (blkOf m c) t.val) := by
  have h0 : ¬t.val % 12 = 0 := by omega
  have hacc := acc_eq m c t.val t.isLt
  rw [outsAt0_C m c t h0 h11] at hacc ⊢
  dsimp only at hacc ⊢
  rw [sout_C] at hacc
  rw [out_C, hacc]

end Cert.KernelIdeal.Hand

end
-- ==== Proof.KFinal.lean ====
/-
  The region's result as an array. Point t of the 6 × 12 grid works on image t / 12 and tile t mod 12: its input
  block is rows (t mod 12) · 256 … (t mod 12) · 256 + 255 of image t / 12 of the stacked input, and sub-tile s of
  that block is the 32 rows from (t mod 12) · 256 + 32 · s on. Only the six points with tile 11 write the output
  back, each its own block (image, 0, 0) of extents (1, 1, 256), and these six blocks cover the [6, 1, 256] result:
  entry (image, 0, b) is the accumulator after point 12 · image + 11, re-laid as [1, 1, 256], at (0, 0, b).
-/
import proofs.«425628_j89386859364662_3_alg».proof.Proof.KInduct
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix3 eq_ix3)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.HandPayload (tileAcc accRec)

/-! ## The block indices, over the grid -/

/-- The input window's block index at point `t` is (image, tile, 0) = (t / 12, t mod 12, 0). -/
theorem idx_in : ∀ t : Fin cfg0.N, win0_0.index t (0 : Fin 3) = t.val / 12 ∧ win0_0.index t (1 : Fin 3) = t.val % 12
    ∧ win0_0.index t (2 : Fin 3) = 0 :=
  (by decide +kernel : ∀ t : Fin grid0.N, win0_0.index t (0 : Fin 3) = t.val / 12 ∧ win0_0.index t (1 : Fin 3) = t.val % 12
    ∧ win0_0.index t (2 : Fin 3) = 0)

/-- The output window's block index at point `t` is (image, 0, 0). -/
theorem idx_out : ∀ t : Fin cfg0.N, win0_1.index t (0 : Fin 3) = t.val / 12 ∧ win0_1.index t (1 : Fin 3) = 0
    ∧ win0_1.index t (2 : Fin 3) = 0 :=
  (by decide +kernel : ∀ t : Fin grid0.N, win0_1.index t (0 : Fin 3) = t.val / 12 ∧ win0_1.index t (1 : Fin 3) = 0
    ∧ win0_1.index t (2 : Fin 3) = 0)

/-! ## A sub-tile's element is an element of the stacked input -/

/-- The 32 rows from 32 · k on of the block at point `t`, read at row `r` and lane `l`: on each axis the array's
    coordinate is the block index times the block's extent plus the coordinate inside the block. -/
theorem ld_read (c : Dev nD) (t : Fin cfg0.N) (k : ℕ) (hk : k < 8)
    (inb : ∀ a, (![0, 32 * k, 0] : Fin 3 → ℕ) a + (![1, 32, 128] : Fin 3 → ℕ) a ≤ S1x256x128.size a)
    (r : Fin 32) (l : Fin 128) (hi : t.val / 12 < 6) (hr : t.val % 12 * 256 + 32 * k + r.val < 3072) :
    View.ld (xblk m c t) (Rect.unit (s := S1x256x128) ![0, 32 * k, 0] ![1, 32, 128] inb) (ix3 (0 : Fin 1) r l)
      = (V m c main_v36 : S6x3072x128.Idx → Elt F .f32) (ix3 ⟨t.val / 12, hi⟩ ⟨t.val % 12 * 256 + 32 * k + r.val, hr⟩ l) := by
  obtain ⟨e0, e1, e2⟩ := idx_in t
  show xblk m c t _ = _
  unfold xblk iblk
  rw [View.read_apply]
  show (V m c main_v36 : S6x3072x128.Idx → Elt F .f32) _ = V m c main_v36 _
  congr 1
  funext a
  apply Fin.ext
  match a with
  | ⟨0, _⟩ => show win0_0.index t (0 : Fin 3) * 1 + 1 * (0 + 1 * 0) = t.val / 12; rw [e0]; omega
  | ⟨1, _⟩ => show win0_0.index t (1 : Fin 3) * 256 + 1 * (32 * k + 1 * r.val) = t.val % 12 * 256 + 32 * k + r.val; rw [e1]; omega
  | ⟨2, _⟩ => show win0_0.index t (2 : Fin 3) * 128 + 1 * (0 + 1 * l.val) = l.val; rw [e2]; omega

/-- Sub-tile `s` of the block at point `t`, read at row `r` and lane `l`: the stacked input at image t / 12,
    row (t mod 12) · 256 + 32 · s + r, lane l. -/
theorem blk_read (c : Dev nD) (t : Fin cfg0.N) (s : Fin 8) (r : Fin 32) (l : Fin 128) :
    subT (xblk m c t) s (ix3 (0 : Fin 1) r l)
      = (V m c main_v36 : S6x3072x128.Idx → Elt F .f32)
          (ix3 ⟨t.val / 12, by have := lt_of_lt_of_eq t.isLt (show cfg0.N = 72 from N_0); omega⟩
            ⟨t.val % 12 * 256 + 32 * s.val + r.val, by have := s.isLt; have := r.isLt; omega⟩ l) := by
  have hN : t.val < 72 := lt_of_lt_of_eq t.isLt (show cfg0.N = 72 from N_0)
  obtain ⟨k, hk⟩ := s
  match k, hk with
  | 0, _ => exact ld_read m c t 0 (by decide) _ r l _ _
  | 1, _ => exact ld_read m c t 1 (by decide) _ r l _ _
  | 2, _ => exact ld_read m c t 2 (by decide) _ r l _ _
  | 3, _ => exact ld_read m c t 3 (by decide) _ r l _ _
  | 4, _ => exact ld_read m c t 4 (by decide) _ r l _ _
  | 5, _ => exact ld_read m c t 5 (by decide) _ r l _ _
  | 6, _ => exact ld_read m c t 6 (by decide) _ r l _ _
  | 7, _ => exact ld_read m c t 7 (by decide) _ r l _ _
  | n + 8, h => exact absurd h (by omega)

/-! ## The result array -/

/-- The region's result: entry (image, 0, b) is the accumulator after the image's last point, 12 · image + 11,
    re-laid as [1, 1, 256], at (0, 0, b). -/
def Gout (c : Dev nD) : Vec F S6x1x256 .f32 :=
  fun j => k0_pay2 (accRec (blkOf m c) (12 * (j 0).val + 11)) (ix3 (0 : Fin 1) (0 : Fin 1) (⟨(j 2).val, (j 2).isLt⟩ : Fin 256))

theorem Gout_apply (c : Dev nD) (img : Fin 6) (b : Fin 256) :
    Gout m c (ix3 img (0 : Fin 1) b) = k0_pay2 (accRec (blkOf m c) (12 * img.val + 11)) (ix3 (0 : Fin 1) (0 : Fin 1) b) := rfl

/-- What a point with tile 11 writes back is its block of `Gout`: the block is (t / 12, 0, 0) of extents
    (1, 1, 256), and 12 · (t / 12) + 11 = t there. -/
theorem flushed_eq (c : Dev nD) (t : Fin cfg0.N) (hf : (cfg0.win 1).flush t = true) :
    (dats m 0 c).flushed 1 t = ((cfg0.win 1).blk t).view.read (Elt F) (Gout m c) := by
  have h11 : t.val % 12 = 11 := (flush0_1 t).mp hf
  obtain ⟨e0, e1, e2⟩ := idx_out t
  show (cfg0.win 1).cut (grid0.coords t) ((dats m 0 c).after 1 t) = _
  rw [after0_1, out_eq m c t h11]
  funext y
  rw [View.read_apply]
  have hy0 : (y 0).val < 1 := (y 0).isLt
  have hy1 : (y 1).val < 1 := (y 1).isLt
  obtain ⟨j, hj⟩ : ∃ j : S6x1x256.Idx, j = ((cfg0.win 1).blk t).view.emb y := ⟨_, rfl⟩
  have hj0 : (j 0).val = t.val / 12 := by
    rw [hj]; show win0_1.index t (0 : Fin 3) * 1 + 1 * (y 0).val = t.val / 12; rw [e0]; omega
  have hj2 : (j 2).val = (y 2).val := by
    rw [hj]; show win0_1.index t (2 : Fin 3) * 256 + 1 * (y 2).val = (y 2).val; rw [e2]; omega
  rw [← hj]
  show k0_pay2 (accRec (blkOf m c) t.val) ((cfg0.win 1).xinj (grid0.coords t) y)
    = k0_pay2 (accRec (blkOf m c) (12 * (j 0).val + 11)) (ix3 (0 : Fin 1) (0 : Fin 1) (⟨(j 2).val, (j 2).isLt⟩ : Fin 256))
  have hn : 12 * (j 0).val + 11 = t.val := by omega
  rw [hn]
  congr 1
  funext a; apply Fin.ext
  match a with
  | ⟨0, _⟩ => show (y 0).val = 0; omega
  | ⟨1, _⟩ => show (y 1).val = 0; omega
  | ⟨2, _⟩ => show (y 2).val = (j 2).val; omega

/-- So the result array ends holding `Gout`: entry (image, 0, b) lies in the block the point 12 · image + 11
    writes back. -/
theorem final_o (c : Dev nD) : (dats m 0 c).arrAt 1 cfg0.N = Gout m c :=
  (dats m 0 c).arrAt_eq_of_cover 1 (Gout m c) (flushed_eq m c) fun i => by
    have hi0 : (i 0 : Nat) < 6 := (i 0).isLt
    have hi1 : (i 1 : Nat) < 1 := (i 1).isLt
    have hi2 : (i 2 : Nat) < 256 := (i 2).isLt
    have hN : cfg0.N = 72 := N_0
    obtain ⟨t, ht⟩ : ∃ t : Fin cfg0.N, t.val = 12 * (i 0 : Nat) + 11 := ⟨⟨12 * (i 0 : Nat) + 11, by omega⟩, rfl⟩
    obtain ⟨e0, e1, e2⟩ := idx_out t
    refine ⟨t, (flush0_1 t).mpr (by omega), ?_⟩
    show i ∈ ((View.whole main_v37).slice (win0_1.rect t)).set
    rw [View.set_slice_whole, Rect.mem_set_unit]
    intro a
    match a with
    | ⟨0, _⟩ => show win0_1.index t (0 : Fin 3) * 1 ≤ (i 0 : Nat) ∧ (i 0 : Nat) < win0_1.index t (0 : Fin 3) * 1 + 1; rw [e0]; omega
    | ⟨1, _⟩ => show win0_1.index t (1 : Fin 3) * 1 ≤ (i 1 : Nat) ∧ (i 1 : Nat) < win0_1.index t (1 : Fin 3) * 1 + 1; rw [e1]; omega
    | ⟨2, _⟩ => show win0_1.index t (2 : Fin 3) * 256 ≤ (i 2 : Nat) ∧ (i 2 : Nat) < win0_1.index t (2 : Fin 3) * 256 + 256; rw [e2]; omega

end Cert.KernelIdeal.Hand

end
-- ==== Proof.KRun.lean ====
/-
  The idealized kernel program's run, read: after @main the result buffer holds the 33 later operations' function
  (pair sums of the six [256] rows, mean absolute differences, the quotient) of the region's result array, which is
  the accumulator's final contents image by image; the three argument arrays are unchanged.
-/
import proofs.«425628_j89386859364662_3_alg».proof.Proof.KArgs
import proofs.«425628_j89386859364662_3_alg».proof.Proof.KFinal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_v65 : main_v65 ∈ Pipeline.restRefs sig (cfgs 0).spec := Pipeline.mem_restRefs_of main_v65 rfl (by decide)

/-- The result buffer after @main. -/
theorem res_v65 {r : PUnit × MemSt nD τ sig (Elt F)}
    (h : Pipeline.FramePost cfgs (dats m) 0 (Pipeline.afterTail₀ cfgs (dats m) 0 (V0 m) [hostOps1]) r) (c : Dev nD) :
    r.2.mem ((c : Thread nD τ).loc main_v65) = kerTail (Gout m c) := by
  rw [(h c).2 main_v65 mem_v65, tail_read, tail_v65]
  congr 1
  exact (Pipeline.withArrays_arr (cfgs 0).spec launch0.win.arr_inj c _ _ 1).trans (final_o m c)

/-- Every weakly fair execution of @main terminates with the result at that value and the arguments unchanged. -/
theorem kernel_run : θ_run defs (onTc (τ := τ) (main (F := F))) ⟨m, fun _ => 0, ρ⟩ (fun r => ∀ c : Dev nD,
      r.2.mem ((c.tc : Thread nD τ).loc main_v65) = kerTail (Gout m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨res_v65 m h c,
     (post_kept m main_arg0 mem_arg0 (by decide) (tail_arg0 (F := F)) h c).trans (V_main_arg0 m c),
     (post_kept m main_arg1 mem_arg1 (by decide) (tail_arg1 (F := F)) h c).trans (V_main_arg1 m c),
     (post_kept m main_arg2 mem_arg2 (by decide) (tail_arg2 (F := F)) h c).trans (V_main_arg2 m c)⟩)
    (run_main m ρ)

end Cert.KernelIdeal.Hand

end
-- ==== Proof.RefTerm.lean ====
import proofs.«425628_j89386859364662_3_alg».proof.ReferenceIdeal

/-!
  The reference program's values as closed terms: each definition is the composition, in the
  program's own order, of the operations that compute one of its tensor values from the
  program's arguments.  For each of the three arguments the same histogram is computed:
  batch element 7 is sliced out, the three channels 0, 8, 10 are gathered, every element is
  scaled and floored to an integer bin, the bins inside [0, 256) are marked valid, the bin is
  clipped to [0, 255], and the valid marks are scatter-added into 256 zeros.  The tail is the
  ratio of the two mean absolute histogram differences.
-/

noncomputable section

namespace Cert.ReferenceIdeal.Hand

open Cert.ReferenceIdeal Idealize.ShloMosaic
open Facts₀ Facts

variable {F : FTy → Type} [FloatOps F] [Facts]

/-- The channel index table [0, 8, 10], each entry normalised (a negative entry counted from the
    end of the 19 channels), as a column of three start indices. -/
def chan : IVec S3x1 32 :=
  broadcastInDim S3x1 ![0] bcast_S3_S3x1_0
    (select
      (cmpi .slt (fun i => lit0 (S3.rowMajor i)) (broadcastInDim S3 ![] bcast_S_S3 (constantI S_ 32 0#32)))
      (addi (fun i => lit0 (S3.rowMajor i)) (broadcastInDim S3 ![] bcast_S_S3 (constantI S_ 32 19#32)))
      (fun i => lit0 (S3.rowMajor i)))

/-- Batch element 7 of the argument, its three table channels gathered. -/
def gath (x : FVec F S8x19x512x512 .f32) : FVec F S3x512x512 .f32 :=
  Host.gather gather_S19x512x512_S3x1_S3x512x512_12_0_n_n_0_1_1512512
    (shapeCast S19x512x512
      (extractStridedSlice S1x19x512x512 ![7, 0, 0, 0] x slices_S8x19x512x512_S1x19x512x512_7_0_0_0)
      shapeCasts_S1x19x512x512_S19x512x512)
    chan

/-- The integer bin of every element: the floor of the element times 256/255, converted to a
    signed 32-bit integer. -/
def binIdx (g : FVec F S3x512x512 .f32) : IVec S3x512x512 32 :=
  fptosi 32 (Host.floor (mulf g (broadcastInDim S3x512x512 ![] bcast_S_S3x512x512 (constant S_ .f32 0x3F808081#32))))

/-- One where the bin lies in [0, 256) and zero elsewhere, as floats, flattened. -/
def valid (g : FVec F S3x512x512 .f32) : FVec F S786432 .f32 :=
  uitofp .f32
    (shapeCast S786432
      (andi
        (cmpi .sge (binIdx g) (broadcastInDim S3x512x512 ![] bcast_S_S3x512x512 (constantI S_ 32 0#32)))
        (cmpi .slt (binIdx g) (broadcastInDim S3x512x512 ![] bcast_S_S3x512x512 (constantI S_ 32 256#32))))
      shapeCasts_S3x512x512_S786432)

/-- The scatter index of every element: the bin clipped to [0, 255] (the larger of 0 and the bin,
    then the smaller of 255 and that), flattened, a negative index counted from the end of the
    256 bins, as a column. -/
def scatIdx (g : FVec F S3x512x512 .f32) : IVec S786432x1 32 :=
  broadcastInDim S786432x1 ![0] bcast_S786432_S786432x1_0
    (select
      (cmpi .slt
        (shapeCast S786432
          (minsi (broadcastInDim S3x512x512 ![] bcast_S_S3x512x512 (id (constantI S_ 32 255#32)))
            (maxsi (broadcastInDim S3x512x512 ![] bcast_S_S3x512x512 (id (constantI S_ 32 0#32))) (binIdx g)))
          shapeCasts_S3x512x512_S786432)
        (broadcastInDim S786432 ![] bcast_S_S786432 (constantI S_ 32 0#32)))
      (addi
        (shapeCast S786432
          (minsi (broadcastInDim S3x512x512 ![] bcast_S_S3x512x512 (id (constantI S_ 32 255#32)))
            (maxsi (broadcastInDim S3x512x512 ![] bcast_S_S3x512x512 (id (constantI S_ 32 0#32))) (binIdx g)))
          shapeCasts_S3x512x512_S786432)
        (broadcastInDim S786432 ![] bcast_S_S786432 (constantI S_ 32 256#32)))
      (shapeCast S786432
        (minsi (broadcastInDim S3x512x512 ![] bcast_S_S3x512x512 (id (constantI S_ 32 255#32)))
          (maxsi (broadcastInDim S3x512x512 ![] bcast_S_S3x512x512 (id (constantI S_ 32 0#32))) (binIdx g)))
        shapeCasts_S3x512x512_S786432))

/-- The histogram: the valid marks scatter-added at the scatter indices into 256 zeros, as a
    column. -/
def histOf (g : FVec F S3x512x512 .f32) : FVec F S256x1 .f32 :=
  shapeCast S256x1
    (Host.scatterAdd scatter_S256_S786432x1_S786432_n_0_0_1
      (broadcastInDim S256 ![] bcast_S_S256 (constant S_ .f32 0x00000000#32))
      (scatIdx g)
      (valid g))
    shapeCasts_S256_S256x1

/-- The histogram of one argument. -/
def hist (x : FVec F S8x19x512x512 .f32) : FVec F S256x1 .f32 := histOf (gath x)

/-- The mean absolute difference of the first two histograms over the mean absolute difference
    of the first and third plus 1e-7. -/
def tail (ha hp hn : FVec F S256x1 .f32) : FVec F S_ .f32 :=
  Host.divf
    (Host.divf
      (Host.reduceAdd (Host.absf (subf ha hp)) (constant S_ .f32 0x00000000#32) reducesTo_S256x1_S_d0_1 h_S_)
      (constant S_ .f32 0x43800000#32))
    (addf
      (Host.divf
        (Host.reduceAdd (Host.absf (subf ha hn)) (constant S_ .f32 0x00000000#32) reducesTo_S256x1_S_d0_1 h_S_)
        (constant S_ .f32 0x43800000#32))
      (constant S_ .f32 0x33D6BF95#32))

/-- The program's result on three arguments. -/
def out (a p n : FVec F S8x19x512x512 .f32) : FVec F S_ .f32 := tail (hist a) (hist p) (hist n)

end Cert.ReferenceIdeal.Hand

end
-- ==== Proof.RefRun.lean ====
import proofs.«425628_j89386859364662_3_alg».proof.Proof.Gen.ReferenceIdeal
import proofs.«425628_j89386859364662_3_alg».proof.Proof.RefTerm
import Idealize.ShloMosaic.Lib.StableHlo.Run

/-!
  The reference program's run. The program is a straight line of 154 whole-tensor operations (the three
  calls of the clipping function written out at their call sites, six operations each). The line is cut
  into four stretches: the histogram of the first argument (which also writes the channel table), the
  histogram of the second, the histogram of the third, and the tail that forms the ratio of the two mean
  absolute differences. Each stretch is read back on its own: the value it leaves in its result tensor as
  a closed term of the tensors it reads, and the tensors it leaves untouched. Running the four in order
  then gives the program's result as `Hand.out` of the three arguments, with the arguments unchanged.
-/

noncomputable section

namespace Cert.ReferenceIdeal.HandRun

open Cert.ReferenceIdeal Cert.ReferenceIdeal.Gen Idealize.ShloMosaic Idealize.ShloMosaic.TcCoe Idealize.SL.Sem
  Idealize.ShloMosaic.StableHlo

variable {F : FTy → Type} [FloatOps F]

/-! ## The four stretches -/

/-- The channel table and the first argument's histogram: 47 operations, ending in the tensor `%30`. -/
abbrev opsA : List (HloOp τ sig (Elt F)) :=
  [ StableHlo.nullary main_c (fun i => lit0 (S3.rowMajor i)),
    StableHlo.unary main_arg0 main_v0 ((extractStridedSlice S1x19x512x512 ![7, 0, 0, 0] · slices_S8x19x512x512_S1x19x512x512_7_0_0_0) : (⟨S8x19x512x512, .f32⟩ : BufTy).Contents (Elt F) → (⟨S1x19x512x512, .f32⟩ : BufTy).Contents (Elt F)),
    StableHlo.reshape main_v0 main_v1 rfl shapeCasts_S1x19x512x512_S19x512x512,
    StableHlo.nullary main_c_0 (constantI S_ 32 0#32),
    StableHlo.unary main_c_0 main_v2 (broadcastInDim S3 ![] bcast_S_S3 : (⟨S_, .i32⟩ : BufTy).Contents (Elt F) → (⟨S3, .i32⟩ : BufTy).Contents (Elt F)),
    StableHlo.binary main_c main_v2 main_v3 (cmpi .slt : (⟨S3, .i32⟩ : BufTy).Contents (Elt F) → (⟨S3, .i32⟩ : BufTy).Contents (Elt F) → (⟨S3, .i1⟩ : BufTy).Contents (Elt F)),
    StableHlo.nullary main_c_1 (constantI S_ 32 19#32),
    StableHlo.unary main_c_1 main_v4 (broadcastInDim S3 ![] bcast_S_S3 : (⟨S_, .i32⟩ : BufTy).Contents (Elt F) → (⟨S3, .i32⟩ : BufTy).Contents (Elt F)),
    StableHlo.binary main_c main_v4 main_v5 (addi : (⟨S3, .i32⟩ : BufTy).Contents (Elt F) → (⟨S3, .i32⟩ : BufTy).Contents (Elt F) → (⟨S3, .i32⟩ : BufTy).Contents (Elt F)),
    StableHlo.ternary main_v3 main_v5 main_c main_v6 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v6 main_v7 (broadcastInDim S3x1 ![0] bcast_S3_S3x1_0 : (⟨S3, .i32⟩ : BufTy).Contents (Elt F) → (⟨S3x1, .i32⟩ : BufTy).Contents (Elt F)),
    StableHlo.binary main_v1 main_v7 main_v8 ((fun x i => Host.gather gather_S19x512x512_S3x1_S3x512x512_12_0_n_n_0_1_1512512 x i) : (⟨S19x512x512, .f32⟩ : BufTy).Contents (Elt F) → (⟨S3x1, .i32⟩ : BufTy).Contents (Elt F) → (⟨S3x512x512, .f32⟩ : BufTy).Contents (Elt F)),
    StableHlo.nullary main_cst (constant S_ .f32 0x3F808081#32),
    StableHlo.unary main_cst main_v9 (broadcastInDim S3x512x512 ![] bcast_S_S3x512x512 : (⟨S_, .f32⟩ : BufTy).Contents (Elt F) → (⟨S3x512x512, .f32⟩ : BufTy).Contents (Elt F)),
    StableHlo.binary main_v8 main_v9 main_v10 (mulf : (⟨S3x512x512, .f32⟩ : BufTy).Contents (Elt F) → (⟨S3x512x512, .f32⟩ : BufTy).Contents (Elt F) → (⟨S3x512x512, .f32⟩ : BufTy).Contents (Elt F)),
    StableHlo.unary main_v10 main_v11 (Host.floor : (⟨S3x512x512, .f32⟩ : BufTy).Contents (Elt F) → (⟨S3x512x512, .f32⟩ : BufTy).Contents (Elt F)),
    StableHlo.unary main_v11 main_v12 (fptosi 32 : (⟨S3x512x512, .f32⟩ : BufTy).Contents (Elt F) → (⟨S3x512x512, .i32⟩ : BufTy).Contents (Elt F)),
    StableHlo.nullary main_c_2 (constantI S_ 32 0#32),
    StableHlo.unary main_c_2 main_v13 (broadcastInDim S3x512x512 ![] bcast_S_S3x512x512 : (⟨S_, .i32⟩ : BufTy).Contents (Elt F) → (⟨S3x512x512, .i32⟩ : BufTy).Contents (Elt F)),
    StableHlo.binary main_v12 main_v13 main_v14 (cmpi .sge : (⟨S3x512x512, .i32⟩ : BufTy).Contents (Elt F) → (⟨S3x512x512, .i32⟩ : BufTy).Contents (Elt F) → (⟨S3x512x512, .i1⟩ : BufTy).Contents (Elt F)),
    StableHlo.nullary main_c_3 (constantI S_ 32 256#32),
    StableHlo.unary main_c_3 main_v15 (broadcastInDim S3x512x512 ![] bcast_S_S3x512x512 : (⟨S_, .i32⟩ : BufTy).Contents (Elt F) → (⟨S3x512x512, .i32⟩ : BufTy).Contents (Elt F)),
    StableHlo.binary main_v12 main_v15 main_v16 (cmpi .slt : (⟨S3x512x512, .i32⟩ : BufTy).Contents (Elt F) → (⟨S3x512x512, .i32⟩ : BufTy).Contents (Elt F) → (⟨S3x512x512, .i1⟩ : BufTy).Contents (Elt F)),
    StableHlo.binary main_v14 main_v16 main_v17 (andi : (⟨S3x512x512, .i1⟩ : BufTy).Contents (Elt F) → (⟨S3x512x512, .i1⟩ : BufTy).Contents (Elt F) → (⟨S3x512x512, .i1⟩ : BufTy).Contents (Elt F)),
    StableHlo.reshape main_v17 main_v18 rfl shapeCasts_S3x512x512_S786432,
    StableHlo.unary main_v18 main_v19 (uitofp .f32 : (⟨S786432, .i1⟩ : BufTy).Contents (Elt F) → (⟨S786432, .f32⟩ : BufTy).Contents (Elt F)),
    StableHlo.nullary main_c_4 (constantI S_ 32 0#32),
    StableHlo.nullary main_c_5 (constantI S_ 32 255#32),
    StableHlo.TRef.unary (.of main_c_4) main_call0.v0 id,
    StableHlo.TRef.unary main_call0.v0 main_call0.v1 (broadcastInDim S3x512x512 ![] bcast_S_S3x512x512),
    StableHlo.TRef.binary main_call0.v1 (.of main_v12) main_call0.v2 maxsi,
    StableHlo.TRef.unary (.of main_c_5) main_call0.v3 id,
    StableHlo.TRef.unary main_call0.v3 main_call0.v4 (broadcastInDim S3x512x512 ![] bcast_S_S3x512x512),
    StableHlo.TRef.binary main_call0.v4 main_call0.v2 main_call0.v5 minsi,
    StableHlo.reshape main_v20 main_v21 rfl shapeCasts_S3x512x512_S786432,
    StableHlo.nullary main_cst_6 (constant S_ .f32 0x00000000#32),
    StableHlo.unary main_cst_6 main_v22 (broadcastInDim S256 ![] bcast_S_S256 : (⟨S_, .f32⟩ : BufTy).Contents (Elt F) → (⟨S256, .f32⟩ : BufTy).Contents (Elt F)),
    StableHlo.nullary main_c_7 (constantI S_ 32 0#32),
    StableHlo.unary main_c_7 main_v23 (broadcastInDim S786432 ![] bcast_S_S786432 : (⟨S_, .i32⟩ : BufTy).Contents (Elt F) → (⟨S786432, .i32⟩ : BufTy).Contents (Elt F)),
    StableHlo.binary main_v21 main_v23 main_v24 (cmpi .slt : (⟨S786432, .i32⟩ : BufTy).Contents (Elt F) → (⟨S786432, .i32⟩ : BufTy).Contents (Elt F) → (⟨S786432, .i1⟩ : BufTy).Contents (Elt F)),
    StableHlo.nullary main_c_8 (constantI S_ 32 256#32),
    StableHlo.unary main_c_8 main_v25 (broadcastInDim S786432 ![] bcast_S_S786432 : (⟨S_, .i32⟩ : BufTy).Contents (Elt F) → (⟨S786432, .i32⟩ : BufTy).Contents (Elt F)),
    StableHlo.binary main_v21 main_v25 main_v26 (addi : (⟨S786432, .i32⟩ : BufTy).Contents (Elt F) → (⟨S786432, .i32⟩ : BufTy).Contents (Elt F) → (⟨S786432, .i32⟩ : BufTy).Contents (Elt F)),
    StableHlo.ternary main_v24 main_v26 main_v21 main_v27 (select : (⟨S786432, .i1⟩ : BufTy).Contents (Elt F) → (⟨S786432, .i32⟩ : BufTy).Contents (Elt F) → (⟨S786432, .i32⟩ : BufTy).Contents (Elt F) → (⟨S786432, .i32⟩ : BufTy).Contents (Elt F)),
    StableHlo.unary main_v27 main_v28 (broadcastInDim S786432x1 ![0] bcast_S786432_S786432x1_0 : (⟨S786432, .i32⟩ : BufTy).Contents (Elt F) → (⟨S786432x1, .i32⟩ : BufTy).Contents (Elt F)),
    StableHlo.ternary main_v22 main_v28 main_v19 main_v29 ((fun x i u => Host.scatterAdd scatter_S256_S786432x1_S786432_n_0_0_1 x i u) : (⟨S256, .f32⟩ : BufTy).Contents (Elt F) → (⟨S786432x1, .i32⟩ : BufTy).Contents (Elt F) → (⟨S786432, .f32⟩ : BufTy).Contents (Elt F) → (⟨S256, .f32⟩ : BufTy).Contents (Elt F)),
    StableHlo.reshape main_v29 main_v30 rfl shapeCasts_S256_S256x1 ]

/-- The second argument's histogram: 46 operations, reading the channel table, ending in `%61`. -/
abbrev opsP : List (HloOp τ sig (Elt F)) :=
  [ StableHlo.unary main_arg1 main_v31 ((extractStridedSlice S1x19x512x512 ![7, 0, 0, 0] · slices_S8x19x512x512_S1x19x512x512_7_0_0_0) : (⟨S8x19x512x512, .f32⟩ : BufTy).Contents (Elt F) → (⟨S1x19x512x512, .f32⟩ : BufTy).Contents (Elt F)),
    StableHlo.reshape main_v31 main_v32 rfl shapeCasts_S1x19x512x512_S19x512x512,
    StableHlo.nullary main_c_9 (constantI S_ 32 0#32),
    StableHlo.unary main_c_9 main_v33 (broadcastInDim S3 ![] bcast_S_S3 : (⟨S_, .i32⟩ : BufTy).Contents (Elt F) → (⟨S3, .i32⟩ : BufTy).Contents (Elt F)),
    StableHlo.binary main_c main_v33 main_v34 (cmpi .slt : (⟨S3, .i32⟩ : BufTy).Contents (Elt F) → (⟨S3, .i32⟩ : BufTy).Contents (Elt F) → (⟨S3, .i1⟩ : BufTy).Contents (Elt F)),
    StableHlo.nullary main_c_10 (constantI S_ 32 19#32),
    StableHlo.unary main_c_10 main_v35 (broadcastInDim S3 ![] bcast_S_S3 : (⟨S_, .i32⟩ : BufTy).Contents (Elt F) → (⟨S3, .i32⟩ : BufTy).Contents (Elt F)),
    StableHlo.binary main_c main_v35 main_v36 (addi : (⟨S3, .i32⟩ : BufTy).Contents (Elt F) → (⟨S3, .i32⟩ : BufTy).Contents (Elt F) → (⟨S3, .i32⟩ : BufTy).Contents (Elt F)),
    StableHlo.ternary main_v34 main_v36 main_c main_v37 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v37 main_v38 (broadcastInDim S3x1 ![0] bcast_S3_S3x1_0 : (⟨S3, .i32⟩ : BufTy).Contents (Elt F) → (⟨S3x1, .i32⟩ : BufTy).Contents (Elt F)),
    StableHlo.binary main_v32 main_v38 main_v39 ((fun x i => Host.gather gather_S19x512x512_S3x1_S3x512x512_12_0_n_n_0_1_1512512 x i) : (⟨S19x512x512, .f32⟩ : BufTy).Contents (Elt F) → (⟨S3x1, .i32⟩ : BufTy).Contents (Elt F) → (⟨S3x512x512, .f32⟩ : BufTy).Contents (Elt F)),
    StableHlo.nullary main_cst_11 (constant S_ .f32 0x3F808081#32),
    StableHlo.unary main_cst_11 main_v40 (broadcastInDim S3x512x512 ![] bcast_S_S3x512x512 : (⟨S_, .f32⟩ : BufTy).Contents (Elt F) → (⟨S3x512x512, .f32⟩ : BufTy).Contents (Elt F)),
    StableHlo.binary main_v39 main_v40 main_v41 (mulf : (⟨S3x512x512, .f32⟩ : BufTy).Contents (Elt F) → (⟨S3x512x512, .f32⟩ : BufTy).Contents (Elt F) → (⟨S3x512x512, .f32⟩ : BufTy).Contents (Elt F)),
    StableHlo.unary main_v41 main_v42 (Host.floor : (⟨S3x512x512, .f32⟩ : BufTy).Contents (Elt F) → (⟨S3x512x512, .f32⟩ : BufTy).Contents (Elt F)),
    StableHlo.unary main_v42 main_v43 (fptosi 32 : (⟨S3x512x512, .f32⟩ : BufTy).Contents (Elt F) → (⟨S3x512x512, .i32⟩ : BufTy).Contents (Elt F)),
    StableHlo.nullary main_c_12 (constantI S_ 32 0#32),
    StableHlo.unary main_c_12 main_v44 (broadcastInDim S3x512x512 ![] bcast_S_S3x512x512 : (⟨S_, .i32⟩ : BufTy).Contents (Elt F) → (⟨S3x512x512, .i32⟩ : BufTy).Contents (Elt F)),
    StableHlo.binary main_v43 main_v44 main_v45 (cmpi .sge : (⟨S3x512x512, .i32⟩ : BufTy).Contents (Elt F) → (⟨S3x512x512, .i32⟩ : BufTy).Contents (Elt F) → (⟨S3x512x512, .i1⟩ : BufTy).Contents (Elt F)),
    StableHlo.nullary main_c_13 (constantI S_ 32 256#32),
    StableHlo.unary main_c_13 main_v46 (broadcastInDim S3x512x512 ![] bcast_S_S3x512x512 : (⟨S_, .i32⟩ : BufTy).Contents (Elt F) → (⟨S3x512x512, .i32⟩ : BufTy).Contents (Elt F)),
    StableHlo.binary main_v43 main_v46 main_v47 (cmpi .slt : (⟨S3x512x512, .i32⟩ : BufTy).Contents (Elt F) → (⟨S3x512x512, .i32⟩ : BufTy).Contents (Elt F) → (⟨S3x512x512, .i1⟩ : BufTy).Contents (Elt F)),
    StableHlo.binary main_v45 main_v47 main_v48 (andi : (⟨S3x512x512, .i1⟩ : BufTy).Contents (Elt F) → (⟨S3x512x512, .i1⟩ : BufTy).Contents (Elt F) → (⟨S3x512x512, .i1⟩ : BufTy).Contents (Elt F)),
    StableHlo.reshape main_v48 main_v49 rfl shapeCasts_S3x512x512_S786432,
    StableHlo.unary main_v49 main_v50 (uitofp .f32 : (⟨S786432, .i1⟩ : BufTy).Contents (Elt F) → (⟨S786432, .f32⟩ : BufTy).Contents (Elt F)),
    StableHlo.nullary main_c_14 (constantI S_ 32 0#32),
    StableHlo.nullary main_c_15 (constantI S_ 32 255#32),
    StableHlo.TRef.unary (.of main_c_14) main_call1.v0 id,
    StableHlo.TRef.unary main_call1.v0 main_call1.v1 (broadcastInDim S3x512x512 ![] bcast_S_S3x512x512),
    StableHlo.TRef.binary main_call1.v1 (.of main_v43) main_call1.v2 maxsi,
    StableHlo.TRef.unary (.of main_c_15) main_call1.v3 id,
    StableHlo.TRef.unary main_call1.v3 main_call1.v4 (broadcastInDim S3x512x512 ![] bcast_S_S3x512x512),
    StableHlo.TRef.binary main_call1.v4 main_call1.v2 main_call1.v5 minsi,
    StableHlo.reshape main_v51 main_v52 rfl shapeCasts_S3x512x512_S786432,
    StableHlo.nullary main_cst_16 (constant S_ .f32 0x00000000#32),
    StableHlo.unary main_cst_16 main_v53 (broadcastInDim S256 ![] bcast_S_S256 : (⟨S_, .f32⟩ : BufTy).Contents (Elt F) → (⟨S256, .f32⟩ : BufTy).Contents (Elt F)),
    StableHlo.nullary main_c_17 (constantI S_ 32 0#32),
    StableHlo.unary main_c_17 main_v54 (broadcastInDim S786432 ![] bcast_S_S786432 : (⟨S_, .i32⟩ : BufTy).Contents (Elt F) → (⟨S786432, .i32⟩ : BufTy).Contents (Elt F)),
    StableHlo.binary main_v52 main_v54 main_v55 (cmpi .slt : (⟨S786432, .i32⟩ : BufTy).Contents (Elt F) → (⟨S786432, .i32⟩ : BufTy).Contents (Elt F) → (⟨S786432, .i1⟩ : BufTy).Contents (Elt F)),
    StableHlo.nullary main_c_18 (constantI S_ 32 256#32),
    StableHlo.unary main_c_18 main_v56 (broadcastInDim S786432 ![] bcast_S_S786432 : (⟨S_, .i32⟩ : BufTy).Contents (Elt F) → (⟨S786432, .i32⟩ : BufTy).Contents (Elt F)),
    StableHlo.binary main_v52 main_v56 main_v57 (addi : (⟨S786432, .i32⟩ : BufTy).Contents (Elt F) → (⟨S786432, .i32⟩ : BufTy).Contents (Elt F) → (⟨S786432, .i32⟩ : BufTy).Contents (Elt F)),
    StableHlo.ternary main_v55 main_v57 main_v52 main_v58 (select : (⟨S786432, .i1⟩ : BufTy).Contents (Elt F) → (⟨S786432, .i32⟩ : BufTy).Contents (Elt F) → (⟨S786432, .i32⟩ : BufTy).Contents (Elt F) → (⟨S786432, .i32⟩ : BufTy).Contents (Elt F)),
    StableHlo.unary main_v58 main_v59 (broadcastInDim S786432x1 ![0] bcast_S786432_S786432x1_0 : (⟨S786432, .i32⟩ : BufTy).Contents (Elt F) → (⟨S786432x1, .i32⟩ : BufTy).Contents (Elt F)),
    StableHlo.ternary main_v53 main_v59 main_v50 main_v60 ((fun x i u => Host.scatterAdd scatter_S256_S786432x1_S786432_n_0_0_1 x i u) : (⟨S256, .f32⟩ : BufTy).Contents (Elt F) → (⟨S786432x1, .i32⟩ : BufTy).Contents (Elt F) → (⟨S786432, .f32⟩ : BufTy).Contents (Elt F) → (⟨S256, .f32⟩ : BufTy).Contents (Elt F)),
    StableHlo.reshape main_v60 main_v61 rfl shapeCasts_S256_S256x1 ]

/-- The third argument's histogram: 46 operations, reading the channel table, ending in `%92`. -/
abbrev opsN : List (HloOp τ sig (Elt F)) :=
  [ StableHlo.unary main_arg2 main_v62 ((extractStridedSlice S1x19x512x512 ![7, 0, 0, 0] · slices_S8x19x512x512_S1x19x512x512_7_0_0_0) : (⟨S8x19x512x512, .f32⟩ : BufTy).Contents (Elt F) → (⟨S1x19x512x512, .f32⟩ : BufTy).Contents (Elt F)),
    StableHlo.reshape main_v62 main_v63 rfl shapeCasts_S1x19x512x512_S19x512x512,
    StableHlo.nullary main_c_19 (constantI S_ 32 0#32),
    StableHlo.unary main_c_19 main_v64 (broadcastInDim S3 ![] bcast_S_S3 : (⟨S_, .i32⟩ : BufTy).Contents (Elt F) → (⟨S3, .i32⟩ : BufTy).Contents (Elt F)),
    StableHlo.binary main_c main_v64 main_v65 (cmpi .slt : (⟨S3, .i32⟩ : BufTy).Contents (Elt F) → (⟨S3, .i32⟩ : BufTy).Contents (Elt F) → (⟨S3, .i1⟩ : BufTy).Contents (Elt F)),
    StableHlo.nullary main_c_20 (constantI S_ 32 19#32),
    StableHlo.unary main_c_20 main_v66 (broadcastInDim S3 ![] bcast_S_S3 : (⟨S_, .i32⟩ : BufTy).Contents (Elt F) → (⟨S3, .i32⟩ : BufTy).Contents (Elt F)),
    StableHlo.binary main_c main_v66 main_v67 (addi : (⟨S3, .i32⟩ : BufTy).Contents (Elt F) → (⟨S3, .i32⟩ : BufTy).Contents (Elt F) → (⟨S3, .i32⟩ : BufTy).Contents (Elt F)),
    StableHlo.ternary main_v65 main_v67 main_c main_v68 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v68 main_v69 (broadcastInDim S3x1 ![0] bcast_S3_S3x1_0 : (⟨S3, .i32⟩ : BufTy).Contents (Elt F) → (⟨S3x1, .i32⟩ : BufTy).Contents (Elt F)),
    StableHlo.binary main_v63 main_v69 main_v70 ((fun x i => Host.gather gather_S19x512x512_S3x1_S3x512x512_12_0_n_n_0_1_1512512 x i) : (⟨S19x512x512, .f32⟩ : BufTy).Contents (Elt F) → (⟨S3x1, .i32⟩ : BufTy).Contents (Elt F) → (⟨S3x512x512, .f32⟩ : BufTy).Contents (Elt F)),
    StableHlo.nullary main_cst_21 (constant S_ .f32 0x3F808081#32),
    StableHlo.unary main_cst_21 main_v71 (broadcastInDim S3x512x512 ![] bcast_S_S3x512x512 : (⟨S_, .f32⟩ : BufTy).Contents (Elt F) → (⟨S3x512x512, .f32⟩ : BufTy).Contents (Elt F)),
    StableHlo.binary main_v70 main_v71 main_v72 (mulf : (⟨S3x512x512, .f32⟩ : BufTy).Contents (Elt F) → (⟨S3x512x512, .f32⟩ : BufTy).Contents (Elt F) → (⟨S3x512x512, .f32⟩ : BufTy).Contents (Elt F)),
    StableHlo.unary main_v72 main_v73 (Host.floor : (⟨S3x512x512, .f32⟩ : BufTy).Contents (Elt F) → (⟨S3x512x512, .f32⟩ : BufTy).Contents (Elt F)),
    StableHlo.unary main_v73 main_v74 (fptosi 32 : (⟨S3x512x512, .f32⟩ : BufTy).Contents (Elt F) → (⟨S3x512x512, .i32⟩ : BufTy).Contents (Elt F)),
    StableHlo.nullary main_c_22 (constantI S_ 32 0#32),
    StableHlo.unary main_c_22 main_v75 (broadcastInDim S3x512x512 ![] bcast_S_S3x512x512 : (⟨S_, .i32⟩ : BufTy).Contents (Elt F) → (⟨S3x512x512, .i32⟩ : BufTy).Contents (Elt F)),
    StableHlo.binary main_v74 main_v75 main_v76 (cmpi .sge : (⟨S3x512x512, .i32⟩ : BufTy).Contents (Elt F) → (⟨S3x512x512, .i32⟩ : BufTy).Contents (Elt F) → (⟨S3x512x512, .i1⟩ : BufTy).Contents (Elt F)),
    StableHlo.nullary main_c_23 (constantI S_ 32 256#32),
    StableHlo.unary main_c_23 main_v77 (broadcastInDim S3x512x512 ![] bcast_S_S3x512x512 : (⟨S_, .i32⟩ : BufTy).Contents (Elt F) → (⟨S3x512x512, .i32⟩ : BufTy).Contents (Elt F)),
    StableHlo.binary main_v74 main_v77 main_v78 (cmpi .slt : (⟨S3x512x512, .i32⟩ : BufTy).Contents (Elt F) → (⟨S3x512x512, .i32⟩ : BufTy).Contents (Elt F) → (⟨S3x512x512, .i1⟩ : BufTy).Contents (Elt F)),
    StableHlo.binary main_v76 main_v78 main_v79 (andi : (⟨S3x512x512, .i1⟩ : BufTy).Contents (Elt F) → (⟨S3x512x512, .i1⟩ : BufTy).Contents (Elt F) → (⟨S3x512x512, .i1⟩ : BufTy).Contents (Elt F)),
    StableHlo.reshape main_v79 main_v80 rfl shapeCasts_S3x512x512_S786432,
    StableHlo.unary main_v80 main_v81 (uitofp .f32 : (⟨S786432, .i1⟩ : BufTy).Contents (Elt F) → (⟨S786432, .f32⟩ : BufTy).Contents (Elt F)),
    StableHlo.nullary main_c_24 (constantI S_ 32 0#32),
    StableHlo.nullary main_c_25 (constantI S_ 32 255#32),
    StableHlo.TRef.unary (.of main_c_24) main_call2.v0 id,
    StableHlo.TRef.unary main_call2.v0 main_call2.v1 (broadcastInDim S3x512x512 ![] bcast_S_S3x512x512),
    StableHlo.TRef.binary main_call2.v1 (.of main_v74) main_call2.v2 maxsi,
    StableHlo.TRef.unary (.of main_c_25) main_call2.v3 id,
    StableHlo.TRef.unary main_call2.v3 main_call2.v4 (broadcastInDim S3x512x512 ![] bcast_S_S3x512x512),
    StableHlo.TRef.binary main_call2.v4 main_call2.v2 main_call2.v5 minsi,
    StableHlo.reshape main_v82 main_v83 rfl shapeCasts_S3x512x512_S786432,
    StableHlo.nullary main_cst_26 (constant S_ .f32 0x00000000#32),
    StableHlo.unary main_cst_26 main_v84 (broadcastInDim S256 ![] bcast_S_S256 : (⟨S_, .f32⟩ : BufTy).Contents (Elt F) → (⟨S256, .f32⟩ : BufTy).Contents (Elt F)),
    StableHlo.nullary main_c_27 (constantI S_ 32 0#32),
    StableHlo.unary main_c_27 main_v85 (broadcastInDim S786432 ![] bcast_S_S786432 : (⟨S_, .i32⟩ : BufTy).Contents (Elt F) → (⟨S786432, .i32⟩ : BufTy).Contents (Elt F)),
    StableHlo.binary main_v83 main_v85 main_v86 (cmpi .slt : (⟨S786432, .i32⟩ : BufTy).Contents (Elt F) → (⟨S786432, .i32⟩ : BufTy).Contents (Elt F) → (⟨S786432, .i1⟩ : BufTy).Contents (Elt F)),
    StableHlo.nullary main_c_28 (constantI S_ 32 256#32),
    StableHlo.unary main_c_28 main_v87 (broadcastInDim S786432 ![] bcast_S_S786432 : (⟨S_, .i32⟩ : BufTy).Contents (Elt F) → (⟨S786432, .i32⟩ : BufTy).Contents (Elt F)),
    StableHlo.binary main_v83 main_v87 main_v88 (addi : (⟨S786432, .i32⟩ : BufTy).Contents (Elt F) → (⟨S786432, .i32⟩ : BufTy).Contents (Elt F) → (⟨S786432, .i32⟩ : BufTy).Contents (Elt F)),
    StableHlo.ternary main_v86 main_v88 main_v83 main_v89 (select : (⟨S786432, .i1⟩ : BufTy).Contents (Elt F) → (⟨S786432, .i32⟩ : BufTy).Contents (Elt F) → (⟨S786432, .i32⟩ : BufTy).Contents (Elt F) → (⟨S786432, .i32⟩ : BufTy).Contents (Elt F)),
    StableHlo.unary main_v89 main_v90 (broadcastInDim S786432x1 ![0] bcast_S786432_S786432x1_0 : (⟨S786432, .i32⟩ : BufTy).Contents (Elt F) → (⟨S786432x1, .i32⟩ : BufTy).Contents (Elt F)),
    StableHlo.ternary main_v84 main_v90 main_v81 main_v91 ((fun x i u => Host.scatterAdd scatter_S256_S786432x1_S786432_n_0_0_1 x i u) : (⟨S256, .f32⟩ : BufTy).Contents (Elt F) → (⟨S786432x1, .i32⟩ : BufTy).Contents (Elt F) → (⟨S786432, .f32⟩ : BufTy).Contents (Elt F) → (⟨S256, .f32⟩ : BufTy).Contents (Elt F)),
    StableHlo.reshape main_v91 main_v92 rfl shapeCasts_S256_S256x1 ]

/-- The tail: 15 operations from the three histograms to the result `%102`. -/
abbrev opsT : List (HloOp τ sig (Elt F)) :=
  [ StableHlo.binary main_v30 main_v61 main_v93 (subf : (⟨S256x1, .f32⟩ : BufTy).Contents (Elt F) → (⟨S256x1, .f32⟩ : BufTy).Contents (Elt F) → (⟨S256x1, .f32⟩ : BufTy).Contents (Elt F)),
    StableHlo.unary main_v93 main_v94 (Host.absf : (⟨S256x1, .f32⟩ : BufTy).Contents (Elt F) → (⟨S256x1, .f32⟩ : BufTy).Contents (Elt F)),
    StableHlo.nullary main_cst_29 (constant S_ .f32 0x00000000#32),
    StableHlo.binary main_v94 main_cst_29 main_v95 ((fun x v => Host.reduceAdd x v reducesTo_S256x1_S_d0_1 h_S_) : (⟨S256x1, .f32⟩ : BufTy).Contents (Elt F) → (⟨S_, .f32⟩ : BufTy).Contents (Elt F) → (⟨S_, .f32⟩ : BufTy).Contents (Elt F)),
    StableHlo.nullary main_cst_30 (constant S_ .f32 0x43800000#32),
    StableHlo.binary main_v95 main_cst_30 main_v96 (Host.divf : (⟨S_, .f32⟩ : BufTy).Contents (Elt F) → (⟨S_, .f32⟩ : BufTy).Contents (Elt F) → (⟨S_, .f32⟩ : BufTy).Contents (Elt F)),
    StableHlo.binary main_v30 main_v92 main_v97 (subf : (⟨S256x1, .f32⟩ : BufTy).Contents (Elt F) → (⟨S256x1, .f32⟩ : BufTy).Contents (Elt F) → (⟨S256x1, .f32⟩ : BufTy).Contents (Elt F)),
    StableHlo.unary main_v97 main_v98 (Host.absf : (⟨S256x1, .f32⟩ : BufTy).Contents (Elt F) → (⟨S256x1, .f32⟩ : BufTy).Contents (Elt F)),
    StableHlo.nullary main_cst_31 (constant S_ .f32 0x00000000#32),
    StableHlo.binary main_v98 main_cst_31 main_v99 ((fun x v => Host.reduceAdd x v reducesTo_S256x1_S_d0_1 h_S_) : (⟨S256x1, .f32⟩ : BufTy).Contents (Elt F) → (⟨S_, .f32⟩ : BufTy).Contents (Elt F) → (⟨S_, .f32⟩ : BufTy).Contents (Elt F)),
    StableHlo.nullary main_cst_32 (constant S_ .f32 0x43800000#32),
    StableHlo.binary main_v99 main_cst_32 main_v100 (Host.divf : (⟨S_, .f32⟩ : BufTy).Contents (Elt F) → (⟨S_, .f32⟩ : BufTy).Contents (Elt F) → (⟨S_, .f32⟩ : BufTy).Contents (Elt F)),
    StableHlo.nullary main_cst_33 (constant S_ .f32 0x33D6BF95#32),
    StableHlo.binary main_v100 main_cst_33 main_v101 (addf : (⟨S_, .f32⟩ : BufTy).Contents (Elt F) → (⟨S_, .f32⟩ : BufTy).Contents (Elt F) → (⟨S_, .f32⟩ : BufTy).Contents (Elt F)),
    StableHlo.binary main_v96 main_v101 main_v102 (Host.divf : (⟨S_, .f32⟩ : BufTy).Contents (Elt F) → (⟨S_, .f32⟩ : BufTy).Contents (Elt F) → (⟨S_, .f32⟩ : BufTy).Contents (Elt F)) ]

/-- The whole line: the four stretches in order. -/
abbrev ops : List (HloOp τ sig (Elt F)) := opsA ++ (opsP ++ (opsN ++ opsT))

set_option maxRecDepth 65536 in
set_option maxHeartbeats 4000000 in
/-- The program is that line: the three windows and the clipping function opened at their uses, both sides
    are one chain of steps once sequencing is reassociated. -/
theorem main_eq (c : Dev nD) : main (F := F) c = seq ops := by
  simp only [main, main_part0, main_part1, main_part2, fn_clip.body, ops, opsA, opsP, opsN, opsT,
    List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., unary_bufs_sub .., unary_bufs_sub .., nullary_bufs_sub ..,
    unary_bufs_sub .., binary_bufs_sub .., nullary_bufs_sub .., unary_bufs_sub .., binary_bufs_sub .., binary_bufs_sub ..,
    reshape_bufs_sub .., unary_bufs_sub .., nullary_bufs_sub .., nullary_bufs_sub .., unary_bufs_sub .., unary_bufs_sub ..,
    binary_bufs_sub .., unary_bufs_sub .., unary_bufs_sub .., binary_bufs_sub .., reshape_bufs_sub .., nullary_bufs_sub ..,
    unary_bufs_sub .., nullary_bufs_sub .., unary_bufs_sub .., binary_bufs_sub .., nullary_bufs_sub .., unary_bufs_sub ..,
    binary_bufs_sub .., ternary_bufs_sub .., unary_bufs_sub .., ternary_bufs_sub .., reshape_bufs_sub ..⟩
theorem opsP_sub : (opsP : List (HloOp τ sig (Elt F))).Forall fun op => op.bufs ⊆ tcRefs τ sig :=
  ⟨unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., unary_bufs_sub .., unary_bufs_sub .., nullary_bufs_sub .., unary_bufs_sub ..,
    binary_bufs_sub .., nullary_bufs_sub .., unary_bufs_sub .., binary_bufs_sub .., binary_bufs_sub .., reshape_bufs_sub ..,
    unary_bufs_sub .., nullary_bufs_sub .., nullary_bufs_sub .., unary_bufs_sub .., unary_bufs_sub .., binary_bufs_sub ..,
    unary_bufs_sub .., unary_bufs_sub .., binary_bufs_sub .., reshape_bufs_sub .., nullary_bufs_sub .., unary_bufs_sub ..,
    nullary_bufs_sub .., unary_bufs_sub .., binary_bufs_sub .., nullary_bufs_sub .., unary_bufs_sub .., binary_bufs_sub ..,
    ternary_bufs_sub .., unary_bufs_sub .., ternary_bufs_sub .., reshape_bufs_sub ..⟩
theorem opsN_sub : (opsN : List (HloOp τ sig (Elt F))).Forall fun op => op.bufs ⊆ tcRefs τ sig :=
  ⟨unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., unary_bufs_sub .., unary_bufs_sub .., nullary_bufs_sub .., unary_bufs_sub ..,
    binary_bufs_sub .., nullary_bufs_sub .., unary_bufs_sub .., binary_bufs_sub .., binary_bufs_sub .., reshape_bufs_sub ..,
    unary_bufs_sub .., nullary_bufs_sub .., nullary_bufs_sub .., unary_bufs_sub .., unary_bufs_sub .., binary_bufs_sub ..,
    unary_bufs_sub .., unary_bufs_sub .., binary_bufs_sub .., reshape_bufs_sub .., nullary_bufs_sub .., unary_bufs_sub ..,
    nullary_bufs_sub .., unary_bufs_sub .., binary_bufs_sub .., nullary_bufs_sub .., unary_bufs_sub .., binary_bufs_sub ..,
    ternary_bufs_sub .., unary_bufs_sub .., ternary_bufs_sub .., reshape_bufs_sub ..⟩
theorem opsT_sub : (opsT : List (HloOp τ sig (Elt F))).Forall fun op => op.bufs ⊆ tcRefs τ sig :=
  ⟨binary_bufs_sub .., unary_bufs_sub .., nullary_bufs_sub .., binary_bufs_sub .., nullary_bufs_sub .., binary_bufs_sub ..,
    binary_bufs_sub .., unary_bufs_sub .., nullary_bufs_sub .., binary_bufs_sub .., nullary_bufs_sub .., binary_bufs_sub ..,
    nullary_bufs_sub .., binary_bufs_sub .., binary_bufs_sub ..⟩

/-- Every operation of the line touches tensors of the program only. -/
theorem ops_sub : (ops : List (HloOp τ sig (Elt F))).Forall fun op => op.bufs ⊆ tcRefs τ sig :=
  List.forall_append.mpr ⟨opsA_sub, List.forall_append.mpr ⟨opsP_sub, List.forall_append.mpr ⟨opsN_sub, opsT_sub⟩⟩⟩

theorem opsA_fresh : (opsA : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩
theorem opsP_fresh : (opsP : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl⟩
theorem opsN_fresh : (opsN : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl⟩
theorem opsT_fresh : (opsT : List (HloOp τ sig (Elt F))).Forall fun op => op.fresh = ∅ :=
  ⟨rfl, rfl, rfl, rfl, rfl, rfl, rfl, rfl, rfl, rfl, rfl, rfl, rfl, rfl, rfl⟩

/-- Every operation of the line determines what it writes. -/
theorem ops_fresh : ∀ op ∈ (ops : List (HloOp τ sig (Elt F))), op.fresh = ∅ :=
  List.forall_iff_forall_mem.mp
    (List.forall_append.mpr ⟨opsA_fresh, List.forall_append.mpr ⟨opsP_fresh, List.forall_append.mpr ⟨opsN_fresh, opsT_fresh⟩⟩⟩)

/-- Running two lines one after the other is running the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## What each stretch leaves untouched -/

theorem keepA_arg0 (V : Valuation τ sig (Elt F)) :
    after opsA V (main_arg0 : DevRef τ sig) = V (main_arg0 : DevRef τ sig) := by
  after_results_simp

theorem keepA_arg1 (V : Valuation τ sig (Elt F)) :
    after opsA V (main_arg1 : DevRef τ sig) = V (main_arg1 : DevRef τ sig) := by
  after_results_simp

theorem keepA_arg2 (V : Valuation τ sig (Elt F)) :
    after opsA V (main_arg2 : DevRef τ sig) = V (main_arg2 : DevRef τ sig) := by
  after_results_simp

theorem keepP_arg0 (V : Valuation τ sig (Elt F)) :
    after opsP V (main_arg0 : DevRef τ sig) = V (main_arg0 : DevRef τ sig) := by
  after_results_simp

theorem keepP_arg1 (V : Valuation τ sig (Elt F)) :
    after opsP V (main_arg1 : DevRef τ sig) = V (main_arg1 : DevRef τ sig) := by
  after_results_simp

theorem keepP_arg2 (V : Valuation τ sig (Elt F)) :
    after opsP V (main_arg2 : DevRef τ sig) = V (main_arg2 : DevRef τ sig) := by
  after_results_simp

theorem keepP_c (V : Valuation τ sig (Elt F)) :
    after opsP V (main_c : DevRef τ sig) = V (main_c : DevRef τ sig) := by
  after_results_simp

theorem keepP_v30 (V : Valuation τ sig (Elt F)) :
    after opsP V (main_v30 : DevRef τ sig) = V (main_v30 : DevRef τ sig) := by
  after_results_simp

theorem keepN_arg0 (V : Valuation τ sig (Elt F)) :
    after opsN V (main_arg0 : DevRef τ sig) = V (main_arg0 : DevRef τ sig) := by
  after_results_simp

theorem keepN_arg1 (V : Valuation τ sig (Elt F)) :
    after opsN V (main_arg1 : DevRef τ sig) = V (main_arg1 : DevRef τ sig) := by
  after_results_simp

theorem keepN_arg2 (V : Valuation τ sig (Elt F)) :
    after opsN V (main_arg2 : DevRef τ sig) = V (main_arg2 : DevRef τ sig) := by
  after_results_simp

theorem keepN_v30 (V : Valuation τ sig (Elt F)) :
    after opsN V (main_v30 : DevRef τ sig) = V (main_v30 : DevRef τ sig) := by
  after_results_simp

theorem keepN_v61 (V : Valuation τ sig (Elt F)) :
    after opsN V (main_v61 : DevRef τ sig) = V (main_v61 : DevRef τ sig) := by
  after_results_simp

theorem keepT_arg0 (V : Valuation τ sig (Elt F)) :
    after opsT V (main_arg0 : DevRef τ sig) = V (main_arg0 : DevRef τ sig) := by
  after_results_simp

theorem keepT_arg1 (V : Valuation τ sig (Elt F)) :
    after opsT V (main_arg1 : DevRef τ sig) = V (main_arg1 : DevRef τ sig) := by
  after_results_simp

theorem keepT_arg2 (V : Valuation τ sig (Elt F)) :
    after opsT V (main_arg2 : DevRef τ sig) = V (main_arg2 : DevRef τ sig) := by
  after_results_simp

/-! ## What each stretch computes -/

/-- The channel table after the first stretch: the three literal entries. -/
theorem chanA (V : Valuation τ sig (Elt F)) :
    after opsA V (main_c : DevRef τ sig) = fun i => lit0 (S3.rowMajor i) := by
  after_results_simp
  rfl

section Values

-- the gather, the scatter-add and the reduction are never looked into: the equations below only match them
attribute [local irreducible] Host.gather Host.scatterAdd Host.reduceAdd

set_option maxRecDepth 65536 in
set_option maxHeartbeats 4000000 in
/-- The first stretch leaves the first argument's histogram in `%30`. -/
theorem histA (V : Valuation τ sig (Elt F)) :
    after opsA V (main_v30 : DevRef τ sig) = Hand.hist (V (main_arg0 : DevRef τ sig)) := by
  after_results_simp
  rfl

set_option maxRecDepth 65536 in
set_option maxHeartbeats 4000000 in
/-- The second stretch, run from a state whose channel table holds the literal entries, leaves the second
    argument's histogram in `%61`. -/
theorem histP (V : Valuation τ sig (Elt F)) (hc : V (main_c : DevRef τ sig) = fun i => lit0 (S3.rowMajor i)) :
    after opsP V (main_v61 : DevRef τ sig) = Hand.hist (V (main_arg1 : DevRef τ sig)) := by
  after_results_simp
  rw [hc]
  rfl

set_option maxRecDepth 65536 in
set_option maxHeartbeats 4000000 in
/-- The third stretch, likewise, leaves the third argument's histogram in `%92`. -/
theorem histN (V : Valuation τ sig (Elt F)) (hc : V (main_c : DevRef τ sig) = fun i => lit0 (S3.rowMajor i)) :
    after opsN V (main_v92 : DevRef τ sig) = Hand.hist (V (main_arg2 : DevRef τ sig)) := by
  after_results_simp
  rw [hc]
  rfl

set_option maxRecDepth 65536 in
/-- The tail leaves in `%102` the ratio formed from the three histograms it finds. -/
theorem tailT (V : Valuation τ sig (Elt F)) :
    after opsT V (main_v102 : DevRef τ sig)
      = Hand.tail (V (main_v30 : DevRef τ sig)) (V (main_v61 : DevRef τ sig)) (V (main_v92 : DevRef τ sig)) := by
  after_results_simp
  rfl

end Values

/-! ## The whole line -/

/-- The result: the four stretches in order, each read back by its own equation, the tensors a later
    stretch reads carried unchanged through the stretches between. -/
theorem out_eq (V : Valuation τ sig (Elt F)) :
    after ops V (main_v102 : DevRef τ sig)
      = Hand.out (V (main_arg0 : DevRef τ sig)) (V (main_arg1 : DevRef τ sig)) (V (main_arg2 : DevRef τ sig)) := by
  have hcA := chanA V
  have hcP : after opsP (after opsA V) (main_c : DevRef τ sig) = fun i => lit0 (S3.rowMajor i) :=
    (keepP_c _).trans hcA
  show after (opsA ++ (opsP ++ (opsN ++ opsT))) V _ = _
  rw [after_append, after_append, after_append, tailT, keepN_v30, keepP_v30, histA, keepN_v61, histP _ hcA,
    keepA_arg1, histN _ hcP, keepP_arg2, keepA_arg2]
  rfl

theorem arg0_eq (V : Valuation τ sig (Elt F)) :
    after ops V (main_arg0 : DevRef τ sig) = V (main_arg0 : DevRef τ sig) := by
  show after (opsA ++ (opsP ++ (opsN ++ opsT))) V _ = _
  rw [after_append, after_append, after_append, keepT_arg0, keepN_arg0, keepP_arg0, keepA_arg0]

theorem arg1_eq (V : Valuation τ sig (Elt F)) :
    after ops V (main_arg1 : DevRef τ sig) = V (main_arg1 : DevRef τ sig) := by
  show after (opsA ++ (opsP ++ (opsN ++ opsT))) V _ = _
  rw [after_append, after_append, after_append, keepT_arg1, keepN_arg1, keepP_arg1, keepA_arg1]

theorem arg2_eq (V : Valuation τ sig (Elt F)) :
    after ops V (main_arg2 : DevRef τ sig) = V (main_arg2 : DevRef τ sig) := by
  show after (opsA ++ (opsP ++ (opsN ++ opsT))) V _ = _
  rw [after_append, after_append, after_append, keepT_arg2, keepN_arg2, keepP_arg2, keepA_arg2]

/-- On the one device, for any float values, from any memory with zero counters: every weakly fair execution of
    the program terminates with the result tensor at `Hand.out` of the three arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v102) = Hand.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v102).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ (fun _ => ops_fresh))

end Cert.ReferenceIdeal.HandRun

end
-- ==== Proof.HistSpec.lean ====
/-
  What the two programs count. A pixel value `x` (an extended real) is scaled by the f32 constant 256/255 (the word
  0x3F808081, the same word in both programs, never evaluated), rounded down, and converted to a signed 32-bit word:
  that word is the pixel's bin. The pixel is counted in bin `b` (0 ≤ b < 256) exactly when the word, read as a signed
  integer, is `b`: a word outside [0, 256) is counted nowhere. A histogram entry is the number of pixels counted in
  its bin, as a sum of ones and zeros on the extended reals.
-/
import Idealize.ShloMosaic.PureOps.Ideal

noncomputable section

namespace Cert.HistSpec

open Idealize.ShloMosaic

/-- The bin word of a pixel value: ⌊x · (256/255 as f32)⌋ converted to a signed 32-bit word. -/
def binOf (x : EReal) : BitVec 32 :=
  Ideal.fptosi 32 (Ideal.liftRound Int.floor (x * Ideal.ofBits .f32 0x3F808081#32))

/-- One if the pixel `x` falls in bin `b`, zero otherwise. For `b < 256` the condition already says the bin word lies
    in [0, 256). -/
def hit (x : EReal) (b : ℕ) : EReal :=
  if (binOf x).toInt = (b : ℤ) then 1 else 0

/-- The number of entries of a finite family of pixel values that fall in bin `b`. -/
def count {ι : Type} [Fintype ι] (x : ι → EReal) (b : ℕ) : EReal :=
  ∑ i, hit (x i) b

theorem hit_eq_zero_or_one (x : EReal) (b : ℕ) : hit x b = 0 ∨ hit x b = 1 := by
  unfold hit; split <;> simp

end Cert.HistSpec

end
-- ==== Proof.KPayload.lean ====
/-
  The kernel body's arithmetic read as counts, at the ideal values.

  One sub-tile of 32 × 128 pixel values is scaled and rounded down to bin words; a word outside [0, 256) is replaced by
  the word −1, which equals no bin number; the word is compared with every bin number k < 256, giving a 32 × 128 × 256
  array of zeros and ones; that array, read as 4096 rows of 256 bins, is multiplied from the left by a row of 4096 ones.
  Entry k of the product is therefore the number of the sub-tile's pixels whose bin word is k. The 4096 rows are the
  pairs (row, lane) in row-major order, so the sum over them is the double sum over rows and lanes. The eight
  sub-tiles' counts are added up from zero and the total is added to the accumulator.
-/
import proofs.«425628_j89386859364662_3_alg».proof.Proof.Gen.KernelIdeal.Skeleton
import proofs.«425628_j89386859364662_3_alg».proof.Proof.HistSpec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Mathlib.Algebra.BigOperators.Fin

noncomputable section

open scoped BigOperators

namespace Cert.KernelIdeal.HandPayload

open Cert.KernelIdeal Cert.KernelIdeal.Gen Idealize.ShloMosaic Idealize.ShloMosaic.ValueIdx

/-! ## 4096 rows are 32 rows of 128 lanes -/

/-- A position below 4096 is a row (the quotient by 128) and a lane (the remainder), and conversely. -/
def splitEquiv : Fin 32 × Fin 128 ≃ Fin 4096 where
  toFun p := ⟨p.1.val * 128 + p.2.val, by have := p.1.isLt; have := p.2.isLt; omega⟩
  invFun c := (⟨c.val / 128, by have := c.isLt; omega⟩, ⟨c.val % 128, by omega⟩)
  left_inv p := by
    obtain ⟨r, l⟩ := p
    have := r.isLt; have := l.isLt
    refine Prod.ext (Fin.ext ?_) (Fin.ext ?_)
    · show (r.val * 128 + l.val) / 128 = r.val
      omega
    · show (r.val * 128 + l.val) % 128 = l.val
      omega
  right_inv c := by
    refine Fin.ext ?_
    show c.val / 128 * 128 + c.val % 128 = c.val
    omega

/-- A sum over 4096 positions is the double sum over rows and lanes. -/
theorem sum_fin4096 {M : Type} [AddCommMonoid M] (f : Fin 4096 → M) :
    ∑ c : Fin 4096, f c
      = ∑ r : Fin 32, ∑ l : Fin 128, f ⟨r.val * 128 + l.val, by have := r.isLt; have := l.isLt; omega⟩ := by
  rw [← Equiv.sum_comp splitEquiv f, Fintype.sum_prod_type]
  rfl

/-! ## The product with a row of ones -/

/-- The bf16 word 0x3F80 is the number one: exponent field 127 (the bias), significand field zero. -/
theorem ofBits_one_bf16 : Ideal.ofBits .bf16 0x3F80#16 = 1 := by
  simp [Ideal.ofBits, Ideal.ieee]
  rw [← EReal.coe_mul]
  norm_num

/-- The kernel's product is the plain product of a 1 × 4096 by a 4096 × 256 matrix. -/
theorem dot_eq_plain : dot_S1x4096_S4096x256_S1x256_1_0_0_1_n_n = DotDims.plain 1 4096 256 := rfl

/-- A plain matrix product accumulated into zeros, read at an entry, is the sum over the contracted coordinate of the
    products of the entries. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec .single A B (ix2 a b)).symm.trans
      (StackMember.dotGeneral_plain_apply prec A B a b))

/-- The counts of a 32 × 128 × 256 array of zeros and ones: the row of 4096 ones times the array read as 4096 × 256,
    accumulated into zeros. -/
def cnt (oh : FVec Ideal S32x128x256 .bf16) : FVec Ideal S1x256 .f32 :=
  matmul dot_S1x4096_S4096x256_S1x256_1_0_0_1_n_n none
    (broadcast S1x4096 (Scalar.ofBits (F := Ideal) .bf16 0x3F80#16))
    (shapeCast S4096x256 oh shapeCasts_S32x128x256_S4096x256)
    (constant (F := Ideal) S1x256 .f32 0x00000000#32)

/-- Entry b of the counts is the sum of the array's entries (r, l, b) over rows r and lanes l. -/
theorem cnt_apply (oh : FVec Ideal S32x128x256 .bf16) (b : Fin 256) :
    cnt oh (ix2 0 b) = ∑ r : Fin 32, ∑ l : Fin 128, oh (ix3 r l b) := by
  unfold cnt
  rw [dot_eq_plain]
  refine (matmul_plain_zero_apply none _ _ (0 : Fin 1) b).trans ?_
  rw [sum_fin4096]
  refine Finset.sum_congr rfl fun r _ => Finset.sum_congr rfl fun l _ => ?_
  rw [broadcast_apply]
  show Ideal.ofBits .bf16 0x3F80#16 * _ = _
  rw [ofBits_one_bf16, one_mul]
  refine shapeCast_apply oh _ _ (ix3 r l b) ?_
  rw [Shape.rowMajor_val_three, Shape.rowMajor_val_two]
  show (r.val * 128 + l.val) * 256 + b.val = (r.val * 128 + l.val) * 256 + b.val
  rfl

/-! ## One sub-tile: bin words, the words kept, the array of zeros and ones -/

/-- A bin word is kept if it lies in [0, 256); any other word is replaced by the word −1. -/
def keep (x : BitVec 32) : BitVec 32 :=
  Scalar.select (IntOp.andi (IntOp.cmpi .sge x 0#32) (IntOp.cmpi .slt x 256#32)) x 4294967295#32

/-- The kept word is the bin number b < 256 exactly when the word itself, read signed, is b. -/
theorem keep_eq_iff (x : BitVec 32) (b : Fin 256) : keep x = BitVec.ofNat 32 b.val ↔ x.toInt = (b.val : ℤ) := by
  have hb := b.isLt
  have h0 : (0#32).toInt = 0 := by decide
  have h256 : (256#32).toInt = 256 := by decide
  have hx := BitVec.toInt_eq_toNat_cond x
  have hxlt := x.isLt
  have hnat : x = BitVec.ofNat 32 b.val ↔ x.toNat = b.val := by
    rw [← BitVec.toNat_inj, BitVec.toNat_ofNat]
    have : b.val % 2 ^ 32 = b.val := Nat.mod_eq_of_lt (by omega)
    rw [this]
  have hm1 : (4294967295#32 : BitVec 32) = BitVec.ofNat 32 b.val ↔ False := by
    rw [← BitVec.toNat_inj, BitVec.toNat_ofNat, BitVec.toNat_ofNat]
    have : b.val % 2 ^ 32 = b.val := Nat.mod_eq_of_lt (by omega)
    rw [this]
    constructor
    · intro h; norm_num at h; omega
    · exact False.elim
  have e1 : ((0#32).sle x = true) ↔ (0#32).toInt ≤ x.toInt := by
    unfold BitVec.sle
    exact decide_eq_true_iff
  have e2 : (x.slt 256#32 = true) ↔ x.toInt < (256#32).toInt := by
    unfold BitVec.slt
    exact decide_eq_true_iff
  have t11 : ((1 : BitVec 1) &&& 1 = 1) := by decide
  have t10 : ¬ ((1 : BitVec 1) &&& 0 = 1) := by decide
  have t01 : ¬ ((0 : BitVec 1) &&& 1 = 1) := by decide
  have t00 : ¬ ((0 : BitVec 1) &&& 0 = 1) := by decide
  unfold keep Scalar.select IntOp.andi IntOp.cmpi
  by_cases c1 : (0#32).toInt ≤ x.toInt <;> by_cases c2 : x.toInt < (256#32).toInt
  · rw [e1.mpr c1, e2.mpr c2]
    simp only [BitVec.ofBool_true]
    rw [if_pos t11, hnat]
    constructor <;> intro h <;> split_ifs at hx <;> omega
  · rw [e1.mpr c1, Bool.eq_false_iff.mpr (mt e2.mp c2)]
    simp only [BitVec.ofBool_true, BitVec.ofBool_false]
    rw [if_neg t10, hm1]
    constructor
    · exact False.elim
    · intro h; omega
  · rw [Bool.eq_false_iff.mpr (mt e1.mp c1), e2.mpr c2]
    simp only [BitVec.ofBool_true, BitVec.ofBool_false]
    rw [if_neg t01, hm1]
    constructor
    · exact False.elim
    · intro h; omega
  · rw [Bool.eq_false_iff.mpr (mt e1.mp c1), Bool.eq_false_iff.mpr (mt e2.mp c2)]
    simp only [BitVec.ofBool_false]
    rw [if_neg t00, hm1]
    constructor
    · exact False.elim
    · intro h; omega

/-- The bin words of a sub-tile. -/
def binV (v : Vec Ideal S1x32x128 .f32) : IVec S32x128 32 :=
  fptosi 32 (floor (mulf (shapeCast S32x128 v shapeCasts_S1x32x128_S32x128)
    (broadcast S32x128 (Scalar.ofBits (F := Ideal) .f32 0x3F808081#32))))

/-- The words kept, entry by entry. -/
def clampV (idx : IVec S32x128 32) : IVec S32x128 32 :=
  select (andi (cmpi .sge idx (broadcast S32x128 0#32)) (cmpi .slt idx (broadcast S32x128 256#32))) idx
    (broadcast S32x128 4294967295#32)

/-- The array of zeros and ones of a word array: entry (r, l, k) says whether word (r, l) is k. -/
def onehotW (w : IVec S32x128 32) : FVec Ideal S32x128x256 .bf16 :=
  truncf .bf16 (sitofp .f32 (extui 32 (cmpi .eq
    (broadcastTo S32x128x256 (shapeCast S32x128x1 w shapeCasts_S32x128_S32x128x1) broadcasts_S32x128x1_S32x128x256)
    (iota .tc S32x128x256 32 [2] iota_S32x128x256_d2_w32)) natLt_1_32)) bitsLt_bf16_f32

theorem binV_apply (v : Vec Ideal S1x32x128 .f32) (r : Fin 32) (l : Fin 128) :
    binV v (ix2 r l) = Cert.HistSpec.binOf (v (ix3 0 r l)) := by
  unfold binV Cert.HistSpec.binOf
  show Ideal.fptosi 32 (Ideal.liftRound Int.floor
    (shapeCast S32x128 v shapeCasts_S1x32x128_S32x128 (ix2 r l) * Ideal.ofBits .f32 0x3F808081#32)) = _
  rw [shapeCast_1ab_ab_apply]

theorem clampV_apply (idx : IVec S32x128 32) (r : Fin 32) (l : Fin 128) :
    clampV idx (ix2 r l) = keep (idx (ix2 r l)) := rfl

theorem onehotW_apply (w : IVec S32x128 32) (r : Fin 32) (l : Fin 128) (b : Fin 256) :
    onehotW w (ix3 r l b) = if w (ix2 r l) = BitVec.ofNat 32 b.val then 1 else 0 := by
  unfold onehotW
  rw [truncf_apply, sitofp_apply, extui_apply]
  show FloatOps.sitofp (F := Ideal) .f32 ((IntOp.cmpi .eq
      (broadcastTo S32x128x256 (shapeCast S32x128x1 w shapeCasts_S32x128_S32x128x1) broadcasts_S32x128x1_S32x128x256 (ix3 r l b))
      (iota .tc S32x128x256 32 [2] iota_S32x128x256_d2_w32 (ix3 r l b))).setWidth 32) = _
  rw [broadcastTo_apply _ _ (ix3 r l b) (ix3 r l (0 : Fin 1)) (by
        intro a
        match a with
        | ⟨0, _⟩ => rfl
        | ⟨1, _⟩ => rfl
        | ⟨2, _⟩ => rfl),
    shapeCast_apply w _ (ix3 r l (0 : Fin 1)) (ix2 r l) (by
        rw [Shape.rowMajor_val_three, Shape.rowMajor_val_two]
        show r.val * 128 + l.val = (r.val * 128 + l.val) * 1 + 0
        omega)]
  have hi : iota .tc S32x128x256 32 [2] iota_S32x128x256_d2_w32 (ix3 r l b) = BitVec.ofNat 32 b.val := by
    show BitVec.ofNat 32 (0 * 256 + b.val) = _
    rw [Nat.zero_mul, Nat.zero_add]
  rw [hi]
  show (((((IntOp.cmpi .eq (w (ix2 r l)) (BitVec.ofNat 32 b.val)).setWidth 32).toInt : ℝ) : EReal)) = _
  unfold IntOp.cmpi
  by_cases h : w (ix2 r l) = BitVec.ofNat 32 b.val
  · rw [if_pos h]
    have : (w (ix2 r l) == BitVec.ofNat 32 b.val) = true := by simpa using h
    rw [this]
    simp
  · rw [if_neg h]
    have : (w (ix2 r l) == BitVec.ofNat 32 b.val) = false := by simpa using h
    rw [this]
    simp

/-! ## A sub-tile's counts -/

/-- The number of a sub-tile's pixels that fall in bin b. -/
def subCount (v : Vec Ideal S1x32x128 .f32) (b : Fin 256) : EReal :=
  ∑ r : Fin 32, ∑ l : Fin 128, Cert.HistSpec.hit (v (ValueIdx.ix3 0 r l)) b.val

/-- The [1, 256] counts the kernel computes from one sub-tile. -/
def tileCnt (v : Vec Ideal S1x32x128 .f32) : FVec Ideal S1x256 .f32 := cnt (onehotW (clampV (binV v)))

/-- Entry b of a sub-tile's counts is the number of its pixels in bin b: each entry of the array of zeros and ones is
    one exactly when the pixel's bin word is b. -/
theorem tileCnt_apply (v : Vec Ideal S1x32x128 .f32) (b : Fin 256) : tileCnt v (ix2 0 b) = subCount v b := by
  unfold tileCnt subCount
  rw [cnt_apply]
  refine Finset.sum_congr rfl fun r _ => Finset.sum_congr rfl fun l _ => ?_
  rw [onehotW_apply, clampV_apply, binV_apply]
  unfold Cert.HistSpec.hit
  exact if_congr (keep_eq_iff _ b) rfl rfl

/-! ## The payloads -/

/-- The zero vector [1, 256]. -/
def zeros : FVec Ideal S1x256 .f32 := broadcast S1x256 (Scalar.ofBits (F := Ideal) .f32 0x00000000#32)

theorem zeros_apply (b : Fin 256) : zeros (ix2 0 b) = 0 := Ideal.ofBits_zero_f32

theorem pay3_eq : k0_pay3 (F := Ideal) = shapeCast S1x256 zeros shapeCasts_S1x256_S1x256 := rfl
theorem pay4_eq (v : Vec Ideal S1x32x128 .f32) : k0_pay4 (F := Ideal) v = addf zeros (tileCnt v) := rfl
theorem pay6_eq (a : FVec Ideal S1x256 .f32) (v : Vec Ideal S1x32x128 .f32) :
    k0_pay6 (F := Ideal) a (k0_pay5 v) = addf a (tileCnt v) := rfl
theorem pay7_eq (v : Vec Ideal S1x32x128 .f32) : k0_pay7 (F := Ideal) v = tileCnt v := rfl
theorem pay8_eq (a c : FVec Ideal S1x256 .f32) (v : Vec Ideal S1x32x128 .f32) :
    k0_pay8 (F := Ideal) a c v = addf (addf a c) (tileCnt v) := rfl
theorem pay11_eq (a : FVec Ideal S1x256 .f32) (v w : Vec Ideal S1x32x128 .f32) :
    k0_pay11 (F := Ideal) a (k0_pay9 v) (k0_pay10 v) 4294967295#32 w = addf (addf a (tileCnt v)) (tileCnt w) := rfl
theorem pay12_eq (a : FVec Ideal S1x256 .f32) (v : Vec Ideal S1x32x128 .f32) :
    k0_pay12 (F := Ideal) a v = addf a (tileCnt v) := rfl
theorem pay1_eq (a acc : FVec Ideal S1x256 .f32) (v : Vec Ideal S1x32x128 .f32) :
    k0_pay1 (F := Ideal) a (k0_pay13 v) acc
      = shapeCast S1x256 (addf acc (addf a (tileCnt v))) shapeCasts_S1x256_S1x256 := rfl

/-- The zero vector the accumulator starts from. -/
theorem pay3_apply (b : Fin 256) : k0_pay3 (F := Ideal) (ValueIdx.ix2 0 b) = 0 := by
  rw [pay3_eq, shapeCast_self]
  exact zeros_apply b

/-- The final reshape [1, 256] → [1, 1, 256] keeps the entries. -/
theorem pay2_apply (v : Vec Ideal S1x256 .f32) (b : Fin 256) :
    k0_pay2 (F := Ideal) v (ValueIdx.ix3 0 0 b) = v (ValueIdx.ix2 0 b) := by
  unfold k0_pay2
  exact shapeCast_ab_1ab_apply v _ (0 : Fin 1) (0 : Fin 1) b

/-- One grid point's update of the accumulator: entry b grows by the eight sub-tiles' counts of bin b, added up in
    the order first to eighth. -/
theorem tile_apply (acc : Vec Ideal S1x256 .f32) (v0 v1 v2 v3 v4 v5 v6 v7 : Vec Ideal S1x32x128 .f32) (b : Fin 256) :
    k0_pay1 (F := Ideal) (k0_pay12 (k0_pay11 (k0_pay8 (k0_pay6 (k0_pay4 v0) (k0_pay5 v1)) (k0_pay7 v2) v3)
        (k0_pay9 v4) (k0_pay10 v4) 4294967295#32 v5) v6) (k0_pay13 v7) acc (ValueIdx.ix2 0 b)
      = acc (ValueIdx.ix2 0 b) + (subCount v0 b + subCount v1 b + subCount v2 b + subCount v3 b + subCount v4 b
          + subCount v5 b + subCount v6 b + subCount v7 b) := by
  rw [pay1_eq, pay12_eq, pay11_eq, pay8_eq, pay7_eq, pay6_eq, pay4_eq, shapeCast_self]
  simp only [addf_apply, tileCnt_apply, zeros_apply, zero_add]

end Cert.KernelIdeal.HandPayload

end
-- ==== Proof.KAccum.lean ====
/-
  The accumulator read as counts. One grid point adds to every entry b of the accumulator the number of pixels of its
  eight sub-tiles that fall in bin b. The twelve points of one image start from the zero vector at the first and each
  later one continues from what the point before left, so after the twelfth the accumulator holds, entry by entry, the
  sum over the twelve tiles and their eight sub-tiles of the sub-tiles' counts.
-/
import proofs.«425628_j89386859364662_3_alg».proof.Proof.KPayload
import proofs.«425628_j89386859364662_3_alg».proof.Proof.KAccDef
import Mathlib.Algebra.BigOperators.Fin
import Mathlib.Algebra.BigOperators.Intervals

noncomputable section

open scoped BigOperators

namespace Cert.KernelIdeal.HandPayload

open Cert.KernelIdeal Cert.KernelIdeal.Gen Idealize.ShloMosaic Idealize.ShloMosaic.ValueIdx

/-- One point's update: entry b grows by the eight sub-tiles' counts of bin b. -/
theorem tileAcc_apply (v : Fin 8 → Vec Ideal S1x32x128 .f32) (acc : Vec Ideal S1x256 .f32) (b : Fin 256) :
    tileAcc (F := Ideal) v acc (ValueIdx.ix2 0 b) = acc (ValueIdx.ix2 0 b) + ∑ s : Fin 8, subCount (v s) b := by
  unfold tileAcc
  rw [tile_apply, Fin.sum_univ_eight]

/-- A point whose number is a multiple of twelve starts from the zero vector, be it the very first or a later one. -/
theorem accRec_reset (blk : ℕ → Fin 8 → Vec Ideal S1x32x128 .f32) (n : ℕ) (h : n % 12 = 0) :
    accRec (F := Ideal) blk n = tileAcc (blk n) (k0_pay3 (F := Ideal)) := by
  cases n with
  | zero => rfl
  | succ m =>
    show (if (m + 1) % 12 = 0 then tileAcc (blk (m + 1)) (k0_pay3 (F := Ideal))
      else tileAcc (blk (m + 1)) (accRec blk m)) = _
    rw [if_pos h]

/-- Any other point continues from what the point before left. -/
theorem accRec_step (blk : ℕ → Fin 8 → Vec Ideal S1x32x128 .f32) (m : ℕ) (h : ¬ (m + 1) % 12 = 0) :
    accRec (F := Ideal) blk (m + 1) = tileAcc (blk (m + 1)) (accRec blk m) := by
  show (if (m + 1) % 12 = 0 then tileAcc (blk (m + 1)) (k0_pay3 (F := Ideal))
    else tileAcc (blk (m + 1)) (accRec blk m)) = _
  rw [if_neg h]

/-- After point k ≤ 11 of image img the accumulator holds the counts of the image's tiles 0 … k. -/
theorem accRec_partial (blk : ℕ → Fin 8 → Vec Ideal S1x32x128 .f32) (img : ℕ) (b : Fin 256) :
    ∀ k : ℕ, k ≤ 11 →
      accRec (F := Ideal) blk (12 * img + k) (ValueIdx.ix2 0 b)
        = ∑ t ∈ Finset.range (k + 1), ∑ s : Fin 8, subCount (blk (12 * img + t) s) b := by
  intro k
  induction k with
  | zero =>
    intro _
    rw [accRec_reset blk (12 * img + 0) (by omega), tileAcc_apply, pay3_apply, zero_add, Finset.sum_range_one]
  | succ k ih =>
    intro hk
    have hne : ¬ (12 * img + k + 1) % 12 = 0 := by omega
    rw [Finset.sum_range_succ]
    show accRec (F := Ideal) blk (12 * img + k + 1) (ValueIdx.ix2 0 b)
      = (∑ t ∈ Finset.range (k + 1), ∑ s : Fin 8, subCount (blk (12 * img + t) s) b)
        + ∑ s : Fin 8, subCount (blk (12 * img + k + 1) s) b
    rw [accRec_step blk (12 * img + k) hne, tileAcc_apply, ih (by omega)]

/-- After an image's twelfth point the accumulator holds the image's counts: the sum over its twelve tiles and their
    eight sub-tiles. -/
theorem accRec_apply (blk : ℕ → Fin 8 → Vec Ideal S1x32x128 .f32) (img : ℕ) (b : Fin 256) :
    accRec (F := Ideal) blk (12 * img + 11) (ValueIdx.ix2 0 b)
      = ∑ tile : Fin 12, ∑ s : Fin 8, subCount (blk (12 * img + tile.val) s) b := by
  rw [accRec_partial blk img b 11 (le_refl _)]
  show ∑ t ∈ Finset.range 12, ∑ s : Fin 8, subCount (blk (12 * img + t) s) b = _
  exact Finset.sum_range (fun t => ∑ s : Fin 8, subCount (blk (12 * img + t) s) b)

end Cert.KernelIdeal.HandPayload

end
-- ==== Proof.SumSplit.lean ====
/-
  Re-indexing of finite sums. A reshape of an array only renames its indices (row-major position is kept), so a sum
  of any function of the entries is the same before and after; a range of rows splits into tiles, sub-tiles and rows
  within a sub-tile by division with remainder; a sum over the index set of a rank-3 array is the triple sum over its
  three coordinates. Everything is stated for an arbitrary commutative additive monoid.
-/
import Mathlib.Algebra.BigOperators.Fin
import Mathlib.Algebra.BigOperators.Group.Finset.Basic
import Idealize.ShloMosaic.Lib.ValueIdx
import Idealize.ShloMosaic.Lib.Pipeline.Value

open scoped BigOperators

namespace Cert.SumSplit

open Idealize.ShloMosaic

/-- A reshape only renames indices: the reshaped array read at `i` is the original at the index with the same
    row-major position, and that matching of indices is a bijection, so summing any function of the entries over the
    reshaped array is summing it over the original. -/
theorem sum_shapeCast {s t : Shape} {α : Type} {M : Type} [AddCommMonoid M] (h : s.ShapeCasts t) (v : s.Idx → α)
    (f : α → M) : ∑ i : t.Idx, f (shapeCast t v h i) = ∑ j : s.Idx, f (v j) :=
  Equiv.sum_comp (Shape.reshapeEquiv h) (fun j => f (v j))

/-- A row number below 3072 is a tile number (the quotient by 256), a sub-tile number (the quotient of the remainder
    by 32) and a row within the sub-tile (the remainder by 32), and conversely. -/
def rowsEquiv : Fin 12 × Fin 8 × Fin 32 ≃ Fin 3072 where
  toFun p := ⟨p.1.val * 256 + p.2.1.val * 32 + p.2.2.val, by
    have := p.1.isLt; have := p.2.1.isLt; have := p.2.2.isLt; omega⟩
  invFun r := (⟨r.val / 256, by have := r.isLt; omega⟩, ⟨r.val % 256 / 32, by omega⟩, ⟨r.val % 32, by omega⟩)
  left_inv p := by
    obtain ⟨t, s, r⟩ := p
    have := t.isLt; have := s.isLt; have := r.isLt
    refine Prod.ext (Fin.ext ?_) (Prod.ext (Fin.ext ?_) (Fin.ext ?_))
    · show (t.val * 256 + s.val * 32 + r.val) / 256 = t.val
      omega
    · show (t.val * 256 + s.val * 32 + r.val) % 256 / 32 = s.val
      omega
    · show (t.val * 256 + s.val * 32 + r.val) % 32 = r.val
      omega
  right_inv r := by
    refine Fin.ext ?_
    show r.val / 256 * 256 + r.val % 256 / 32 * 32 + r.val % 32 = r.val
    omega

/-- 3072 rows are 12 tiles of 8 sub-tiles of 32 rows. -/
theorem sum_rows {M : Type} [AddCommMonoid M] (f : Fin 3072 → M) :
    ∑ row : Fin 3072, f row
      = ∑ t : Fin 12, ∑ s : Fin 8, ∑ r : Fin 32,
          f ⟨t.val * 256 + s.val * 32 + r.val, by have := t.isLt; have := s.isLt; have := r.isLt; omega⟩ := by
  rw [← Equiv.sum_comp rowsEquiv f, Fintype.sum_prod_type]
  refine Finset.sum_congr rfl fun t _ => ?_
  rw [Fintype.sum_prod_type]
  rfl

/-- The index set of a rank-3 array is the product of its three coordinate ranges … -/
def idxEquiv3 {n0 n1 n2 : Nat} : (⟨3, ![n0, n1, n2]⟩ : Shape).Idx ≃ Fin n0 × Fin n1 × Fin n2 where
  toFun i := (i 0, i 1, i 2)
  invFun p := ValueIdx.ix3 p.1 p.2.1 p.2.2
  left_inv i := (ValueIdx.eq_ix3 i).symm
  right_inv _ := rfl

/-- … so a sum over it is the triple sum over the coordinates. -/
theorem sum_idx3 {M : Type} [AddCommMonoid M] {n0 n1 n2 : Nat} (f : (⟨3, ![n0, n1, n2]⟩ : Shape).Idx → M) :
    ∑ i, f i = ∑ a : Fin n0, ∑ b : Fin n1, ∑ c : Fin n2, f (ValueIdx.ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over the index set of a [2, 3072, 128] array is the triple sum over image half, row and lane. -/
theorem sum_idx3_2x3072x128 {M : Type} [AddCommMonoid M] (f : (⟨3, ![2, 3072, 128]⟩ : Shape).Idx → M) :
    ∑ i, f i = ∑ h : Fin 2, ∑ row : Fin 3072, ∑ l : Fin 128, f (ValueIdx.ix3 h row l) :=
  sum_idx3 f

end Cert.SumSplit
-- ==== Proof.KCount.lean ====
/-
  The histograms the program forms after the region are counts over the flattened images. Bin b of image k's
  histogram is the sum of rows 2k and 2k + 1 of the region's [6, 1, 256] result; each of those rows is the accumulator
  after the last of the twelve points of one half of the image's rows, which holds the half's counts: the 3072 rows
  of a half are 12 tiles of 8 sub-tiles of 32 rows, and each sub-tile's pixels are the corresponding rows of the
  half. The two halves together are the image's prepared array, and that array is the flattened image re-laid, so the
  counts are the flattened image's.
-/
import proofs.«425628_j89386859364662_3_alg».proof.Proof.KInduct
import proofs.«425628_j89386859364662_3_alg».proof.Proof.KFinal
import proofs.«425628_j89386859364662_3_alg».proof.Proof.KHost
import proofs.«425628_j89386859364662_3_alg».proof.Proof.KAccum
import proofs.«425628_j89386859364662_3_alg».proof.Proof.KPayload
import proofs.«425628_j89386859364662_3_alg».proof.Proof.SumSplit

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.HandPayload

variable {F : FTy → Type} [FloatOps F]

/-! ## The stacked array read at an image's half -/

/-- Row (2k + h, row, l) of the three stacked arrays is entry (h, row, l) of array k. -/
theorem stack_read (u : Fin 3 → FVec F S2x3072x128 .f32) (k : Fin 3) (h : Fin 2) (row : Fin 3072) (l : Fin 128) :
    stack (u 0) (u 1) (u 2) (ValueIdx.ix3 ⟨2 * k.val + h.val, by omega⟩ row l) = u k (ValueIdx.ix3 h row l) := by
  match k with
  | ⟨0, _⟩ => exact stack_apply (u 0) (u 1) (u 2) 0 h row l
  | ⟨1, _⟩ => exact stack_apply (u 0) (u 1) (u 2) 1 h row l
  | ⟨2, _⟩ => exact stack_apply (u 0) (u 1) (u 2) 2 h row l

/-! ## Two halves of an image: the accumulators' final contents are the image's counts -/

/-- If, for each half h of an image's rows, the sub-tiles the twelve points of that half load are the rows
    256·tile + 32·s + r of the half, then the two final accumulators, entry b, add up to the number of the image's
    entries that fall in bin b: the 3072 rows of a half are 12 tiles of 8 sub-tiles of 32 rows. -/
theorem pair_count_core (blk : ℕ → Fin 8 → Vec Ideal S1x32x128 .f32) (w : FVec Ideal S2x3072x128 .f32) (b : Fin 256)
    (base : Fin 2 → ℕ)
    (hblk : ∀ (h : Fin 2) (tile : Fin 12) (s : Fin 8) (r : Fin 32) (l : Fin 128),
      blk (12 * base h + tile.val) s (ValueIdx.ix3 0 r l)
        = w (ValueIdx.ix3 h ⟨tile.val * 256 + s.val * 32 + r.val, by
            have := tile.isLt; have := s.isLt; have := r.isLt; omega⟩ l)) :
    k0_pay2 (F := Ideal) (accRec blk (12 * base 0 + 11)) (ValueIdx.ix3 0 0 b)
        + k0_pay2 (F := Ideal) (accRec blk (12 * base 1 + 11)) (ValueIdx.ix3 0 0 b)
      = ∑ i : S2x3072x128.Idx, Cert.HistSpec.hit (w i) b.val := by
  have half : ∀ h : Fin 2, k0_pay2 (F := Ideal) (accRec blk (12 * base h + 11)) (ValueIdx.ix3 0 0 b)
      = ∑ row : Fin 3072, ∑ l : Fin 128, Cert.HistSpec.hit (w (ValueIdx.ix3 h row l)) b.val := by
    intro h
    rw [pay2_apply, accRec_apply, Cert.SumSplit.sum_rows]
    refine Finset.sum_congr rfl fun t _ => Finset.sum_congr rfl fun s _ => ?_
    unfold subCount
    refine Finset.sum_congr rfl fun r _ => Finset.sum_congr rfl fun l _ => ?_
    rw [hblk h t s r l]
  rw [half 0, half 1, Cert.SumSplit.sum_idx3_2x3072x128, Fin.sum_univ_two]

/-! ## The pair sums are counts -/

section AtIdeal
variable (m : (ℓ : Loc nD τ sig) → Buf (Elt Ideal) ℓ)

/-- Bin b of image k's histogram, the sum of the two rows 2k and 2k + 1 of the region's result, is the number of entries
    of the image's prepared array that fall in bin b. -/
theorem pairSum_count (c : Dev nD) (u : Fin 3 → FVec Ideal S2x3072x128 .f32)
    (hV : V m c main_v36 = stack (u 0) (u 1) (u 2)) (k : Fin 3) (b : Fin 256) :
    pairSum (F := Ideal) (Gout m c) k (ValueIdx.ix2 b 0) = ∑ i : S2x3072x128.Idx, Cert.HistSpec.hit (u k i) b.val := by
  have hk := k.isLt
  have h72 : cfg0.N = 72 := N_0
  rw [pairSum_apply, Gout_apply m c ⟨2 * k.val, by omega⟩ b, Gout_apply m c ⟨2 * k.val + 1, by omega⟩ b]
  refine pair_count_core (blkOf m c) (u k) b (fun h => 2 * k.val + h.val) ?_
  intro h tile s r l
  have hh := h.isLt
  have ht := tile.isLt
  have hs := s.isLt
  have hr := r.isLt
  have hlt : 12 * (2 * k.val + h.val) + tile.val < cfg0.N := by omega
  have p6 : 2 * k.val + h.val < 6 := by omega
  have p3072 : tile.val * 256 + s.val * 32 + r.val < 3072 := by omega
  have key : ∀ (a : Fin 6) (q : Fin 3072), a.val = 2 * k.val + h.val → q.val = tile.val * 256 + s.val * 32 + r.val →
      stack (u 0) (u 1) (u 2) (ValueIdx.ix3 a q l)
        = u k (ValueIdx.ix3 h ⟨tile.val * 256 + s.val * 32 + r.val, p3072⟩ l) := by
    intro a q ha hq
    obtain rfl : a = ⟨2 * k.val + h.val, p6⟩ := Fin.ext ha
    obtain rfl : q = ⟨tile.val * 256 + s.val * 32 + r.val, p3072⟩ := Fin.ext hq
    exact stack_read u k h _ l
  show blkOf m c (12 * (2 * k.val + h.val) + tile.val) s (ValueIdx.ix3 0 r l) = _
  rw [blkOf_lt m c _ hlt, blk_read m c ⟨_, hlt⟩ s r l, hV]
  exact key _ _ (by dsimp only; omega) (by dsimp only; omega)

end AtIdeal

/-- The prepared array only re-lays the flattened image, so its entries in bin b are as many as the flattened
    image's. -/
theorem count_prep (g : FVec Ideal S3x512x512 .f32) (b : ℕ) :
    (∑ i : S2x3072x128.Idx, Cert.HistSpec.hit (prep (F := Ideal) g i) b)
      = Cert.HistSpec.count (fun j : S786432.Idx => shapeCast S786432 g shapeCasts_S3x512x512_S786432 j) b := by
  unfold prep Cert.HistSpec.count
  rw [Cert.SumSplit.sum_shapeCast shapeCasts_S6144x128_S2x3072x128 _ (fun x => Cert.HistSpec.hit x b),
    Cert.SumSplit.sum_shapeCast shapeCasts_S786432_S6144x128 _ (fun x => Cert.HistSpec.hit x b)]

end Cert.KernelIdeal.Hand

end
-- ==== Proof.Cross.lean ====
/-
  The two programs' host functions are the same functions. Both declare the same literal shapes, the same shape
  relations and the same channel table [0, 8, 10], each in its own vocabulary; the kernel program's gather of the three
  channels of the last batch element is the reference's, for each of its three inputs, and the closing ratio of mean
  absolute histogram differences is the reference's.
-/
import proofs.«425628_j89386859364662_3_alg».proof.Proof.KHost
import proofs.«425628_j89386859364662_3_alg».proof.Proof.RefTerm
import proofs.«425628_j89386859364662_3_alg».proof.Proof.Gen.ReferenceIdeal
import Mathlib.Tactic.FinCases

noncomputable section

namespace Cert.Cross

open Idealize.ShloMosaic

variable {F : FTy → Type} [FloatOps F]

/-- Each of the kernel program's three channel tables is the reference's table: the entries 0, 8, 10. -/
theorem chanLit_eq (k : Fin 3) : Cert.KernelIdeal.Hand.chanLit k = Cert.ReferenceIdeal.lit0 := by
  fin_cases k <;> funext i <;> fin_cases i <;> rfl

/-- So the normalised start indices are the same column. -/
theorem chanIdx_eq (k : Fin 3) :
    Cert.KernelIdeal.Hand.chanIdx (F := F) (Cert.KernelIdeal.Hand.chanLit k) = Cert.ReferenceIdeal.Hand.chan := by
  rw [chanLit_eq]
  rfl

attribute [local irreducible] Host.gather in
/-- The three channel images the kernel program takes from input `k` are the reference's gather of that input. -/
theorem gathK_eq (k : Fin 3) (x : FVec F Cert.KernelIdeal.S8x19x512x512 .f32) :
    Cert.KernelIdeal.Hand.gathK k x = Cert.ReferenceIdeal.Hand.gath x := by
  unfold Cert.KernelIdeal.Hand.gathK Cert.ReferenceIdeal.Hand.gath
  rw [chanIdx_eq]
  rfl

attribute [local irreducible] Host.reduceAdd Host.divf Host.absf in
/-- The kernel program's closing ratio of the three histograms is the reference's. -/
theorem tailOf_eq (h0 h1 h2 : FVec F Cert.KernelIdeal.S256x1 .f32) :
    Cert.KernelIdeal.Hand.tailOf h0 h1 h2 = Cert.ReferenceIdeal.Hand.tail h0 h1 h2 := by
  unfold Cert.KernelIdeal.Hand.tailOf Cert.ReferenceIdeal.Hand.tail
  rfl

end Cert.Cross

end
-- ==== Proof.RefValue.lean ====
import proofs.«425628_j89386859364662_3_alg».proof.Proof.RefTerm
import proofs.«425628_j89386859364662_3_alg».proof.Proof.HistSpec
import Idealize.ShloMosaic.Lib.ValueIdx
import Idealize.ShloMosaic.Lib.Pipeline.Value
import Idealize.ShloMosaic.Lib.ValueLayout
import Idealize.ShloMosaic.PureOps.Ideal.Laws

/-!
  The reference histogram read at one bin.  The scatter-add of the validity marks into 256 zeros
  at the clipped bin indices is, at bin `b`, the number of elements whose bin word, read as a signed
  integer, is `b`: after the clip every index lies in [0, 255], so no update is dropped and none is
  counted from the end; an update lands on `b` exactly when the clipped word is `b`; and the mark
  added is one when the unclipped word already lies in [0, 256) and zero otherwise, so a clipped
  word equal to `b` contributes exactly when the unclipped word is `b`.
-/

noncomputable section

namespace Cert.ReferenceIdeal.HandValue

open Cert.ReferenceIdeal Cert.ReferenceIdeal.Hand Idealize.ShloMosaic Idealize.ShloMosaic.ValueIdx
open Facts₀ Facts

variable [Facts]

/-! ## One word -/

/-- The bin word clipped to [0, 255]. -/
def clipW (w : BitVec 32) : BitVec 32 := IntOp.minsi 255#32 (IntOp.maxsi 0#32 w)

/-- The negative-index normalisation of a scatter index word. -/
def selW (c : BitVec 32) : BitVec 32 := Scalar.select (IntOp.cmpi .slt c 0#32) (IntOp.addi c 256#32) c

/-- The validity bit of a bin word: 0 ≤ w and w < 256, both signed. -/
def vbit (w : BitVec 32) : BitVec 1 := IntOp.andi (IntOp.cmpi .sge w 0#32) (IntOp.cmpi .slt w 256#32)

/-- The three constants read signed. -/
theorem toInt_0 : (0#32 : BitVec 32).toInt = 0 := by decide
theorem toInt_255 : (255#32 : BitVec 32).toInt = 255 := by decide
theorem toInt_256 : (256#32 : BitVec 32).toInt = 256 := by decide

/-- The clip by cases on the word read signed: below 0 it is 0, in [0, 255] it is the word, above it is 255. -/
theorem clipW_cases (w : BitVec 32) :
    (w.toInt < 0 ∧ clipW w = 0#32) ∨ (0 ≤ w.toInt ∧ w.toInt ≤ 255 ∧ clipW w = w) ∨ (255 < w.toInt ∧ clipW w = 255#32) := by
  unfold clipW IntOp.minsi IntOp.maxsi
  simp only [BitVec.slt, decide_eq_true_eq, toInt_0, toInt_255]
  by_cases h0 : w.toInt < 0
  · left
    refine ⟨h0, ?_⟩
    rw [if_pos h0]
    simp only [toInt_0]
    rw [if_neg (by omega)]
  · rw [if_neg h0]
    by_cases h1 : 255 < w.toInt
    · right; right
      exact ⟨h1, by rw [if_pos h1]⟩
    · right; left
      exact ⟨by omega, by omega, by rw [if_neg h1]⟩

/-- ONE POSITION'S SUMMAND. For a bin `b < 256`: (the validity mark if the clipped, normalised word is `b`, else
    zero) is (one if the word itself is `b`, else zero). Below 0 and above 255 the mark is zero and the word is
    no such `b`; in [0, 255] the clip and the normalisation are the identity and the mark is one. -/
theorem wordSummand (w : BitVec 32) (b : ℕ) (hb : b < 256) :
    (if (selW (clipW w)).toInt = (b : ℤ) then (((vbit w).toNat : ℝ) : EReal) else 0)
      = if w.toInt = (b : ℤ) then 1 else 0 := by
  rcases clipW_cases w with ⟨h, hc⟩ | ⟨h0, h1, hc⟩ | ⟨h, hc⟩
  · rw [hc]
    have hv : vbit w = 0#1 := by
      unfold vbit IntOp.andi IntOp.cmpi
      simp only [BitVec.sle, BitVec.slt, toInt_0, toInt_256]
      rw [decide_eq_false (by omega)]
      simp
    rw [hv, if_neg (show ¬ w.toInt = (b : ℤ) by omega)]
    simp
  · rw [hc]
    have hs : selW w = w := by
      unfold selW Scalar.select IntOp.cmpi
      simp only [BitVec.slt, toInt_0]
      rw [decide_eq_false (by omega)]
      simp
    have hv : vbit w = 1#1 := by
      unfold vbit IntOp.andi IntOp.cmpi
      simp only [BitVec.sle, BitVec.slt, toInt_0, toInt_256]
      rw [decide_eq_true (by omega), decide_eq_true (by omega)]
      decide
    rw [hs, hv]
    simp
  · rw [hc]
    have hv : vbit w = 0#1 := by
      unfold vbit IntOp.andi IntOp.cmpi
      simp only [BitVec.sle, BitVec.slt, toInt_0, toInt_256]
      rw [decide_eq_false (show ¬ w.toInt < 256 by omega)]
      simp
    rw [hv, if_neg (show ¬ w.toInt = (b : ℤ) by omega)]
    simp

/-! ## Where an update lands -/

local notation "dS" => scatter_S256_S786432x1_S786432_n_0_0_1

/-- The start of update `p` on the one operand axis: the index word at `(p, 0)`, read signed. -/
theorem start_eq {w : Nat} (idx : IVec S786432x1 w) (p : Fin 786432) (a : Fin 1) :
    ScatterDims.start dS (ix1 p) idx a = (idx (ix2 p (0 : Fin 1))).toInt := by
  obtain rfl : a = 0 := Subsingleton.elim _ _
  unfold ScatterDims.start
  rw [dif_pos (show (0 : Fin 1) ∈ (dS).scatterDimsToOperandDims from List.mem_singleton.mpr rfl)]
  have hsi : ScatterDims.siIdx dS (ix1 p) ⟨List.idxOf (0 : Fin 1) (dS).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- The operand axis is an inserted axis: the window coordinate on it is zero. -/
theorem window_eq (p : Fin 786432) (a : Fin 1) : ScatterDims.window dS (ix1 p) a = 0 := by
  obtain rfl : a = 0 := Subsingleton.elim _ _
  unfold ScatterDims.window
  rw [dif_neg]
  intro h
  have : (0 : Fin S256.rank) ∉ S256.kept [0] := by decide
  exact this h

/-- Update `p` lands on bin `b` exactly when its index word, read signed, is `b` (a word outside [0, 256) lands
    nowhere). -/
theorem resultIdx_eq_some_iff {w : Nat} (idx : IVec S786432x1 w) (p : Fin 786432) (b : Fin 256) :
    ScatterDims.resultIdx? dS (ix1 p) idx = some (ix1 b) ↔ (idx (ix2 p (0 : Fin 1))).toInt = (b.val : ℤ) := by
  unfold ScatterDims.resultIdx?
  simp only [start_eq, window_eq]
  have h256 : ((![256] (0 : Fin 1) : ℕ) : ℤ) = 256 := rfl
  constructor
  · intro hh
    by_cases h : ∀ (a : Fin 1), 0 ≤ (idx (ix2 p (0 : Fin 1))).toInt + ((0 : ℕ) : ℤ)
        ∧ (idx (ix2 p (0 : Fin 1))).toInt + ((0 : ℕ) : ℤ) < ((![256] a : ℕ) : ℤ)
    · rw [dif_pos h] at hh
      have h0 := congrArg Fin.val (congrFun (Option.some.inj hh) (0 : Fin 1))
      have h1 := (h 0).1
      change ((idx (ix2 p (0 : Fin 1))).toInt + ((0 : ℕ) : ℤ)).toNat = b.val at h0
      omega
    · rw [dif_neg h] at hh
      exact absurd hh (by simp)
  · intro hz
    have h : ∀ (a : Fin 1), 0 ≤ (idx (ix2 p (0 : Fin 1))).toInt + ((0 : ℕ) : ℤ)
        ∧ (idx (ix2 p (0 : Fin 1))).toInt + ((0 : ℕ) : ℤ) < ((![256] a : ℕ) : ℤ) := by
      intro a
      obtain rfl : a = 0 := Subsingleton.elim _ _
      rw [h256]
      have := b.isLt
      omega
    rw [dif_pos h]
    congr 1
    funext a
    obtain rfl : a = 0 := Subsingleton.elim _ _
    refine Fin.ext ?_
    change ((idx (ix2 p (0 : Fin 1))).toInt + ((0 : ℕ) : ℤ)).toNat = b.val
    omega

/-! ## The program's vectors at one index -/

/-- A column of start indices made from a flat vector reads the flat vector's element. -/
theorem bcastCol_apply {α : Type} (v : S786432.Idx → α) (p : Fin 786432) :
    broadcastInDim S786432x1 ![0] bcast_S786432_S786432x1_0 v (ix2 p (0 : Fin 1)) = v (ix1 p) := by
  unfold broadcastInDim
  refine congrArg v (funext fun a => ?_)
  obtain rfl : a = 0 := Subsingleton.elim _ _
  refine Fin.ext ?_
  rw [dif_neg (by decide)]
  rfl

/-- The element of the gathered channels at flat position `p` (the same row-major position). -/
abbrev at_ (p : Fin 786432) : S3x512x512.Idx := Shape.reshapeEquiv shapeCasts_S3x512x512_S786432 (ix1 p)

/-- The bin word of an element is the specification's bin word of its value. -/
theorem binIdx_apply (g : FVec Ideal S3x512x512 .f32) (k : S3x512x512.Idx) :
    binIdx (F := Ideal) g k = Cert.HistSpec.binOf (g k) := rfl

/-- The scatter index at flat position `p`: the clipped bin word, normalised. -/
theorem scatIdx_apply (g : FVec Ideal S3x512x512 .f32) (p : Fin 786432) :
    scatIdx (F := Ideal) g (ix2 p (0 : Fin 1)) = selW (clipW (binIdx (F := Ideal) g (at_ p))) := by
  unfold scatIdx
  rw [bcastCol_apply]
  rfl

/-- The validity mark at flat position `p`: the validity bit of the bin word, as a number. -/
theorem valid_apply (g : FVec Ideal S3x512x512 .f32) (p : Fin 786432) :
    valid (F := Ideal) g (ix1 p) = (((vbit (binIdx (F := Ideal) g (at_ p))).toNat : ℝ) : EReal) := rfl

/-! ## The histogram at one bin -/

/-- Bin `b` of the flat histogram and entry `(b, 0)` of the column have the same row-major position. -/
theorem rowMaj (b : Fin 256) : (S256.rowMajor (ix1 b)).val = (S256x1.rowMajor (ix2 b (0 : Fin 1))).val := by
  rw [Shape.rowMajor_val_two, Shape.rowMajor_val_one]
  show b.val = b.val * 1 + 0
  omega

/-- The scatter-add at one operand element: the element plus the sum of the updates that land on it. -/
theorem scatterAdd_apply (x : FVec Ideal S256 .f32) (idx : IVec S786432x1 32) (upd : FVec Ideal S786432 .f32)
    (i : S256.Idx) :
    Host.scatterAdd dS x idx upd i
      = x i + ∑ j ∈ Finset.univ.filter (fun j => ScatterDims.resultIdx? dS j idx = some i), upd j := rfl

/-- The operand of the scatter-add is zero everywhere. -/
theorem zeros_apply (i : S256.Idx) :
    broadcastInDim S256 ![] bcast_S_S256 (constant (F := Ideal) S_ .f32 0x00000000#32) i = 0 :=
  Ideal.ofBits_zero_f32

/-- The count over the flat positions is the sum of the hits. -/
theorem count_flat (x : S786432.Idx → EReal) (b : ℕ) :
    Cert.HistSpec.count x b = ∑ j, Cert.HistSpec.hit (x j) b := rfl

/-- THE HISTOGRAM AT BIN `b` is the number of elements whose bin word, read signed, is `b`: the filtered sum
    of the validity marks over the updates landing on `b` is the sum over all positions of (the mark if the
    clipped word is `b`, else zero), and each such summand is the position's hit in bin `b`. -/
theorem histOf_apply (g : FVec Ideal S3x512x512 .f32) (b : Fin 256) :
    histOf (F := Ideal) g (ix2 b (0 : Fin 1))
      = Cert.HistSpec.count (fun j : S786432.Idx => shapeCast S786432 g shapeCasts_S3x512x512_S786432 j) b.val := by
  unfold histOf
  refine (shapeCast_apply _ shapeCasts_S256_S256x1 (ix2 b (0 : Fin 1)) (ix1 b) (rowMaj b)).trans ?_
  refine (scatterAdd_apply _ _ _ _).trans ?_
  rw [zeros_apply, zero_add, count_flat, Finset.sum_filter]
  refine Finset.sum_congr rfl (fun j _ => ?_)
  obtain ⟨p, rfl⟩ : ∃ p : Fin 786432, j = ix1 p := ⟨j 0, eq_ix1 j⟩
  rw [if_congr (resultIdx_eq_some_iff (scatIdx (F := Ideal) g) p b) rfl rfl]
  rw [scatIdx_apply, valid_apply, binIdx_apply]
  exact wordSummand _ _ b.isLt

end Cert.ReferenceIdeal.HandValue

end
-- ==== Proof.Bridge.lean ====
/-
  The one equation that joins the two programs at the extended reals. The kernel program ends in the closing ratio of
  three histograms, each the sum of the two half-image counts the pipelined region leaves; the reference ends in the
  same closing ratio of three scatter-added histograms. Bin by bin, the kernel's histogram of image `k` and the
  reference's histogram of input `k` are both the number of elements of the same three gathered channels whose bin
  word, read as a signed integer, is that bin; so the three histograms are equal and the two results are equal.
-/
import proofs.«425628_j89386859364662_3_alg».proof.Proof.KCount
import proofs.«425628_j89386859364662_3_alg».proof.Proof.Cross
import proofs.«425628_j89386859364662_3_alg».proof.Proof.RefValue
import Idealize.ShloMosaic.Lib.ValueIdx

noncomputable section

namespace Cert.Bridge

open Idealize.ShloMosaic Idealize.ShloMosaic.TcCoe Idealize.ShloMosaic.ValueIdx
open Cert.KernelIdeal.Hand (gathK prep stack pairSum tailOf kerTail V V_main_v36 Gout pairSum_count count_prep)
open Cert.Cross (gathK_eq tailOf_eq)
open Cert.ReferenceIdeal.HandValue (histOf_apply)

variable (m : (ℓ : Loc Cert.KernelIdeal.nD Cert.KernelIdeal.τ Cert.KernelIdeal.sig) → Buf (Elt Ideal) ℓ)

/-- Every index of a [256, 1] column is `(b, 0)` for its bin `b`. -/
theorem eq_col (j : Cert.KernelIdeal.S256x1.Idx) : ∃ b : Fin 256, j = ix2 b (0 : Fin 1) := by
  refine ⟨j 0, ?_⟩
  funext a
  match a with
  | ⟨0, _⟩ => rfl
  | ⟨1, _⟩ => exact Fin.ext (by have := idx2_lt1 j; show (j 1).val = 0; omega)

/-- ONE IMAGE. The kernel program's histogram of image `k` (the two halves' counts added) is the reference's
    histogram of input `k`: at bin `b` both are the number of elements of the image's three gathered channels whose
    bin word, read signed, is `b` — the kernel's count runs over the re-laid image, which has the same elements as the
    flattened one. -/
theorem hk (c : Dev Cert.KernelIdeal.nD) (x : Fin 3 → FVec Ideal Cert.KernelIdeal.S8x19x512x512 .f32)
    (hV : V m c Cert.KernelIdeal.main_v36
      = stack (prep (gathK 0 (x 0))) (prep (gathK 1 (x 1))) (prep (gathK 2 (x 2)))) (k : Fin 3) :
    pairSum (F := Ideal) (Gout m c) k = Cert.ReferenceIdeal.Hand.hist (F := Ideal) (x k) := by
  funext j
  obtain ⟨b, rfl⟩ := eq_col j
  refine (pairSum_count m c (fun k => prep (gathK k (x k))) hV k b).trans ?_
  refine (count_prep (gathK k (x k)) b.val).trans ?_
  rw [gathK_eq]
  exact (histOf_apply (Cert.ReferenceIdeal.Hand.gath (x k)) b).symm

/-- THE TWO PROGRAMS' RESULTS AGREE: the kernel program's closing ratio of its three histograms is the reference's
    result on the three inputs, since the closing ratio is the same function and the three histograms are equal. -/
theorem bridge (c : Dev Cert.KernelIdeal.nD) :
    kerTail (F := Ideal) (Gout m c)
      = Cert.ReferenceIdeal.Hand.out (F := Ideal)
          (m ((c.tc : Thread Cert.KernelIdeal.nD Cert.KernelIdeal.τ).loc Cert.KernelIdeal.main_arg0))
          (m ((c.tc : Thread _ Cert.KernelIdeal.τ).loc Cert.KernelIdeal.main_arg1))
          (m ((c.tc : Thread _ Cert.KernelIdeal.τ).loc Cert.KernelIdeal.main_arg2)) := by
  have hx := hk m c
    (fun k => match k with
      | 0 => m ((c.tc : Thread Cert.KernelIdeal.nD Cert.KernelIdeal.τ).loc Cert.KernelIdeal.main_arg0)
      | 1 => m ((c.tc : Thread _ Cert.KernelIdeal.τ).loc Cert.KernelIdeal.main_arg1)
      | 2 => m ((c.tc : Thread _ Cert.KernelIdeal.τ).loc Cert.KernelIdeal.main_arg2))
    (V_main_v36 m c)
  unfold kerTail Cert.ReferenceIdeal.Hand.out
  rw [tailOf_eq, hx 0, hx 1, hx 2]

end Cert.Bridge

end
-- ==== Proof.lean ====
/-
  A 256-bin histogram loss. For each of three images (the last batch element of each argument, channels 0, 8 and 10,
  786 432 pixels) both programs count, per bin b < 256, the pixels x whose bin word ⌊x · 256/255⌋ (as f32 constant,
  converted to a signed 32-bit word) is b; the result is mean|a − p| / (mean|a − n| + 1e-7) over the three
  histograms. The reference scatters a validity flag (1 when the word lies in [0, 256), else 0) into the bin of the
  word clipped to [0, 255]: on the extended reals that scatter is the exact sum of the flags landing on each bin. The
  kernel re-lays each image as two [3072, 128] halves, walks each half in twelve tiles of 256 rows, and in each tile
  multiplies a row of ones with the one-hot matrix of eight 32-row sub-tiles (a word outside [0, 256) is replaced by
  −1 and matches no bin), adding the counts into an accumulator that is reset at the first tile and copied out at the
  last; the two halves' counts are then added. Both are the same count: a sum of ones and zeros over the same pixels,
  only grouped differently, and addition on the extended reals is commutative and associative, so no finiteness is
  needed. The format changes (f32 → bf16 of the one-hot entries) are the identity at the ideal instance, and the two
  programs' later operations (differences, absolute values, sums, quotients) are the same operations on equal
  histograms. The ideal pass rewrote nothing, so the idealization is the word-level program's own text.

  The three frames: each kernel program is 46 host operations, one pipelined region over a 6 × 12 grid whose body
  is run once per case of its two branches (first tile, middle tiles, last tile) with the accumulator carried from
  point to point by the region's invariant, and 33 host operations; the reference is a straight line of host
  operations. None writes an argument array.
-/
import proofs.«425628_j89386859364662_3_alg».proof.Defs
import proofs.«425628_j89386859364662_3_alg».proof.Proof.Gen.Kernel
import proofs.«425628_j89386859364662_3_alg».proof.Proof.Gen.KernelIdeal
import proofs.«425628_j89386859364662_3_alg».proof.Proof.Gen.ReferenceIdeal
import proofs.«425628_j89386859364662_3_alg».proof.Proof.Gen.Pre_finite_inputs
import proofs.«425628_j89386859364662_3_alg».proof.Proof.BArgs
import proofs.«425628_j89386859364662_3_alg».proof.Proof.KRun
import proofs.«425628_j89386859364662_3_alg».proof.Proof.RefRun
import proofs.«425628_j89386859364662_3_alg».proof.Proof.Bridge
import Idealize.ShloMosaic.Adequacy
import Idealize.ShloMosaic.Init

noncomputable section

namespace Cert.Proof

open Idealize.ShloMosaic Idealize.SL.Sem

/-- The word-level kernel program runs to the end and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- And the reference: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.HandRun.run (F := Ideal) m ρ)

/-- The ideal pass rewrote no operation. -/
theorem preserves : Cert.preserves_Kernel_KernelIdeal := trivial

/-- On the extended reals the two programs end with the same number: the kernel's tile-by-tile counts and the
    reference's scatter are one count per bin, and the later operations are the same. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.kerTail (F := Ideal) (Cert.KernelIdeal.Hand.Gout m c),
    Cert.KernelIdeal.Hand.kernel_run (F := Ideal) m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2]
  exact (Cert.Bridge.bridge m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
